-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x128 .f32) (main_arg1 : IVec S1024 32) (main_arg2 : FVec F S100000x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 100000#32
  let main_v13 : IVec S1024 32 := broadcastInDim S1024 ![] bcast_S_S1024 main_c_4
  let main_v14 : IVec S1024 1 := cmpi .slt main_arg1 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S1024x128 : Shape := ⟨2, ![1024, 128]⟩
abbrev S1024 : Shape := ⟨1, ![1024]⟩
abbrev S100000x128 : Shape := ⟨2, ![100000, 128]⟩
abbrev S1024x1 : Shape := ⟨2, ![1024, 1]⟩
abbrev S1024x100000 : Shape := ⟨2, ![1024, 100000]⟩
abbrev S1024x2 : Shape := ⟨2, ![1024, 2]⟩
abbrev S512x128 : Shape := ⟨2, ![512, 128]⟩
abbrev S2048x128 : Shape := ⟨2, ![2048, 128]⟩
abbrev S512x1 : Shape := ⟨2, ![512, 1]⟩
abbrev S512x2048 : Shape := ⟨2, ![512, 2048]⟩
abbrev S512x2 : Shape := ⟨2, ![512, 2]⟩
abbrev S512 : Shape := ⟨1, ![512]⟩
abbrev S128x2048 : Shape := ⟨2, ![128, 2048]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S1024x1, .i32⟩
  | .hbm, ⟨4, _⟩ => ⟨S1024x100000, .f32⟩
  | .hbm, ⟨5, _⟩ => ⟨S1024x2, .f32⟩
  | .hbm, ⟨6, _⟩ => ⟨S1024x1, .f32⟩
  | .hbm, ⟨7, _⟩ => ⟨S1024, .f32⟩
  | .hbm, ⟨8, _⟩ => ⟨S1024x1, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512x1, .i32⟩
  | .local _ .vmem, ⟨5, _⟩ => ⟨S512x1, .i32⟩
  | .local _ .vmem, ⟨6, _⟩ => ⟨S512x2048, .f32⟩
  | .local _ .vmem, ⟨7, _⟩ => ⟨S512x2048, .f32⟩
  | .local _ .vmem, ⟨8, _⟩ => ⟨S512x2, .f32⟩
  | .local _ .vmem, ⟨9, _⟩ => ⟨S512x2, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x128, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v58 : BitVec 1 := Scalar.cmpi .eq arg1 c48_i32
  let v59 : BitVec 32 := Scalar.extui v58
  let c0_i32_30 : BitVec 32 := 0#32
  let v60 : BitVec 1 := Scalar.cmpi .ne v59 c0_i32_30
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1024_S1024x1 : S1024.ShapeCasts S1024x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  shapeCasts_S512x128_S512x128 : S512x128.ShapeCasts S512x128
  packedbf16_S512x128_S512x128_0_0 : (Rect.unit (s := S512x128) ![0, 0] S512x128.size inb_S512x128_S512x128_0_0).PackedRows (EltTy.packing .bf16)
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  iota_S512x2048_d1_w32 : S512x2048.Iotas .tc 32 [1]
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  concatenates_S512x1_S512x1_S512x2_d1 : Shape.Concatenates [S512x1, S512x1] S512x2 1
  inb_S512x2_S512x2_0_0 : ∀ a, (![0, 0] : Fin 2 → Nat) a + S512x2.size a ≤ S512x2.size a
  h_S512x2 : 0 < S512x2.numel
  slices_S1024x2_S1024x1_0_0 : S1024x2.Slices ![0, 0] S1024x1
  shapeCasts_S1024x1_S1024 : S1024x1.ShapeCasts S1024
  slices_S1024x2_S1024x1_0_1 : S1024x2.Slices ![0, 1] S1024x1
  reducesTo_S1024_S_d0 : S1024.ReducesTo [0] S_
  h_S_ : 0 < S_.numel
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .f32 = 32 ∨ (Rect.block (s := S1024x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S100000x128.size a
  hwx0_1 : ∀ i : grid0.Coords, EltTy.bits .f32 = 32 ∨ (Rect.unit (s := S100000x128) (fun a => cc0_transform_1 i a * S2048x128.size a) (fun a => (Pipeline.Clip.of (cc0_transform_1 i a) (S2048x128.size a) (S100000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S100000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .i32 = 32 ∨ (Rect.block (s := S1024x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x2048.size a < S1024x100000.size a
  hwx0_3 : ∀ i : grid0.Coords, EltTy.bits .f32 = 32 ∨ (Rect.unit (s := S1024x100000) (fun a => cc0_transform_3 i a * S512x2048.size a) (fun a => (Pipeline.Clip.of (cc0_transform_3 i a) (S512x2048.size a) (S1024x100000.size a)).extent (S512x2048.size a)) fun a => Pipeline.Clip.inb (Pipeline.Clip.ok_of (hstart0_3 i a))).WholeWords (EltTy.packing .f32)
  hwxs0_3 : ∀ i : grid0.Coords, EltTy.bits .f32 = 32 ∨ (Rect.unit (s := S512x2048) (fun _ => 0) (fun a => (Pipeline.Clip.of (cc0_transform_3 i a) (S512x2048.size a) (S1024x100000.size a)).extent (S512x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2.size a ≤ S1024x2.size a
  hwx0_4 : ∀ i : grid0.Coords, EltTy.bits .f32 = 32 ∨ (Rect.block (s := S1024x2) S512x2.size (cc0_transform_4 i) (hinb0_4 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v1_0) S512x2048.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v1_1) S512x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x128 : Shape := ⟨2, ![1024, 128]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S128x100000 : Shape := ⟨2, ![128, 100000]⟩
abbrev S1024x100000 : Shape := ⟨2, ![1024, 100000]⟩
abbrev S1024x2 : Shape := ⟨2, ![1024, 2]⟩

abbrev nBuf : Space → Nat
  | .hbm => 77
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S1024x128, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x128, .f32⟩
  | .hbm, ⟨12, _⟩ => ⟨S1024x128, .f32⟩
  | .hbm, ⟨13, _⟩ => ⟨S128x100000, .f32⟩
  | .hbm, ⟨14, _⟩ => ⟨S1024x100000, .f32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x1, .i32⟩
  | .hbm, ⟨32, _⟩ => ⟨S1024x2, .i32⟩
  | .hbm, ⟨33, _⟩ => ⟨S_, .f32⟩
  | .hbm, ⟨34, _⟩ => ⟨S1024, .f32⟩
  | .hbm, ⟨35, _⟩ => ⟨S1024x100000, .f32⟩
  | .hbm, ⟨36, _⟩ => ⟨S_, .f32⟩
  | .hbm, ⟨37, _⟩ => ⟨S1024x100000, .f32⟩
  | .hbm, ⟨38, _⟩ => ⟨S1024x100000, .f32⟩
  | .hbm, ⟨39, _⟩ => ⟨S_, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024x1, .f32⟩
  | .hbm, ⟨45, _⟩ => ⟨S1024x100000, .f32⟩
  | .hbm, ⟨46, _⟩ => ⟨S1024x100000, .f32⟩
  | .hbm, ⟨47, _⟩ => ⟨S1024x100000, .f32⟩
  | .hbm, ⟨48, _⟩ => ⟨S_, .f32⟩
  | .hbm, ⟨49, _⟩ => ⟨S1024, .f32⟩
  | .hbm, ⟨50, _⟩ => ⟨S1024x1, .f32⟩
  | .hbm, ⟨51, _⟩ => ⟨S1024x1, .f32⟩
  | .hbm, ⟨52, _⟩ => ⟨S1024x100000, .f32⟩
  | .hbm, ⟨53, _⟩ => ⟨S1024x100000, .f32⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S1024, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S1024x1, .i32⟩
  | .hbm, ⟨69, _⟩ => ⟨S1024x1, .i32⟩
  | .hbm, ⟨70, _⟩ => ⟨S1024x2, .i32⟩
  | .hbm, ⟨71, _⟩ => ⟨S1024, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_7 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_9 : Ref sig .tc := ⟨.hbm, 72, rfl⟩
abbrev main_v40 : Ref sig .tc := ⟨.hbm, 73, rfl⟩
abbrev main_cst_10 : Ref sig .tc := ⟨.hbm, 74, rfl⟩
abbrev main_v41 : Ref sig .tc := ⟨.hbm, 75, rfl⟩
abbrev main_v42 : Ref sig .tc := ⟨.hbm, 76, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  transposes_S100000x128_S128x100000_1_0 : S100000x128.Transposes [1, 0] S128x100000
  bcast_S_S1024 : S_.BroadcastsInDim S1024 (![] : Fin 0 → Fin S1024.rank)
  concatenates_S1024x1_S1024x1_S1024x2_d1 : Shape.Concatenates [S1024x1, S1024x1] S1024x2 1
  bcast_S_S1024x100000 : S_.BroadcastsInDim S1024x100000 (![] : Fin 0 → Fin S1024x100000.rank)
  reducesTo_S1024x100000_S1024_d1 : S1024x100000.ReducesTo [1] S1024
  bcast_S1024x1_S1024x100000_0_1 : S1024x1.BroadcastsInDim S1024x100000 (![0, 1] : Fin 2 → Fin S1024x100000.rank)
  reducesTo_S1024_S_d0 : S1024.ReducesTo [0] S_
  dot_S1024x128_S128x100000_S1024x100000_1_0_0_1_n_n_wf : DotDims.WF S1024x128 S128x100000 S1024x100000 [1] [0] [0] [1] [] []
  scatter_S1024x100000_S1024x2_S1024_n_01_01_1_wf : ScatterDims.WF S1024x100000 S1024x2 S1024 [] [0, 1] [0, 1] 1
  gather_S1024x100000_S1024x2_S1024_n_01_n_n_01_1_11_wf : GatherDims.WF S1024x100000 S1024x2 S1024 [] [0, 1] [] [0, 1] [] 1 ![1, 1]

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf
def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf

class Facts : Prop extends Facts₀ where

variable [Facts]
-- ==== Proof.Spec.lean ====
/-
  The mathematics both programs are shown to compute, over the extended reals.

  Inputs: features `x` of shape [1024, 128], one class label per row `tg` of shape [1024] (32-bit words), a bank
  of class vectors `lut` of shape [100000, 128].  Each row of `x` is divided by its Euclidean norm plus a small
  constant; the logit of row `r` and class `j` is the inner product of the normalized row with class vector `j`,
  lowered by a margin at the row's own class; the loss is minus the mean over the rows of the logarithm of the
  softmax probability of the row's own class, written with the row's largest logit taken out of the exponentials.
-/
import Idealize.ShloMosaic.PureOps.Ideal
import Idealize.ShloMosaic.Lib.ValueIdx

noncomputable section

open scoped BigOperators

namespace Cert.Oim

open Idealize.ShloMosaic Idealize.ShloMosaic.ValueIdx

/-- The shapes, spelt as the printed programs spell them. -/
abbrev SX : Shape := ⟨2, ![1024, 128]⟩
abbrev STg : Shape := ⟨1, ![1024]⟩
abbrev SLut : Shape := ⟨2, ![100000, 128]⟩
abbrev SLog : Shape := ⟨2, ![1024, 100000]⟩
abbrev SSc : Shape := ⟨0, ![]⟩

/-- The constants, as the words both programs print: the norm's guard, the margin, one, and the number of rows. -/
def eps : EReal := Ideal.ofBits .f32 0x2B8CBCCC#32
def margin : EReal := Ideal.ofBits .f32 0x3DCCCCCD#32
def one : EReal := Ideal.ofBits .f32 0x3F800000#32
def rows : EReal := Ideal.ofBits .f32 0x44800000#32

variable (x : SX.Idx → EReal) (tg : STg.Idx → BitVec 32) (lut : SLut.Idx → EReal)

/-- What row `r` is divided by: the square root of its sum of squares, plus the guard. -/
def den (r : Fin 1024) : EReal := Ideal.sqrt (∑ k : Fin 128, x (ix2 r k) * x (ix2 r k)) + eps

/-- The normalized features. -/
def xn (r : Fin 1024) (k : Fin 128) : EReal := Ideal.div (x (ix2 r k)) (den x r)

/-- The inner product of normalized row `r` with class vector `j`. -/
def raw (r : Fin 1024) (j : Fin 100000) : EReal := ∑ k : Fin 128, xn x r k * lut (ix2 j k)

/-- Row `r`'s own class, as a column (its label read unsigned; under the precondition the label is in range and
    this is the label). -/
def tcol (r : Fin 1024) : Fin 100000 := ⟨(tg (ix1 r)).toNat % 100000, Nat.mod_lt _ (by norm_num)⟩

/-- The logit: the inner product (times one), less the margin at the row's own class. -/
def logit (r : Fin 1024) (j : Fin 100000) : EReal :=
  raw x lut r j * one - (if (tg (ix1 r)).toNat = j.val then margin else 0)

/-- The logits as an array. -/
def logitsG : SLog.Idx → EReal := fun i => logit x tg lut (i 0) (i 1)

/-- Row `r`'s largest logit. -/
def rowMax (r : Fin 1024) : EReal := Finset.univ.sup fun j : Fin 100000 => logit x tg lut r j

/-- Row `r`'s sum of exponentials, the largest logit taken out. -/
def sumExp (r : Fin 1024) : EReal := ∑ j : Fin 100000, Ideal.exp (logit x tg lut r j - rowMax x tg lut r)

/-- Row `r`'s term of the loss: its own class's logit less the logarithm of the sum of all exponentials. -/
def rowTerm (r : Fin 1024) : EReal :=
  logit x tg lut r (tcol tg r) - (rowMax x tg lut r + Ideal.log (sumExp x tg lut r))

/-- The loss: minus the mean of the rows' terms. -/
def lossG : EReal := -(Ideal.div (0 + ∑ r : Fin 1024, rowTerm x tg lut r) rows)

/-- The loss as a rank-0 array. -/
def lossArr : SSc.Idx → EReal := fun _ => lossG x tg lut

theorem logitsG_ix2 (r : Fin 1024) (j : Fin 100000) : logitsG x tg lut (ix2 r j) = logit x tg lut r j := rfl

/-- The hypotheses both sides work under, as the precondition gives them: every feature and every class-vector
    entry is a real number, and every label is a class. -/
structure Admissible : Prop where
  x_real : ∀ i, ∃ a : ℝ, x i = (a : EReal)
  lut_real : ∀ i, ∃ a : ℝ, lut i = (a : EReal)
  tg_range : ∀ r : Fin 1024, (tg (ix1 r)).toNat < 100000

end Cert.Oim

end
-- ==== Proof.PreFacts.lean ====
/-
  The printed precondition, read back as the hypotheses the mathematics works under.

  The precondition is a conjunction of four tests, each "every entry passes": the absolute value of every feature
  is below +∞, the absolute value of every class-vector entry is below +∞, every label is at least 0 read signed,
  and every label is below 100000 read signed.  An extended real whose absolute value (the larger of it and its
  negative) is strictly below +∞ is neither infinity, so it is a real number; a 32-bit word that is nonnegative
  and below 100000 when read signed is the same number read unsigned, so it is below 100000 there too.
-/
import proofs.«425513_j31069793419670_2_alg».proof.Proof.Spec
import proofs.«425513_j31069793419670_2_alg».proof.Pre_finite_inputs
import proofs.«425513_j31069793419670_2_alg».proof.Proof.Gen.Pre_finite_inputs
import Idealize.ShloMosaic.Lib.ReduceAll

noncomputable section

namespace Cert.Oim

open Idealize.ShloMosaic Idealize.ShloMosaic.ValueIdx

/-- A rank-0 array has one index. -/
instance subsingleton_scalar_idx : Subsingleton Cert.Pre_finite_inputs.S_.Idx :=
  ⟨fun a b => funext fun d => d.elim0⟩

/-- The word the precondition compares absolute values with denotes +∞. -/
theorem inf_word : Ideal.ofBits .f32 0x7F800000#32 = (⊤ : EReal) := by
  simp [Ideal.ofBits, Ideal.ieee]

/-- An extended real whose absolute value is strictly below +∞ is a real number: at either infinity the larger of
    the value and its negative is +∞ itself. -/
theorem real_of_abs_lt_inf (v : EReal)
    (h : Ideal.cmp .olt (max v (-v)) (Ideal.ofBits .f32 0x7F800000#32) = 1#1) : ∃ a : ℝ, v = (a : EReal) := by
  rw [inf_word] at h
  induction v using EReal.rec with
  | bot => simp [Ideal.cmp] at h
  | coe a => exact ⟨a, rfl⟩
  | top => simp [Ideal.cmp] at h

/-- A 32-bit word that reads, signed, at least 0 and below 100000 reads the same unsigned: it is below 100000. -/
theorem toNat_lt_of_signed_range (t : BitVec 32) (h0 : IntOp.cmpi .sge t 0#32 = 1#1)
    (h1 : IntOp.cmpi .slt t 100000#32 = 1#1) : t.toNat < 100000 := by
  rw [IntOp.cmpi_sge, show (0#32 : BitVec 32).toInt = 0 from by decide] at h0
  rw [IntOp.cmpi_slt, show (100000#32 : BitVec 32).toInt = 100000 from by decide] at h1
  have hc := BitVec.toInt_eq_toNat_cond t
  split at hc <;> omega

/-- The precondition's four tests, taken apart: every feature and every class-vector entry is a real number and
    every label is a class. -/
theorem admissible_of_pre (x : FVec Ideal Cert.Pre_finite_inputs.S1024x128 .f32)
    (tg : IVec Cert.Pre_finite_inputs.S1024 32) (lut : FVec Ideal Cert.Pre_finite_inputs.S100000x128 .f32)
    (h : Cert.Pre_finite_inputs.fn (F := Ideal) x tg lut = fun _ => 1#1) : Cert.Oim.Admissible x tg lut := by
  have h0 := congrFun h ValueIdx.ix0
  dsimp only [Cert.Pre_finite_inputs.fn, Cert.Pre_finite_inputs.fn_part1, andi] at h0
  rw [IntOp.andi_eq_one, IntOp.andi_eq_one, IntOp.andi_eq_one] at h0
  obtain ⟨⟨⟨hx, hl⟩, hge⟩, hlt⟩ := h0
  refine ⟨fun i => ?_, fun i => ?_, fun r => ?_⟩
  · have e := Host.reduce_andi_all _ _ _ _ _ hx i
    exact real_of_abs_lt_inf (x i) e
  · have e := Host.reduce_andi_all _ _ _ _ _ hl i
    exact real_of_abs_lt_inf (lut i) e
  · have e0 := Host.reduce_andi_all _ _ _ _ _ hge (ix1 r)
    have e1 := Host.reduce_andi_all _ _ _ _ _ hlt (ix1 r)
    exact toNat_lt_of_signed_range (tg (ix1 r)) e0 e1

end Cert.Oim

end
-- ==== Proof.SpecFacts.lean ====
/-
  Under the hypotheses (every feature and every class-vector entry a real number), every quantity on the way to a
  logit is a real number: a row's divisor is a positive real (a square root plus a positive constant), so the division
  is an ordinary one; an inner product of reals is a real; and lowering by the margin keeps it real.  In particular
  no logit is plus or minus infinity.
-/
import proofs.«425513_j31069793419670_2_alg».proof.Proof.Spec
import Mathlib.Data.EReal.Operations
import Mathlib.Analysis.SpecialFunctions.Pow.Real

noncomputable section

open scoped BigOperators

namespace Cert.Oim

open Idealize.ShloMosaic Idealize.ShloMosaic.ValueIdx

/-! ## The constants -/

/-- The norm's guard is a positive real. -/
theorem eps_real_pos : ∃ e : ℝ, 0 < e ∧ eps = (e : EReal) := by
  unfold eps; simp [Ideal.ofBits, Ideal.ieee, -EReal.coe_mul]

/-- The word for one denotes one. -/
theorem one_eq_one : one = 1 := by
  unfold one; simp [Ideal.ofBits, Ideal.ieee, -EReal.coe_mul]; norm_num

/-- The margin is a real. -/
theorem margin_real : ∃ e : ℝ, margin = (e : EReal) := by
  unfold margin; simp [Ideal.ofBits, Ideal.ieee, -EReal.coe_mul]

/-- The coercion of the reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The quantities -/

variable {x : SX.Idx → EReal} {tg : STg.Idx → BitVec 32} {lut : SLut.Idx → EReal}

/-- A row's divisor is a positive real: the square root of a sum of squares of reals, plus the guard. -/
theorem den_real_pos (h : Admissible x tg lut) (r : Fin 1024) : ∃ a : ℝ, 0 < a ∧ den x r = (a : EReal) := by
  obtain ⟨e, he, hee⟩ := eps_real_pos
  choose f hf using h.x_real
  refine ⟨Real.sqrt (∑ k : Fin 128, f (ix2 r k) * f (ix2 r k)) + e, by positivity, ?_⟩
  unfold den
  simp only [hf, ← EReal.coe_mul, ← coe_sum_real]
  rw [Ideal.sqrt_coe, if_neg (not_lt.2 (Finset.sum_nonneg fun k _ => mul_self_nonneg _)), hee, EReal.coe_add]

/-- A normalized feature is a real: a real divided by a positive real. -/
theorem xn_real (h : Admissible x tg lut) (r : Fin 1024) (k : Fin 128) : ∃ a : ℝ, xn x r k = (a : EReal) := by
  obtain ⟨d, hd, hde⟩ := den_real_pos h r
  obtain ⟨a, ha⟩ := h.x_real (ix2 r k)
  refine ⟨a * (1 / d), ?_⟩
  unfold xn
  rw [hde, Ideal.div_coe hd.ne', ha, EReal.coe_mul]

/-- An inner product of a normalized row with a class vector is a real. -/
theorem raw_real (h : Admissible x tg lut) (r : Fin 1024) (j : Fin 100000) : ∃ a : ℝ, raw x lut r j = (a : EReal) := by
  choose g hg using fun k => xn_real h r k
  choose l hl using h.lut_real
  refine ⟨∑ k : Fin 128, g k * l (ix2 j k), ?_⟩
  unfold raw
  simp only [hg, hl, ← EReal.coe_mul, ← coe_sum_real]

/-- A logit is a real. -/
theorem logit_real (h : Admissible x tg lut) (r : Fin 1024) (j : Fin 100000) :
    ∃ a : ℝ, logit x tg lut r j = (a : EReal) := by
  obtain ⟨a, ha⟩ := raw_real h r j
  obtain ⟨g, hg⟩ := margin_real
  unfold logit
  rw [ha, one_eq_one, mul_one, hg]
  split
  · exact ⟨a - g, (EReal.coe_sub a g).symm⟩
  · exact ⟨a, sub_zero _⟩

theorem logit_ne_top (h : Admissible x tg lut) (r : Fin 1024) (j : Fin 100000) : logit x tg lut r j ≠ ⊤ := by
  obtain ⟨a, ha⟩ := logit_real h r j
  rw [ha]; exact EReal.coe_ne_top a

theorem logit_ne_bot (h : Admissible x tg lut) (r : Fin 1024) (j : Fin 100000) : logit x tg lut r j ≠ ⊥ := by
  obtain ⟨a, ha⟩ := logit_real h r j
  rw [ha]; exact EReal.coe_ne_bot a

end Cert.Oim

end
-- ==== Proof.Online.lean ====
/-
  The softmax statistics of one row, accumulated tile by tile, equal their one-pass form.

  A row's logits are laid out in consecutive tiles of equal width; past the last class the columns hold minus
  infinity.  Going through the tiles one keeps the largest logit met so far, the sum of the exponentials of the
  logits met so far with that largest logit taken out, and the logit of one chosen column if it has been met.  When a
  new tile raises the largest logit from M to M', the old sum is rescaled by exp (M - M'), since
  exp (M - M') * exp (l - M) = exp (l - M').  After the last tile the three values are the row's maximum, the sum of
  exp (l - maximum) over all classes, and the chosen column's logit.
-/
import Idealize.ShloMosaic.PureOps.Ideal
import Mathlib.Data.EReal.Operations
import Mathlib.Data.Fintype.BigOperators
import Mathlib.Algebra.Group.Nat.Range
import Mathlib.Data.Finset.Lattice.Fold
import Mathlib.Analysis.SpecialFunctions.Log.Basic

noncomputable section

open scoped BigOperators

namespace Cert.Oim

open Idealize.ShloMosaic

/-! ## Exponentials over the extended reals -/

/-- An exponential is never negative. -/
theorem exp_nonneg' (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- The coercion of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Taking a larger value out of an exponential instead of a smaller one: for a ≤ M ≤ M', none of them plus
    infinity, exp (M - M') * exp (a - M) = exp (a - M').  At a = minus infinity both sides are zero. -/
theorem exp_sub_rescale {a M M' : EReal} (ha : a ≠ ⊤) (hM' : M' ≠ ⊤) (haM : a ≤ M) (hMM' : M ≤ M') :
    Ideal.exp (M - M') * Ideal.exp (a - M) = Ideal.exp (a - M') := by
  induction a using EReal.rec with
  | bot => rw [EReal.bot_sub, EReal.bot_sub, Ideal.exp_bot, mul_zero]
  | top => exact absurd rfl ha
  | coe a =>
    have hM : M ≠ ⊤ := ne_top_of_le_ne_top hM' hMM'
    have hMb : M ≠ ⊥ := ne_bot_of_le_ne_bot (EReal.coe_ne_bot a) haM
    have hM'b : M' ≠ ⊥ := ne_bot_of_le_ne_bot hMb hMM'
    lift M to ℝ using ⟨hM, hMb⟩
    lift M' to ℝ using ⟨hM', hM'b⟩
    rw [← EReal.coe_sub, ← EReal.coe_sub, ← EReal.coe_sub, Ideal.exp_coe, Ideal.exp_coe, Ideal.exp_coe,
      ← EReal.coe_mul, ← Real.exp_add]
    congr 2
    ring

/-- A nonnegative factor goes inside a finite sum of exponentials. -/
theorem mul_sum_exp {ι : Type*} (s : Finset ι) (c : EReal) (f : ι → EReal) :
    c * ∑ i ∈ s, Ideal.exp (f i) = ∑ i ∈ s, c * Ideal.exp (f i) := by
  classical
  induction s using Finset.induction_on with
  | empty => simp
  | insert a s ha ih =>
    rw [Finset.sum_insert ha, Finset.sum_insert ha,
      EReal.left_distrib_of_nonneg (exp_nonneg' _) (Finset.sum_nonneg fun i _ => exp_nonneg' _), ih]

/-! ## One step over arbitrary finite sets of columns -/

section Step

variable (lx : ℕ → EReal)

/-- The largest of finitely many values, none plus infinity, is not plus infinity. -/
theorem sup_ne_top (A : Finset ℕ) (h : ∀ j ∈ A, lx j ≠ ⊤) : A.sup lx ≠ ⊤ :=
  ((Finset.sup_lt_iff bot_lt_top).2 fun j hj => lt_top_iff_ne_top.2 (h j hj)).ne

/-- The rescaled old sum plus the new columns' sum is the sum over all columns met, the new maximum taken out. -/
theorem online_step (A B : Finset ℕ) (hAB : Disjoint A B) (h : ∀ j ∈ A ∪ B, lx j ≠ ⊤) :
    Ideal.exp (A.sup lx - max (A.sup lx) (B.sup lx)) * ∑ j ∈ A, Ideal.exp (lx j - A.sup lx)
      + ∑ j ∈ B, Ideal.exp (lx j - max (A.sup lx) (B.sup lx))
    = ∑ j ∈ A ∪ B, Ideal.exp (lx j - (A ∪ B).sup lx) := by
  have hsup : (A ∪ B).sup lx = max (A.sup lx) (B.sup lx) := Finset.sup_union
  have htop : max (A.sup lx) (B.sup lx) ≠ ⊤ := hsup ▸ sup_ne_top lx (A ∪ B) h
  rw [hsup, Finset.sum_union hAB, mul_sum_exp]
  congr 1
  refine Finset.sum_congr rfl fun j hj => ?_
  exact exp_sub_rescale (h j (Finset.mem_union_left B hj)) htop (Finset.le_sup hj) (le_max_left _ _)

end Step

/-! ## Tile by tile -/

section Run

/-- A maximum over the positions of a tile, as a maximum over a range of naturals. -/
theorem sup_fin_eq_sup_range (g : ℕ → EReal) (w : ℕ) :
    (Finset.univ.sup fun j : Fin w => g j.val) = (Finset.range w).sup g := by
  apply le_antisymm
  · exact Finset.sup_le fun j _ => Finset.le_sup (f := g) (Finset.mem_range.2 j.isLt)
  · exact Finset.sup_le fun j hj =>
      Finset.le_sup (f := fun j : Fin w => g j.val) (Finset.mem_univ ⟨j, Finset.mem_range.1 hj⟩)

/-- Folding the binary maximum over a finite family, starting from minus infinity, gives the family's maximum. -/
theorem fold_max_eq_sup {ι : Type*} (s : Finset ι) (f : ι → EReal) : s.fold max ⊥ f = s.sup f := rfl

variable (w : ℕ) (lx : ℕ → EReal) (t : ℕ)

/-- The columns of tile n: n * w, …, n * w + (w - 1). -/
def tileCols (n : ℕ) : Finset ℕ := (Finset.range w).map (addLeftEmbedding (n * w))

/-- A sum over the positions of tile n, as a sum over its columns. -/
theorem sum_tile {β : Type*} [AddCommMonoid β] (n : ℕ) (g : ℕ → β) :
    ∑ j : Fin w, g (n * w + j.val) = ∑ j ∈ tileCols w n, g j := by
  rw [tileCols, Finset.sum_map]
  exact Fin.sum_univ_eq_sum_range (fun i => g (n * w + i)) w

/-- The largest logit of tile n. -/
def tileMax (n : ℕ) : EReal := Finset.univ.sup fun j : Fin w => lx (n * w + j.val)

theorem tileMax_eq (n : ℕ) : tileMax w lx n = (tileCols w n).sup lx := by
  rw [tileCols, Finset.sup_map]
  exact sup_fin_eq_sup_range (fun i => lx (n * w + i)) w

/-- One tile's update of the triple (largest logit so far, sum of exponentials so far with it taken out, the chosen
    column's logit if met): the new largest logit is the larger of the old one and the tile's; the old sum is
    rescaled and the tile's exponentials are added; the chosen column's logit is added if the tile holds it. -/
def tileStep (n : ℕ) (a : EReal × EReal × EReal) : EReal × EReal × EReal :=
  (max a.1 (tileMax w lx n),
   Ideal.exp (a.1 - max a.1 (tileMax w lx n)) * a.2.1
     + ∑ j : Fin w, Ideal.exp (lx (n * w + j.val) - max a.1 (tileMax w lx n)),
   a.2.2 + ∑ j : Fin w, if n * w + j.val = t then lx (n * w + j.val) else 0)

/-- The triple after the first n tiles, from (minus infinity, 0, 0). -/
def tileRun : ℕ → EReal × EReal × EReal
  | 0 => (⊥, 0, 0)
  | n + 1 => tileStep w lx t n (tileRun n)

theorem tileRun_zero : tileRun w lx t 0 = (⊥, 0, 0) := rfl
theorem tileRun_succ (n : ℕ) : tileRun w lx t (n + 1) = tileStep w lx t n (tileRun w lx t n) := rfl

/-- After the first n tiles the triple is: the largest logit among the columns below n * w, the sum over those columns
    of the exponentials with that largest logit taken out, and the chosen column's logit if it is below n * w. -/
theorem tileRun_eq (n : ℕ) (h : ∀ j, j < n * w → lx j ≠ ⊤) :
    tileRun w lx t n = ((Finset.range (n * w)).sup lx,
      ∑ j ∈ Finset.range (n * w), Ideal.exp (lx j - (Finset.range (n * w)).sup lx),
      ∑ j ∈ Finset.range (n * w), if j = t then lx j else 0) := by
  induction n with
  | zero => simp [tileRun]
  | succ n ih =>
    have hw : (n + 1) * w = n * w + w := Nat.succ_mul n w
    have ih' := ih fun j hj => h j (by rw [hw]; exact Nat.lt_add_right w hj)
    have hd : Disjoint (Finset.range (n * w)) (tileCols w n) :=
      Finset.disjoint_range_addLeftEmbedding (n * w) (Finset.range w)
    have hr : Finset.range ((n + 1) * w) = Finset.range (n * w) ∪ tileCols w n := by
      rw [hw, Finset.range_add, tileCols]
    have hne : ∀ j ∈ Finset.range (n * w) ∪ tileCols w n, lx j ≠ ⊤ := by
      intro j hj
      rw [← hr] at hj
      exact h j (Finset.mem_range.1 hj)
    rw [tileRun_succ, ih', tileStep, tileMax_eq,
      sum_tile w n (fun j => Ideal.exp (lx j - max ((Finset.range (n * w)).sup lx) ((tileCols w n).sup lx))),
      sum_tile w n (fun j => if j = t then lx j else 0), hr]
    refine Prod.ext ?_ (Prod.ext ?_ ?_)
    · exact (Finset.sup_union (s₁ := Finset.range (n * w)) (s₂ := tileCols w n) (f := lx)).symm
    · exact online_step lx _ _ hd hne
    · exact (Finset.sum_union hd).symm

/-- After all N tiles, when the columns below C are not plus infinity and the columns from C up to N * w are minus
    infinity: the row's largest logit, the sum over the C classes of the exponentials with it taken out, and the chosen
    column's logit. -/
theorem tileRun_final (N C : ℕ) (hC : C ≤ N * w) (hreal : ∀ j, j < C → lx j ≠ ⊤)
    (hbot : ∀ j, C ≤ j → j < N * w → lx j = ⊥) (ht : t < C) :
    tileRun w lx t N = ((Finset.univ.sup fun j : Fin C => lx j.val),
      ∑ j : Fin C, Ideal.exp (lx j.val - Finset.univ.sup fun j : Fin C => lx j.val), lx t) := by
  have hne : ∀ j, j < N * w → lx j ≠ ⊤ := fun j hj => by
    by_cases hjC : j < C
    · exact hreal j hjC
    · rw [hbot j (not_lt.1 hjC) hj]; exact bot_ne_top
  have hsub : Finset.range C ⊆ Finset.range (N * w) := Finset.range_mono hC
  have hsup : (Finset.range (N * w)).sup lx = Finset.univ.sup fun j : Fin C => lx j.val := by
    rw [sup_fin_eq_sup_range lx C]
    apply le_antisymm
    · refine Finset.sup_le fun j hj => ?_
      by_cases hjC : j < C
      · exact Finset.le_sup (f := lx) (Finset.mem_range.2 hjC)
      · rw [hbot j (not_lt.1 hjC) (Finset.mem_range.1 hj)]; exact bot_le
    · exact Finset.sup_mono hsub
  rw [tileRun_eq w lx t N hne, hsup]
  refine Prod.ext rfl (Prod.ext ?_ ?_)
  · show ∑ j ∈ Finset.range (N * w), Ideal.exp (lx j - _) = ∑ j : Fin C, Ideal.exp (lx j.val - _)
    rw [Fin.sum_univ_eq_sum_range (fun j => Ideal.exp (lx j - Finset.univ.sup fun j : Fin C => lx j.val)) C]
    refine (Finset.sum_subset hsub fun j hj hjC => ?_).symm
    rw [hbot j (not_lt.1 fun h => hjC (Finset.mem_range.2 h)) (Finset.mem_range.1 hj), EReal.bot_sub, Ideal.exp_bot]
  · show ∑ j ∈ Finset.range (N * w), (if j = t then lx j else 0) = lx t
    rw [Finset.sum_ite_eq', if_pos (Finset.mem_range.2 (lt_of_lt_of_le ht hC))]

end Run

/-! ## The row's statistics are real, and the two ways of writing the row's term agree -/

section Term

/-- The largest of finitely many values, none plus infinity, is not plus infinity. -/
theorem sup_ne_top' {ι : Type*} (A : Finset ι) (f : ι → EReal) (h : ∀ j ∈ A, f j ≠ ⊤) : A.sup f ≠ ⊤ :=
  ((Finset.sup_lt_iff bot_lt_top).2 fun j hj => lt_top_iff_ne_top.2 (h j hj)).ne

/-- For real logits over a nonempty set of classes the largest logit is a real number and the sum of the
    exponentials, the largest logit taken out, is a positive real number. -/
theorem rowStats_real {C : ℕ} (hC : 0 < C) (L : Fin C → EReal) (hL : ∀ j, ∃ r : ℝ, L j = (r : EReal)) :
    (∃ m : ℝ, Finset.univ.sup L = (m : EReal)) ∧
      ∃ s : ℝ, 0 < s ∧ ∑ j, Ideal.exp (L j - Finset.univ.sup L) = (s : EReal) := by
  choose l hl using hL
  have htop : Finset.univ.sup L ≠ ⊤ :=
    sup_ne_top' Finset.univ L fun j _ => by rw [hl j]; exact EReal.coe_ne_top _
  have hbot : Finset.univ.sup L ≠ ⊥ := by
    refine ne_bot_of_le_ne_bot ?_ (Finset.le_sup (f := L) (Finset.mem_univ ⟨0, hC⟩))
    rw [hl]; exact EReal.coe_ne_bot _
  obtain ⟨m, hm⟩ : ∃ m : ℝ, Finset.univ.sup L = (m : EReal) :=
    ⟨(Finset.univ.sup L).toReal, (EReal.coe_toReal htop hbot).symm⟩
  refine ⟨⟨m, hm⟩, ∑ j, Real.exp (l j - m), Finset.sum_pos (fun j _ => Real.exp_pos _) ⟨⟨0, hC⟩, Finset.mem_univ _⟩, ?_⟩
  rw [hm, coe_finset_sum]
  refine Finset.sum_congr rfl fun j _ => ?_
  rw [hl j, ← EReal.coe_sub, Ideal.exp_coe]

/-- The row's term written as (logit - maximum) - log (sum) and as logit - (maximum + log (sum)) is one value, the
    logit and the maximum being real and the sum a positive real. -/
theorem sub_sub_log_eq {a M S : EReal} (ha : ∃ r : ℝ, a = (r : EReal)) (hM : ∃ m : ℝ, M = (m : EReal))
    (hS : ∃ s : ℝ, 0 < s ∧ S = (s : EReal)) :
    a - M - Ideal.log S = a - (M + Ideal.log S) := by
  obtain ⟨r, rfl⟩ := ha
  obtain ⟨m, rfl⟩ := hM
  obtain ⟨s, hs, rfl⟩ := hS
  rw [Ideal.log_coe, if_neg (not_le.2 hs), ← EReal.coe_sub, ← EReal.coe_sub, ← EReal.coe_add, ← EReal.coe_sub,
    sub_sub]

end Term

/-! ## The loss's shapes: 100000 classes in 49 tiles of 2048 -/

section Oim

/-- A row's logits continued past the last class by minus infinity. -/
def extCols {C : ℕ} (L : Fin C → EReal) (j : ℕ) : EReal := if h : j < C then L ⟨j, h⟩ else ⊥

theorem extCols_lt {C : ℕ} (L : Fin C → EReal) {j : ℕ} (h : j < C) : extCols L j = L ⟨j, h⟩ := dif_pos h
theorem extCols_val {C : ℕ} (L : Fin C → EReal) (j : Fin C) : extCols L j.val = L j := dif_pos j.isLt
theorem extCols_ge {C : ℕ} (L : Fin C → EReal) {j : ℕ} (h : C ≤ j) : extCols L j = ⊥ := dif_neg (not_lt.2 h)

/-- (a) For a row of 100000 real logits, going through the 49 tiles of 2048 columns (the columns past the last class
    at minus infinity) leaves the row's largest logit, the sum over the classes of the exponentials with the largest
    logit taken out, and the logit of the chosen class. -/
theorem online_oim (L : Fin 100000 → EReal) (hL : ∀ j, ∃ r : ℝ, L j = (r : EReal)) (t : Fin 100000) :
    tileRun 2048 (extCols L) t.val 49
      = (Finset.univ.sup L, ∑ j, Ideal.exp (L j - Finset.univ.sup L), L t) := by
  have hreal : ∀ j, j < 100000 → extCols L j ≠ ⊤ := fun j hj => by
    obtain ⟨r, hr⟩ := hL ⟨j, hj⟩
    rw [extCols_lt L hj, hr]; exact EReal.coe_ne_top r
  have hbot : ∀ j, 100000 ≤ j → j < 49 * 2048 → extCols L j = ⊥ := fun j hj _ => extCols_ge L hj
  rw [tileRun_final 2048 (extCols L) t.val 49 100000 (by norm_num) hreal hbot t.isLt]
  simp only [extCols_val]

/-- (b) The statistics the last tile leaves — the chosen class's logit, and the largest logit plus the logarithm of the
    sum — give the row's term, in either way of writing it. -/
theorem online_oim_term (L : Fin 100000 → EReal) (hL : ∀ j, ∃ r : ℝ, L j = (r : EReal)) (t : Fin 100000) :
    (tileRun 2048 (extCols L) t.val 49).2.2
        - ((tileRun 2048 (extCols L) t.val 49).1 + Ideal.log (tileRun 2048 (extCols L) t.val 49).2.1)
      = L t - (Finset.univ.sup L + Ideal.log (∑ j, Ideal.exp (L j - Finset.univ.sup L))) := by
  rw [online_oim L hL t]

/-- The row's term as the one-pass form writes it, (logit - maximum) - log (sum), is logit - (maximum + log (sum)). -/
theorem rowTerm_shapes {C : ℕ} (hC : 0 < C) (L : Fin C → EReal) (hL : ∀ j, ∃ r : ℝ, L j = (r : EReal)) (t : Fin C) :
    L t - Finset.univ.sup L - Ideal.log (∑ j, Ideal.exp (L j - Finset.univ.sup L))
      = L t - (Finset.univ.sup L + Ideal.log (∑ j, Ideal.exp (L j - Finset.univ.sup L))) :=
  sub_sub_log_eq (hL t) (rowStats_real hC L hL).1 (rowStats_real hC L hL).2

end Oim

end Cert.Oim

end
-- ==== Proof.LibPointOps.lean ====
/-
  Point gathers and point scatter-adds of a matrix, a two-column concatenation and a row maximum, read at an index.

  A matrix x : [N, C] gathered at an array idx : [E, 2] of (row, column) pairs gives [E]: entry e is x at the
  pair idx e, each coordinate read signed and clamped into range.
  A scatter-add of updates u : [E] at the same kind of array into x : [N, C] adds to entry (r, p) every update e
  whose pair, read signed and unclamped, is (r, p); pairs out of range are dropped.
  Two columns [E, 1] joined along axis 1 give [E, 2]: column 0 the first, column 1 the second.
  The row maximum from minus infinity is the supremum over the columns.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value

noncomputable section

open scoped BigOperators

namespace PointOps

open Idealize.ShloMosaic Idealize.ShloMosaic.ValueIdx

/-! ## Two columns side by side -/

section Concat
variable {α : Type} {E : Nat}

/-- Column 0 of two columns joined along axis 1 is the first column. -/
theorem concat_cols_left (h : Shape.Concatenates [(⟨2, ![E, 1]⟩ : Shape), ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] h (ix2 e 0) = a (ix2 e 0) := by
  refine concatenate_pair_apply_left (t := ⟨2, ![E, 2]⟩) (s₁ := ⟨2, ![E, 1]⟩) (s₂ := ⟨2, ![E, 1]⟩) (1 : Fin 2) a b h (ix2 e 0) rfl (ix2 e 0) (fun c => ?_)
  match c with
  | ⟨0, _⟩ => rfl
  | ⟨1, _⟩ => rfl

/-- Column 1 of two columns joined along axis 1 is the second column. -/
theorem concat_cols_right (h : Shape.Concatenates [(⟨2, ![E, 1]⟩ : Shape), ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] h (ix2 e 1) = b (ix2 e 0) := by
  refine concatenate_pair_apply_right (t := ⟨2, ![E, 2]⟩) (s₁ := ⟨2, ![E, 1]⟩) (s₂ := ⟨2, ![E, 1]⟩) (1 : Fin 2) a b h (ix2 e 1) rfl rfl (ix2 e 0) (fun c hc => ?_) ?_
  · match c with
    | ⟨0, _⟩ => rfl
    | ⟨1, _⟩ => exact absurd rfl hc
  · exact Nat.zero_add 1

end Concat

/-! ## The point scatter-add -/

section Scatter

/-- The dimension numbers of x.at[rows, cols].add(u): operand [N, C], scatter indices [E, 2], updates [E]. -/
abbrev scatterDims (N C E : Nat) (wf : ScatterDims.WF ⟨2, ![N, C]⟩ ⟨2, ![E, 2]⟩ ⟨1, ![E]⟩ [] [0, 1] [0, 1] 1) :
    ScatterDims ⟨2, ![N, C]⟩ ⟨2, ![E, 2]⟩ ⟨1, ![E]⟩ where
  updateWindowDims := []
  insertedWindowDims := [0, 1]
  scatterDimsToOperandDims := [0, 1]
  indexVectorDim := 1
  wf := wf

variable {N C E w : Nat} (wf : ScatterDims.WF ⟨2, ![N, C]⟩ ⟨2, ![E, 2]⟩ ⟨1, ![E]⟩ [] [0, 1] [0, 1] 1)
  (idx : IVec ⟨2, ![E, 2]⟩ w) (e : Fin E)

/-- Update e starts at the row its pair names, read signed and not clamped … -/
theorem start_row : (scatterDims N C E wf).start (ix1 e) idx 0 = (idx (ix2 e 0)).toInt := by
  unfold ScatterDims.start
  have hm : (0 : Fin 2) ∈ (scatterDims N C E wf).scatterDimsToOperandDims := by
    show (0 : Fin 2) ∈ [(0 : Fin 2), 1]; decide
  rw [dif_pos hm]
  have hsi : (scatterDims N C E wf).siIdx (ix1 e) ⟨List.idxOf (0 : Fin 2) (scatterDims N C E wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and at the column its pair names. -/
theorem start_col : (scatterDims N C E wf).start (ix1 e) idx 1 = (idx (ix2 e 1)).toInt := by
  unfold ScatterDims.start
  have hm : (1 : Fin 2) ∈ (scatterDims N C E wf).scatterDimsToOperandDims := by
    show (1 : Fin 2) ∈ [(0 : Fin 2), 1]; decide
  rw [dif_pos hm]
  have hsi : (scatterDims N C E wf).siIdx (ix1 e) ⟨List.idxOf (1 : Fin 2) (scatterDims N C E wf).scatterDimsToOperandDims,
      List.idxOf_lt_length_iff.2 hm⟩ = ix2 e 1 := by
    funext b; refine Fin.ext ?_
    match b with
    | ⟨0, _⟩ => rfl
    | ⟨1, _⟩ => rfl
  rw [hsi]

/-- An update is one element: its window coordinate is 0 on the rows … -/
theorem window_row : (scatterDims N C E wf).window (ix1 e) 0 = 0 := by
  unfold ScatterDims.window
  rw [dif_neg (show (0 : Fin 2) ∉ (scatterDims N C E wf).sKept from by
    show (0 : Fin 2) ∉ (List.finRange 2).filter (fun a => a ∉ [(0 : Fin 2), 1]); decide)]

/-- … and on the columns. -/
theorem window_col : (scatterDims N C E wf).window (ix1 e) 1 = 0 := by
  unfold ScatterDims.window
  rw [dif_neg (show (1 : Fin 2) ∉ (scatterDims N C E wf).sKept from by
    show (1 : Fin 2) ∉ (List.finRange 2).filter (fun a => a ∉ [(0 : Fin 2), 1]); decide)]

/-- Update e lands on (r, p) exactly when its pair, read signed, is (r, p). -/
theorem resultIdx?_eq_some_iff (r : Fin N) (p : Fin C) :
    (scatterDims N C E wf).resultIdx? (ix1 e) idx = some (ix2 r p)
      ↔ (idx (ix2 e 0)).toInt = (r.val : Int) ∧ (idx (ix2 e 1)).toInt = (p.val : Int) := by
  unfold ScatterDims.resultIdx?
  have hr := r.isLt
  have hp := p.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh0 := (h 0).1
      have hh1 := (h 1).1
      simp only [start_row, start_col, window_row, window_col] at hh0 hh1
      refine ⟨?_, ?_⟩
      · have : ((idx (ix2 e 0)).toInt + ((0 : Nat) : Int)).toNat = r.val := h0
        omega
      · have : ((idx (ix2 e 1)).toInt + ((0 : Nat) : Int)).toNat = p.val := h1
        omega
    · rintro ⟨hs0, hs1⟩
      funext a
      refine Fin.ext ?_
      match a with
      | ⟨0, _⟩ =>
        show ((scatterDims N C E wf).start (ix1 e) idx 0 + ((scatterDims N C E wf).window (ix1 e) 0 : Nat)).toNat = r.val
        rw [start_row, window_row, hs0]; omega
      | ⟨1, _⟩ =>
        show ((scatterDims N C E wf).start (ix1 e) idx 1 + ((scatterDims N C E wf).window (ix1 e) 1 : Nat)).toNat = p.val
        rw [start_col, window_col, hs1]; omega
  · rename_i h
    constructor
    · intro hf; exact absurd hf (by simp)
    · rintro ⟨hs0, hs1⟩
      refine absurd (fun a => ?_) h
      match a with
      | ⟨0, _⟩ =>
        show 0 ≤ (scatterDims N C E wf).start (ix1 e) idx 0 + ((scatterDims N C E wf).window (ix1 e) 0 : Nat)
          ∧ (scatterDims N C E wf).start (ix1 e) idx 0 + ((scatterDims N C E wf).window (ix1 e) 0 : Nat) < (N : Int)
        rw [start_row, window_row, hs0]; omega
      | ⟨1, _⟩ =>
        show 0 ≤ (scatterDims N C E wf).start (ix1 e) idx 1 + ((scatterDims N C E wf).window (ix1 e) 1 : Nat)
          ∧ (scatterDims N C E wf).start (ix1 e) idx 1 + ((scatterDims N C E wf).window (ix1 e) 1 : Nat) < (C : Int)
        rw [start_col, window_col, hs1]; omega

/-- Entry (r, p) of the point scatter-add over the extended reals: the operand's entry plus the sum of the updates
    whose pair is (r, p). -/
theorem scatterAdd_apply {φ : FTy} (x : FVec Ideal ⟨2, ![N, C]⟩ φ) (upd : FVec Ideal ⟨1, ![E]⟩ φ) (r : Fin N) (p : Fin C) :
    Host.scatterAdd (F := Ideal) (scatterDims N C E wf) x idx upd (ix2 r p)
      = x (ix2 r p) + ∑ e ∈ Finset.univ.filter (fun e : Fin E =>
          (idx (ix2 e 0)).toInt = (r.val : Int) ∧ (idx (ix2 e 1)).toInt = (p.val : Int)), upd (ix1 e) := by
  unfold Host.scatterAdd
  rw [Ideal.hostScatterAdd_def]
  unfold Ideal.hostScatterAdd
  congr 1
  rw [Finset.sum_filter, ← Equiv.sum_comp (idxEquiv1 (n := E)).symm, Finset.sum_filter]
  refine Finset.sum_congr rfl fun e _ => ?_
  have he : (idxEquiv1 (n := E)).symm e = ix1 e := rfl
  rw [he]
  simp only [resultIdx?_eq_some_iff]

end Scatter

/-! ## The point gather -/

section Gather
variable {α : Type}

/-- The dimension numbers of x[rows, cols]: operand [N, C], start indices [E, 2], result [E]. -/
abbrev gatherDims (N C E : Nat)
    (wf : GatherDims.WF ⟨2, ![N, C]⟩ ⟨2, ![E, 2]⟩ ⟨1, ![E]⟩ [] [0, 1] [] [0, 1] [] 1 ![1, 1]) :
    GatherDims ⟨2, ![N, C]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- The coordinate a start index names: read signed, clamped into [0, n - 1]. -/
def clampCoord {w : Nat} (n : Nat) (hn : 0 < n) (b : BitVec w) : Fin n := ⟨min b.toInt.toNat (n - 1), by omega⟩

/-- Entry e of the point gather is the matrix at the clamped pair idx e. -/
theorem gather_apply {N C E w : Nat} (hN : 0 < N) (hC : 0 < C)
    (wf : GatherDims.WF ⟨2, ![N, C]⟩ ⟨2, ![E, 2]⟩ ⟨1, ![E]⟩ [] [0, 1] [] [0, 1] [] 1 ![1, 1])
    (x : (⟨2, ![N, C]⟩ : Shape).Idx → α) (idx : IVec ⟨2, ![E, 2]⟩ w) (e : Fin E) :
    Host.gather (gatherDims N C E wf) x idx (ix1 e)
      = x (ix2 (clampCoord N hN (idx (ix2 e 0))) (clampCoord C hC (idx (ix2 e 1)))) := by
  unfold Host.gather
  congr 1
  funext a
  refine Fin.ext ?_
  have hall : ∀ c : Fin 2, c ∈ [(0 : Fin 2), 1] := by decide
  have hnk : ∀ c : Fin 2, c ∉ (gatherDims N C E wf).sKept := fun c hc =>
    ((GatherDims.mem_sKept _ _).mp hc).1 (hall c)
  match a with
  | ⟨0, _⟩ =>
    show (gatherDims N C E wf).start (ix1 e) idx 0 + (gatherDims N C E wf).batchCoord (ix1 e) 0
      + (gatherDims N C E wf).offCoord (ix1 e) 0 = _
    rw [GatherDims.batchCoord_eq_zero _ _ _ List.not_mem_nil, GatherDims.offCoord_eq_zero _ _ _ (hnk 0)]
    simp only [Nat.add_zero]
    unfold GatherDims.start
    have hm : (0 : Fin 2) ∈ (gatherDims N C E wf).startIndexMap := by show (0 : Fin 2) ∈ [(0 : Fin 2), 1]; decide
    rw [dif_pos hm]
    have hsi : (gatherDims N C E wf).siIdx (ix1 e) ⟨List.idxOf (0 : Fin 2) (gatherDims N C E wf).startIndexMap,
        List.idxOf_lt_length_iff.2 hm⟩ = ix2 e 0 := by
      funext b; refine Fin.ext ?_
      match b with
      | ⟨0, _⟩ => rfl
      | ⟨1, _⟩ => rfl
    rw [hsi]
    rfl
  | ⟨1, _⟩ =>
    show (gatherDims N C E wf).start (ix1 e) idx 1 + (gatherDims N C E wf).batchCoord (ix1 e) 1
      + (gatherDims N C E wf).offCoord (ix1 e) 1 = _
    rw [GatherDims.batchCoord_eq_zero _ _ _ List.not_mem_nil, GatherDims.offCoord_eq_zero _ _ _ (hnk 1)]
    simp only [Nat.add_zero]
    unfold GatherDims.start
    have hm : (1 : Fin 2) ∈ (gatherDims N C E wf).startIndexMap := by show (1 : Fin 2) ∈ [(0 : Fin 2), 1]; decide
    rw [dif_pos hm]
    have hsi : (gatherDims N C E wf).siIdx (ix1 e) ⟨List.idxOf (1 : Fin 2) (gatherDims N C E wf).startIndexMap,
        List.idxOf_lt_length_iff.2 hm⟩ = ix2 e 1 := by
      funext b; refine Fin.ext ?_
      match b with
      | ⟨0, _⟩ => rfl
      | ⟨1, _⟩ => rfl
    rw [hsi]
    rfl

end Gather

/-! ## The row maximum -/

section RowMax

/-- The host's maximum over the columns of a matrix, from minus infinity, is the supremum of the row. -/
theorem rowMax_apply {N C : Nat} {φ : FTy} {u : Shape} (x : FVec Ideal ⟨2, ![N, C]⟩ φ) (init : u.Idx → Ideal φ)
    (h' : (⟨2, ![N, C]⟩ : Shape).ReducesTo [1] ⟨1, ![N]⟩) (h : (⟨2, ![N, C]⟩ : Shape).Reduces [1] ⟨1, ![N]⟩)
    (hu : 0 < u.numel) (hinit : init (Shape.Idx.first hu) = (⊥ : EReal)) (r : Fin N) :
    Host.reduce (FloatOps.maximumf (F := Ideal) (φ := φ)) x init h' hu (ix1 r)
      = Finset.univ.sup fun k : Fin C => (x (ix2 r k) : EReal) := by
  rw [Host.reduce_eq_fold_single (FloatOps.maximumf (F := Ideal) (φ := φ)) x init h' h hu (ix1 r), hinit]
  have hl : ∀ k : Fin C, h.lift (ix1 r) k = ix2 r k := fun k => funext fun c => Fin.ext (by
    match c with
    | ⟨0, _⟩ => rfl
    | ⟨1, _⟩ => rfl)
  show (Finset.univ : Finset (Fin C)).sup (x ∘ h.lift (ix1 r)) = _
  exact Finset.sup_congr rfl fun k _ => congrArg x (hl k)

end RowMax

end PointOps

end
-- ==== Proof.RefValue.lean ====
/-
  The reference program computes the specification's two functions.

  Its logits: each row of the features divided by its norm plus the guard, its inner products with the class
  vectors, the margin added (as a negative constant) at the one entry (r, label r) of each row by a scatter-add whose
  1024 index pairs (r, label r) lie in different rows, so that no entry meets two updates, and the result times one.
  Its loss: the row maximum (a fold of the maximum from minus infinity), the logarithm of the softmax at the row's own
  class picked by a gather at the same pairs, summed over the rows, divided by the number of rows and negated.
  The index pairs are the row numbers and the labels, each passed through "add the extent if negative", which
  leaves a row number and a label in range as they are.
-/
import proofs.«425513_j31069793419670_2_alg».proof.Proof.RefReadP
import proofs.«425513_j31069793419670_2_alg».proof.Proof.Spec
import proofs.«425513_j31069793419670_2_alg».proof.Proof.SpecFacts
import proofs.«425513_j31069793419670_2_alg».proof.Proof.Online
import proofs.«425513_j31069793419670_2_alg».proof.Proof.LibPointOps
import Idealize.ShloMosaic.Lib.IdealHost
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.StableHlo.Predicate

/-! ## Words and constants -/

/-- A word below 2³¹ is not negative, so "add the extent if negative" leaves it as it is. -/
theorem select_slt_zero (a y : BitVec 32) (ha : a.toNat < 2 ^ 31) :
    Scalar.select (IntOp.cmpi .slt a 0#32) y a = a := by
  have h : ¬ IntOp.cmpi .slt a 0#32 = 1#1 := by
    rw [slt_iff_toNat ha (by decide)]
    exact Nat.not_lt_zero _
  rw [eq_zero_of_ne_one h, select_zero]

/-- The constant the reference adds at the row's own class is minus the margin. -/
theorem neg_margin : Ideal.ofBits .f32 0xBDCCCCCD#32 = -Oim.margin := by
  unfold Oim.margin
  simp [Ideal.ofBits, Ideal.ieee, -EReal.coe_mul]

/-- The word the maximum starts from denotes minus infinity. -/
theorem neg_inf : Ideal.ofBits .f32 0xFF800000#32 = (⊥ : EReal) := by
  simp [Ideal.ofBits, Ideal.ieee]

variable (x : FVec Ideal S1024x128 .f32) (tg : IVec S1024 32) (lut : FVec Ideal S100000x128 .f32)

/-! ## The index pairs -/

/-- The row numbers, for the scatter. -/
theorem rowNum_apply (r : Fin 1024) : val_main_v12 (F := Ideal) (ix1 r) = BitVec.ofNat 32 r.val := by
  rw [val_main_v12_apply, val_main_v9_apply, val_main_v7_apply, val_main_v8_apply, val_main_c_apply]
  refine select_slt_zero _ _ ?_
  show (BitVec.ofNat 32 r.val).toNat < 2 ^ 31
  rw [BitVec.toNat_ofNat]; have := r.isLt; omega

/-- The row numbers, for the gather. -/
theorem rowNum'_apply (r : Fin 1024) : val_main_v30 (F := Ideal) (ix1 r) = BitVec.ofNat 32 r.val := by
  rw [val_main_v30_apply, val_main_v27_apply, val_main_v7_apply, val_main_v26_apply, val_main_c_5_apply]
  refine select_slt_zero _ _ ?_
  show (BitVec.ofNat 32 r.val).toNat < 2 ^ 31
  rw [BitVec.toNat_ofNat]; have := r.isLt; omega

/-- A label in range, for the scatter. -/
theorem label_apply (r : Fin 1024) (ht : (tg (ix1 r)).toNat < 100000) :
    val_main_v17 (F := Ideal) tg (ix1 r) = tg (ix1 r) := by
  rw [val_main_v17_apply, val_main_v14_apply, val_main_v13_apply, val_main_c_1_apply]
  exact select_slt_zero _ _ (by omega)

/-- A label in range, for the gather. -/
theorem label'_apply (r : Fin 1024) (ht : (tg (ix1 r)).toNat < 100000) :
    val_main_v35 (F := Ideal) tg (ix1 r) = tg (ix1 r) := by
  rw [val_main_v35_apply, val_main_v32_apply, val_main_v31_apply, val_main_c_7_apply]
  exact select_slt_zero _ _ (by omega)

theorem col_row (r : Fin 1024) : idx_main_v18 (ix2 r (0 : Fin 1)) = ix1 r :=
  funext fun a => Fin.ext (by match a with | ⟨0, _⟩ => rfl)

/-- Column 0 of the scatter's pairs: the row number. -/
theorem pairs_row (r : Fin 1024) : val_main_v20 (F := Ideal) tg (ix2 r 0) = BitVec.ofNat 32 r.val := by
  unfold val_main_v20
  refine (PointOps.concat_cols_left (E := 1024) concatenates_S1024x1_S1024x1_S1024x2_d1 _ _ r).trans ?_
  rw [val_main_v18_apply, col_row]
  exact rowNum_apply r

/-- Column 1 of the scatter's pairs: the label. -/
theorem pairs_col (r : Fin 1024) (ht : (tg (ix1 r)).toNat < 100000) :
    val_main_v20 (F := Ideal) tg (ix2 r 1) = tg (ix1 r) := by
  unfold val_main_v20
  refine (PointOps.concat_cols_right (E := 1024) concatenates_S1024x1_S1024x1_S1024x2_d1 _ _ r).trans ?_
  rw [val_main_v19_apply, show idx_main_v19 (ix2 r (0 : Fin 1)) = ix1 r from col_row r]
  exact label_apply tg r ht

/-- Column 0 of the gather's pairs: the row number. -/
theorem pairs'_row (r : Fin 1024) : val_main_v38 (F := Ideal) tg (ix2 r 0) = BitVec.ofNat 32 r.val := by
  unfold val_main_v38
  refine (PointOps.concat_cols_left (E := 1024) concatenates_S1024x1_S1024x1_S1024x2_d1 _ _ r).trans ?_
  rw [val_main_v36_apply, show idx_main_v36 (ix2 r (0 : Fin 1)) = ix1 r from col_row r]
  exact rowNum'_apply r

/-- Column 1 of the gather's pairs: the label. -/
theorem pairs'_col (r : Fin 1024) (ht : (tg (ix1 r)).toNat < 100000) :
    val_main_v38 (F := Ideal) tg (ix2 r 1) = tg (ix1 r) := by
  unfold val_main_v38
  refine (PointOps.concat_cols_right (E := 1024) concatenates_S1024x1_S1024x1_S1024x2_d1 _ _ r).trans ?_
  rw [val_main_v37_apply, show idx_main_v37 (ix2 r (0 : Fin 1)) = ix1 r from col_row r]
  exact label'_apply tg r ht

/-! ## The logits -/

/-- What a row is divided by. -/
theorem den_apply (r : Fin 1024) (k : Fin 128) : val_main_v3 (F := Ideal) x (ix2 r k) = Oim.den x r := by
  have e0 : idx_main_v3 (ix2 r k) = ix2 r (0 : Fin 1) :=
    funext fun a => Fin.ext (by match a with | ⟨0, _⟩ => rfl | ⟨1, _⟩ => rfl)
  have e1 : idx_main_call0_v2 (ix2 r (0 : Fin 1)) = ix1 r :=
    funext fun a => Fin.ext (by match a with | ⟨0, _⟩ => rfl)
  rw [val_main_v3_apply, e0, val_main_v2_apply, val_main_v0_apply, val_main_v1_apply, val_main_cst_apply,
    val_main_call0_v2_apply, e1, val_main_call0_v1_apply, val_main_call0_cst_apply]
  unfold Oim.den Oim.eps
  simp only [Ideal.ofBits_def, Ideal.addf_def, Ideal.hostUnary_sqrt_def, Ideal.ofBits_zero_f32, zero_add]
  congr 2
  refine Finset.sum_congr rfl fun k' _ => ?_
  have e2 : idx_main_call0_v1 (ix1 r) k' = ix2 r k' :=
    funext fun a => Fin.ext (by match a with | ⟨0, _⟩ => rfl | ⟨1, _⟩ => rfl)
  rw [e2, val_main_call0_v0_apply]
  rfl

/-- The inner products of the normalized rows with the class vectors. -/
theorem dot_apply (r : Fin 1024) (j : Fin 100000) : val_main_v6 (F := Ideal) x lut (ix2 r j) = Oim.raw x lut r j := by
  rw [val_main_v6_apply]
  unfold Oim.raw
  refine Finset.sum_congr rfl fun k _ => ?_
  have e1 : lidx_main_v6 (ix2 r j) k = ix2 r k :=
    funext fun a => Fin.ext (by match a with | ⟨0, _⟩ => rfl | ⟨1, _⟩ => rfl)
  have e2 : ridx_main_v6 (ix2 r j) k = ix2 k j :=
    funext fun a => Fin.ext (by match a with | ⟨0, _⟩ => rfl | ⟨1, _⟩ => rfl)
  have e3 : idx_main_v5 (ix2 k j) = ix2 j k :=
    funext fun a => Fin.ext (by match a with | ⟨0, _⟩ => rfl | ⟨1, _⟩ => rfl)
  rw [e1, e2, val_main_v5_apply, e3, val_main_v4_apply, den_apply]
  rfl

/-- The scatter-add leaves every entry but the row's own class's as it was, and adds minus the margin there:
    update e lands on (r, j) only if e = r, the row numbers being different. -/
theorem scattered_apply (h : Oim.Admissible x tg lut) (r : Fin 1024) (j : Fin 100000) :
    val_main_v22 (F := Ideal) x tg lut (ix2 r j)
      = Oim.raw x lut r j + (if (tg (ix1 r)).toNat = j.val then Ideal.ofBits .f32 0xBDCCCCCD#32 else 0) := by
  unfold val_main_v22
  refine (PointOps.scatterAdd_apply (N := 1024) (C := 100000) (E := 1024)
    scatter_S1024x100000_S1024x2_S1024_n_01_01_1_wf _ _ _ r j).trans ?_
  rw [dot_apply]
  congr 1
  have hrow : ∀ e : Fin 1024, (val_main_v20 (F := Ideal) tg (ix2 e 0)).toInt = (e.val : Int) := fun e => by
    rw [pairs_row]; exact toInt_ofNat_small _ (by have := e.isLt; omega)
  have hcol : (val_main_v20 (F := Ideal) tg (ix2 r 1)).toInt = ((tg (ix1 r)).toNat : Int) := by
    rw [pairs_col tg r (h.tg_range r)]; exact toInt_eq_toNat_of_lt (by have := h.tg_range r; omega)
  rw [Finset.sum_filter, Finset.sum_eq_single r]
  · rw [hrow r, hcol, val_main_v21_apply, val_main_cst_3_apply]
    by_cases hc : (tg (ix1 r)).toNat = j.val
    · rw [if_pos ⟨rfl, by exact_mod_cast hc⟩, if_pos hc]; rfl
    · rw [if_neg (fun hh => hc (by exact_mod_cast hh.2)), if_neg hc]
  · intro e _ hne
    rw [if_neg]
    rintro ⟨h0, _⟩
    rw [hrow e] at h0
    exact hne (Fin.ext (by exact_mod_cast h0))
  · intro hn; exact absurd (Finset.mem_univ r) hn

/-- The reference's logits, entry by entry. -/
theorem logits_apply (h : Oim.Admissible x tg lut) (r : Fin 1024) (j : Fin 100000) :
    val_main_v24 (F := Ideal) x tg lut (ix2 r j) = Oim.logit x tg lut r j := by
  rw [val_main_v24_apply, scattered_apply x tg lut h r j, val_main_v23_apply, val_main_cst_4_apply]
  unfold Oim.logit
  show (Oim.raw x lut r j + _) * Oim.one = _
  rw [Oim.one_eq_one, mul_one, mul_one]
  by_cases hc : (tg (ix1 r)).toNat = j.val
  · rw [if_pos hc, if_pos hc, neg_margin, sub_eq_add_neg]
  · rw [if_neg hc, if_neg hc, add_zero, sub_zero]

/-- The reference's logits are the specification's. -/
theorem logits_eq (h : Cert.Oim.Admissible x tg lut) :
    Cert.ReferenceIdeal.ReadP.val_main_v24 (F := Ideal) x tg lut = Cert.Oim.logitsG x tg lut := by
  funext i
  obtain ⟨r, j, rfl⟩ : ∃ (r : Fin 1024) (j : Fin 100000), i = ix2 r j := ⟨i 0, i 1, eq_ix2 i⟩
  exact logits_apply x tg lut h r j

/-! ## The loss -/

/-- A row's largest logit. -/
theorem max_apply (h : Oim.Admissible x tg lut) (r : Fin 1024) :
    val_main_call1_v0 (F := Ideal) x tg lut (ix1 r) = Oim.rowMax x tg lut r := by
  unfold val_main_call1_v0
  refine (PointOps.rowMax_apply (N := 1024) (C := 100000) _ _ reducesTo_S1024x100000_S1024_d1 (by decide) h_S_
    (by rw [val_main_call1_cst_apply]; exact neg_inf) r).trans ?_
  unfold Oim.rowMax
  exact Finset.sup_congr rfl fun k _ => logits_apply x tg lut h r k

/-- The largest logit of its row, at every entry. -/
theorem bmax_apply (h : Oim.Admissible x tg lut) (r : Fin 1024) (t : Fin 100000) :
    val_main_call1_v4 (F := Ideal) x tg lut (ix2 r t) = Oim.rowMax x tg lut r := by
  have e0 : idx_main_call1_v4 (ix2 r t) = ix2 r (0 : Fin 1) :=
    funext fun a => Fin.ext (by match a with | ⟨0, _⟩ => rfl | ⟨1, _⟩ => rfl)
  have e1 : idx_main_call1_v3 (ix2 r (0 : Fin 1)) = ix1 r :=
    funext fun a => Fin.ext (by match a with | ⟨0, _⟩ => rfl)
  rw [val_main_call1_v4_apply, e0, val_main_call1_v3_apply, e1, val_main_call1_v2_apply, val_main_call1_v1_apply,
    val_main_call1_cst_0_apply, max_apply x tg lut h r]
  show max (Ideal.ofBits .f32 0xFF800000#32) _ = _
  rw [neg_inf]
  exact max_eq_right bot_le

/-- A row's sum of exponentials, the largest logit taken out. -/
theorem sumExp_apply (h : Oim.Admissible x tg lut) (r : Fin 1024) :
    val_main_call1_v7 (F := Ideal) x tg lut (ix1 r) = Oim.sumExp x tg lut r := by
  rw [val_main_call1_v7_apply, val_main_call1_cst_1_apply]
  simp only [Ideal.ofBits_def, Ideal.ofBits_zero_f32, zero_add]
  unfold Oim.sumExp
  refine Finset.sum_congr rfl fun k _ => ?_
  have e : idx_main_call1_v7 (ix1 r) k = ix2 r k :=
    funext fun a => Fin.ext (by match a with | ⟨0, _⟩ => rfl | ⟨1, _⟩ => rfl)
  rw [e, val_main_call1_v6_apply, val_main_call1_v5_apply, logits_apply x tg lut h, bmax_apply x tg lut h]
  rfl

/-- The logarithm of the softmax, entry by entry: (logit - maximum) - log (sum). -/
theorem logp_apply (h : Oim.Admissible x tg lut) (r : Fin 1024) (t : Fin 100000) :
    val_main_v25 (F := Ideal) x tg lut (ix2 r t)
      = Oim.logit x tg lut r t - Oim.rowMax x tg lut r - Ideal.log (Oim.sumExp x tg lut r) := by
  have e0 : idx_main_call1_v10 (ix2 r t) = ix2 r (0 : Fin 1) :=
    funext fun a => Fin.ext (by match a with | ⟨0, _⟩ => rfl | ⟨1, _⟩ => rfl)
  have e1 : idx_main_call1_v8 (ix2 r (0 : Fin 1)) = ix1 r :=
    funext fun a => Fin.ext (by match a with | ⟨0, _⟩ => rfl)
  rw [val_main_v25_apply, val_main_call1_v5_apply, logits_apply x tg lut h, bmax_apply x tg lut h,
    val_main_call1_v10_apply, e0, val_main_call1_v9_apply, val_main_call1_v8_apply, e1, sumExp_apply x tg lut h]
  simp only [Ideal.subf_def, Ideal.hostUnary_log_def]

/-- The gather picks each row's own class: the row's term of the loss. -/
theorem gathered_apply (h : Oim.Admissible x tg lut) (r : Fin 1024) :
    val_main_v39 (F := Ideal) x tg lut (ix1 r) = Oim.rowTerm x tg lut r := by
  unfold val_main_v39
  refine (PointOps.gather_apply (N := 1024) (C := 100000) (E := 1024) (by decide) (by decide)
    gather_S1024x100000_S1024x2_S1024_n_01_n_n_01_1_11_wf _ _ r).trans ?_
  have ht := h.tg_range r
  have c0 : PointOps.clampCoord 1024 (by decide) (val_main_v38 (F := Ideal) tg (ix2 r 0)) = r := by
    refine Fin.ext ?_
    show min (val_main_v38 (F := Ideal) tg (ix2 r 0)).toInt.toNat (1024 - 1) = r.val
    rw [pairs'_row, toInt_ofNat_small _ (by have := r.isLt; omega)]
    have := r.isLt; omega
  have c1 : PointOps.clampCoord 100000 (by decide) (val_main_v38 (F := Ideal) tg (ix2 r 1)) = Oim.tcol tg r := by
    refine Fin.ext ?_
    show min (val_main_v38 (F := Ideal) tg (ix2 r 1)).toInt.toNat (100000 - 1) = (tg (ix1 r)).toNat % 100000
    rw [pairs'_col tg r ht, toInt_eq_toNat_of_lt (by omega)]
    omega
  rw [c0, c1, logp_apply x tg lut h]
  exact Oim.rowTerm_shapes (by norm_num) (fun j => Oim.logit x tg lut r j) (fun j => Oim.logit_real h r j)
    (Oim.tcol tg r)

/-- The reference's loss is the specification's. -/
theorem loss_eq (h : Cert.Oim.Admissible x tg lut) :
    Cert.ReferenceIdeal.ReadP.val_main_v42 (F := Ideal) x tg lut = Cert.Oim.lossArr x tg lut := by
  funext i
  rw [val_main_v42_apply, val_main_v41_apply, val_main_v40_apply, val_main_cst_9_apply, val_main_cst_10_apply]
  have hs : ∑ j : S1024.Idx, val_main_v39 (F := Ideal) x tg lut j = ∑ r : Fin 1024, Oim.rowTerm x tg lut r := by
    rw [← Equiv.sum_comp (idxEquiv1 (n := 1024)).symm]
    exact Finset.sum_congr rfl fun r _ => gathered_apply x tg lut h r
  rw [hs]
  unfold Oim.lossArr Oim.lossG Oim.rows
  simp only [Ideal.ofBits_def, Ideal.hostDivf_def, Ideal.hostNegf_def, Ideal.negf_def, Ideal.ofBits_zero_f32]

end Cert.ReferenceIdeal.RefValue

end
-- ==== Proof.KBits.lean ====
/- The frame of the word-level program: every weakly fair execution of @main terminates, faults nowhere and
   leaves the three argument arrays as launched. Nothing is said of any value: the proof data are RELATIONAL —
   each input window's staging buffer is handed back as it was found, of the two outputs' nothing is asked, the
   scratch buffers and the generator register are held at whatever contents. -/
import proofs.«425513_j31069793419670_2_alg».proof.Proof.Gen.Kernel.Frame
import proofs.«425513_j31069793419670_2_alg».proof.Proof.Gen.Kernel.Skeleton
import Idealize.ShloMosaic.PureOps.BitExact

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel Cert.Kernel.Gen

local notation "𝕄" => MT nD τ sig Unit (Elt Bits) ℕ (UR sig nD τ) ℕ

variable (m : (ℓ : Loc nD τ sig) → Buf (Elt Bits) ℓ) (ρ : Dev nD → PrngReg)

/-! ## The proof data -/

/-- The relational proof data on core `c`: the arrays as the region finds them; an input window's buffer
    (windows 0, 1, 2) is left as it was found, of an output's (windows 3, 4) nothing is asked; the invariant is
    the scratch buffers at any contents and the generator register at any state; nothing owed; full shares. -/
def rdats (c : Dev nD) : RDat τ (Elt Bits) Unit ℕ (UR sig nD τ) ℕ cfg0 c where
  A w := Gen.V m c (Pipeline.arrRef spec0 w)
  after w _ Y X := w.val < 3 → X = Y
  Φ _ := Pipeline.ΦA spec0 c
  q _ := fullShare
  owed _ := 0

theorem share_eq (c : Dev nD) (w : Fin cfg0.W) : (rdats m c).share w = fullShare := by
  unfold RDat.share; split <;> rfl

/-- The buffers the host lines after the region write. -/
def T : Finset (Ref sig .tc) :=
  {main_v2, main_v3, main_v4, main_v5, main_v6, main_cst, main_v7, main_cst_0, main_v8, main_v9}

theorem hT : ∀ ops ∈ ([hostOps1] : List (List (HloOp τ sig (Elt Bits)))), ∀ op ∈ ops,
    ∀ b : Ref sig .tc, Proc.devRef .tc b ∈ op.writes → b ∈ T := by
  intro ops hops op hop
  simp only [List.mem_cons, List.mem_nil_iff, _root_.or_false] at hops
  rcases hops with rfl
  simp only [hostOps1, List.mem_cons, List.mem_nil_iff, _root_.or_false] at hop
  rcases hop with rfl | rfl | rfl | rfl | rfl | rfl | rfl | rfl | rfl | rfl
  all_goals
    intro b hb
    simp only [StableHlo.nullary_writes, StableHlo.unary_writes, StableHlo.binary_writes, StableHlo.ternary_writes, StableHlo.quaternary_writes, StableHlo.reshape_writes, StableHlo.binaryIndexed_writes, Finset.mem_singleton] at hb
    obtain rfl := Proc.devRef_injective (τ := τ) _ hb
    decide

/-! ## The body obligation -/

/-- The condition of the body's first `scf.if` (the grid's class-tile coordinate is zero), as the body computes it. -/
abbrev cond1 (i : grid0.Coords) : Prop :=
  (Scalar.cmpi .ne (Scalar.extui (Scalar.cmpi .eq (BitVec.ofNat 32 (i 1).val) 0#32)) 0#32) = 1#1
/-- The condition of its second (the class-tile coordinate is the last). -/
abbrev cond2 (i : grid0.Coords) : Prop := k0_cond2 i = 1#1

set_option maxHeartbeats 4000000 in
/-- The body on any whole memrefs: it only loads the three input buffers, so they come back as they were;
    the two output buffers and the four scratch buffers come back at some contents. Either `scf.if` may go
    either way: nothing about a value is used. -/
theorem kernel_run (c : Dev nD) (i : grid0.Coords)
    (arg2 : Memref sig .tc .vmem S512x128 .f32) (harg2 : arg2.IsWhole) (arg3 : Memref sig .tc .vmem S2048x128 .f32) (harg3 : arg3.IsWhole)
    (arg4 : Memref sig .tc .vmem S512x1 .i32) (harg4 : arg4.IsWhole) (arg5 : Memref sig .tc .vmem S512x2048 .f32) (harg5 : arg5.IsWhole)
    (arg6 : Memref sig .tc .vmem S512x2 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x128 .bf16) (harg10 : arg10.IsWhole)
    (x2 : Vec Bits S512x128 .f32) (x3 : Vec Bits S2048x128 .f32) (x4 : Vec Bits S512x1 .i32)
    (x5 : Vec Bits S512x2048 .f32) (x6 : Vec Bits S512x2 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4
            ∗ (∃ f, arg5.view.loc (c : Thread nD τ) ↦[arg5.view.set]{fullShare} f) ∗ (∃ f, arg6.view.loc (c : Thread nD τ) ↦[arg6.view.set]{fullShare} f)
            ∗ (∃ f, arg7.view.loc (c : Thread nD τ) ↦[arg7.view.set]{fullShare} f) ∗ (∃ f, arg8.view.loc (c : Thread nD τ) ↦[arg8.view.set]{fullShare} f)
            ∗ (∃ f, arg9.view.loc (c : Thread nD τ) ↦[arg9.view.set]{fullShare} f) ∗ (∃ f, arg10.view.loc (c : Thread nD τ) ↦[arg10.view.set]{fullShare} f)) -∗ K ⟨⟩))
      ⊢ wp frame (wpE (defs₀ (F := Bits)) Variants.none c none) E
          (cc0__oim_kernel i arg2 harg2 arg3 harg3 arg4 harg4 arg5 harg5 arg6 harg6 arg7 harg7 arg8 harg8 arg9 harg9 arg10 harg10) K := by
  simp only [cc0__oim_kernel_eq_skeleton]; unfold cc0__oim_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

/-- The region's invariant with the four scratch operands as memrefs owned at some contents: what the body is
    handed and what it gives back. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA; rw [scopedRest0_eq]; simp only [owns_whole]; try rfl

set_option maxHeartbeats 1000000 in
/-- The body at any point, over the windows' current staging memrefs: the invariant and the five buffers in,
    the invariant and the five buffers out, the inputs' as they were handed. -/
theorem sound_body (c : Dev nD) (t : Fin cfg0.N)
    (Y : (w : Fin cfg0.W) → (cfg0.win w).block.Idx → Elt Bits (cfg0.win w).elt) :
    iprop(Pipeline.ΦA spec0 c ∗ (rdats m c).owesAt () t.castSucc
        ∗ owns (c : Thread nD τ) (win0_0.stage (cfg0.slots t 0)) fullShare (Y 0) ∗ owns (c : Thread nD τ) (win0_1.stage (cfg0.slots t 1)) fullShare (Y 1)
        ∗ owns (c : Thread nD τ) (win0_2.stage (cfg0.slots t 2)) fullShare (Y 2) ∗ owns (c : Thread nD τ) (win0_3.stage (cfg0.slots t 3)) fullShare (Y 3)
        ∗ owns (c : Thread nD τ) (win0_4.stage (cfg0.slots t 4)) fullShare (Y 4))
      ⊢ wp frame (wpE (defs₀ (F := Bits)) Variants.none c none) Set.univ (bodyAt0 t) (fun _ =>
          iprop(Pipeline.ΦA spec0 c ∗ (rdats m c).owesAt () t.succ
            ∗ (∃ X, ⌜(rdats m c).after 0 t (Y 0) X⌝ ∗ owns (c : Thread nD τ) (win0_0.stage (cfg0.slots t 0)) fullShare X)
            ∗ (∃ X, ⌜(rdats m c).after 1 t (Y 1) X⌝ ∗ owns (c : Thread nD τ) (win0_1.stage (cfg0.slots t 1)) fullShare X)
            ∗ (∃ X, ⌜(rdats m c).after 2 t (Y 2) X⌝ ∗ owns (c : Thread nD τ) (win0_2.stage (cfg0.slots t 2)) fullShare X)
            ∗ (∃ X, ⌜(rdats m c).after 3 t (Y 3) X⌝ ∗ owns (c : Thread nD τ) (win0_3.stage (cfg0.slots t 3)) fullShare X)
            ∗ (∃ X, ⌜(rdats m c).after 4 t (Y 4) X⌝ ∗ owns (c : Thread nD τ) (win0_4.stage (cfg0.slots t 4)) fullShare X))) := by
  unfold bodyAt0
  rw [PhiA_eq]
  rw [show (rdats m c).owesAt () t.succ = (rdats m c).owesAt () t.castSucc from rfl]
  iintro ⟨⟨⟨HS0, HS1, HS2, HS3⟩, Hg⟩, Ho, H0, H1, H2, H3, H4⟩
  iapply (kernel_run c (grid0.coords t) _ _ _ _ _ _ _ _ _ _ _ _ _ _ _ _ _ _ (Y 0) (Y 1) (Y 2) (Y 3) (Y 4) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, ⟨%g3, H3⟩, ⟨%g4, H4⟩, ⟨%g7, HS0⟩, ⟨%g8, HS1⟩, ⟨%g9, HS2⟩, ⟨%g10, HS3⟩⟩
  isplitl [HS0 HS1 HS2 HS3 Hg]
  · isplitl [HS0 HS1 HS2 HS3]
    · unfold owns
      isplitl [HS0]
      · iexists _, g7; isplitr; · ipureintro; rfl
        iexact HS0
      isplitl [HS1]
      · iexists _, g8; isplitr; · ipureintro; rfl
        iexact HS1
      isplitl [HS2]
      · iexists _, g9; isplitr; · ipureintro; rfl
        iexact HS2
      · iexists _, g10; isplitr; · ipureintro; rfl
        iexact HS3
    · iexact Hg
  isplitl [Ho]; · iexact Ho
  isplitl [H0]
  · iexists (Y 0); isplitr; · ipureintro; exact fun _ => rfl
    iexact H0
  isplitl [H1]
  · iexists (Y 1); isplitr; · ipureintro; exact fun _ => rfl
    iexact H1
  isplitl [H2]
  · iexists (Y 2); isplitr; · ipureintro; exact fun _ => rfl
    iexact H2
  isplitl [H3]
  · iexists (View.read (Elt Bits) (win0_3.stage (cfg0.slots t 3)).view g3); isplitr; · ipureintro; exact fun h => absurd h (by decide)
    unfold owns; iexists g3; isplitr; · ipureintro; rfl
    iexact H3
  · iexists (View.read (Elt Bits) (win0_4.stage (cfg0.slots t 4)).view g4); isplitr; · ipureintro; exact fun h => absurd h (by decide)
    unfold owns; iexists g4; isplitr; · ipureintro; rfl
    iexact H4

/-- The library's body obligation of the relational data, at every point and whatever the buffers hold. -/
theorem body_obligation (c : Dev nD) : (rdats m c).BodyObligation (defs₀ (F := Bits)) Variants.none () Set.univ := fun t Y _ => by
  rw [bigSep_W0, bigSep_W0]
  exact sound_body m c t Y

/-! ## The run and the frame -/

set_option backward.isDefEq.respectTransparency.types false in
theorem run_main : θ_run (defs (F := Bits)) (onTc (τ := τ) (main (F := Bits))) (s₀ m ρ)
    (RDat.FramePostR cfg0 (rdats m) T (fun c b => Gen.V0 m c (Proc.devRef .tc b))) :=
  RDat.θ_run_frame_around_T cfgs (0 : Fin 1) launch0 defs₀ Variants.none (rdats m) T m ρ main
    (hbody := fun c => body_obligation m c) (hshare := share_eq m) (howed := fun _ _ => rfl)
    (V₀ := Gen.V0 m) (opss := [hostOps1]) (hsub := sfx_sub) (hfresh := sfx_fresh) (hkeep := sfx_keeps)
    (hT := hT) (hmain := Gen.hmain m Variants.none) (hA := fun _ _ => rfl) (hΦ := fun _ _ => rfl)

/-- THE FRAME of the word-level program. -/
theorem frame : θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r (h : RDat.FramePostR cfg0 (rdats m) T (fun c b => Gen.V0 m c (Proc.devRef .tc b)) r) c =>
    ⟨(RDat.FramePostR.arr_in h c 0 rfl).trans (Gen.V_main_arg0 m c),
     ((h c).2 main_arg1 (Finset.mem_sdiff.mpr ⟨Pipeline.mem_restRefs_of main_arg1 (by decide) (by decide), by decide⟩)).trans (Gen.V_main_arg1 m c),
     (RDat.FramePostR.arr_in h c 1 rfl).trans (Gen.V_main_arg2 m c)⟩) (run_main m ρ)

end Cert.Kernel.Hand

end
-- ==== Proof.KData.lean ====
/-
  What the kernel computes at one grid point, as pure functions of what it reads, and what it carries from one
  grid point to the next.

  The grid has 2 × 49 points (a block of 512 rows, a tile of 2048 classes).  Between the points of one row block the
  kernel keeps, per row, the running maximum of the logits seen so far, the running sum of their exponentials (the
  running maximum taken out), the logit of the row's own class if it has been met, and the normalized rows themselves.
  At the first class tile it resets them; at every tile it writes the tile's logits and updates them; at the last tile
  it writes, per row, the own-class logit and the maximum plus the logarithm of the sum.
-/
import proofs.«425513_j31069793419670_2_alg».proof.Proof.Gen.KernelIdeal.Frame
import proofs.«425513_j31069793419670_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- What is carried between grid points: per row the running maximum, the running sum of exponentials and the
    own-class logit, and the normalized rows. -/
structure Scr (F : FTy → Type) where
  mx : FVec F S512x1 .f32
  se : FVec F S512x1 .f32
  tl : FVec F S512x1 .f32
  xn : FVec F S512x128 .bf16

/-- "This is the first class tile", as the kernel's body decides it. -/
abbrev first (i : grid0.Coords) : Prop :=
  Scalar.cmpi .ne (Scalar.extui (Scalar.cmpi .eq (BitVec.ofNat 32 (i 1).val) 0#32)) 0#32 = 1#1

/-- The carried values as the body uses them at a point: reset at the first class tile (the running maximum to the
    fill value, the sums to zero, the normalized rows computed from the row block `xb`), else as found. -/
def enter (i : grid0.Coords) (xb : Vec F S512x128 .f32) (p : Scr F) : Scr F :=
  if first i then ⟨k0_pay5, k0_pay6, k0_pay7, k0_pay8 xb⟩ else p

/-- The tile of logits the body stores at a point, from the row block, the class-vector tile and the labels. -/
def logitBlk (i : grid0.Coords) (xb : Vec F S512x128 .f32) (lb : Vec F S2048x128 .f32) (tb : Vec F S512x1 .i32) (p : Scr F) :
    FVec F S512x2048 .f32 :=
  k0_pay12 i (enter i xb p).xn lb tb

/-- The carried values after the body at a point. -/
def stepScr (i : grid0.Coords) (xb : Vec F S512x128 .f32) (lb : Vec F S2048x128 .f32) (tb : Vec F S512x1 .i32) (p : Scr F) : Scr F :=
  let q := enter i xb p
  let nm := k0_pay13 i q.xn lb tb q.mx
  ⟨k0_pay3 nm,
   k0_pay1 (k0_pay12 i q.xn lb tb) nm (k0_pay14 i q.xn lb tb q.mx q.mx) q.se,
   k0_pay2 (k0_pay11 i tb) (k0_pay12 i q.xn lb tb) q.tl,
   q.xn⟩

/-- What the body stores into the per-row statistics at the last class tile, from the carried values. -/
def statsBlk (s : Scr F) : FVec F S512x2 .f32 := k0_pay4 s.mx s.se s.tl

end Cert.KernelIdeal.Hand

end
-- ==== Proof.KDat.lean ====
/-
  The idealized kernel's values point by point over the extended reals, and the proof data of its one pipelined
  region built from them.

  A class-vector tile that runs past the bank's last class is read, past that class, as zeros: whatever those rows of
  the staging buffer hold, the columns they feed are the ones the body overwrites with the fill value, so nothing
  the body stores or carries depends on them (`logitBlk_fill`, in KPay.lean).
-/
import proofs.«425513_j31069793419670_2_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The values -/

/-- The row block, the class-vector tile (zeros past the bank's last class) and the labels' block at point `t`. -/
def xB (c : Dev nD) (t : Fin cfg0.N) : Vec Ideal S512x128 .f32 := iblk m c 0 t
def lutC (c : Dev nD) (t : Fin cfg0.N) : Vec Ideal S2048x128 .f32 :=
  win0_1.fill (grid0.coords t) (fun _ => (0 : EReal)) (iblk m c 1 t)
def tB (c : Dev nD) (t : Fin cfg0.N) : Vec Ideal S512x1 .i32 := iblk m c 2 t

/-- Carried values nothing reads: what stands for the scratch buffers' contents before the first point (the body
    resets them there before it uses them). -/
def scr0 : Scr Ideal := ⟨fun _ => (0 : EReal), fun _ => (0 : EReal), fun _ => (0 : EReal), fun _ => (0 : EReal)⟩

/-- The carried values after the body at position `n`, by recursion on the position. -/
def scrAt (c : Dev nD) : (n : ℕ) → n < cfg0.N → Scr Ideal
  | 0, hn => stepScr (grid0.coords ⟨0, hn⟩) (xB m c ⟨0, hn⟩) (lutC m c ⟨0, hn⟩) (tB m c ⟨0, hn⟩) scr0
  | n + 1, hn => stepScr (grid0.coords ⟨n + 1, hn⟩) (xB m c ⟨n + 1, hn⟩) (lutC m c ⟨n + 1, hn⟩) (tB m c ⟨n + 1, hn⟩)
      (scrAt c n (Nat.lt_of_succ_lt hn))

/-- The carried values the body finds at point `t`: what the point before left. -/
def scrBefore (c : Dev nD) (t : Fin cfg0.N) : Scr Ideal :=
  if h : t.val = 0 then scr0 else scrAt m c (t.val - 1) (Nat.lt_of_le_of_lt (Nat.sub_le _ _) t.isLt)

theorem scrAt_eq (c : Dev nD) (t : Fin cfg0.N) :
    scrAt m c t.val t.isLt = stepScr (grid0.coords t) (xB m c t) (lutC m c t) (tB m c t) (scrBefore m c t) := by
  obtain ⟨n, hn⟩ := t
  cases n with
  | zero => simp only [scrAt, scrBefore, dif_pos]
  | succ n => simp only [scrAt, scrBefore, Nat.succ_ne_zero, dif_neg, not_false_eq_true, Nat.add_sub_cancel]

/-- The tile of logits stored at point `t`, and the per-row statistics as the carried values after point `t` give them. -/
def logitAt (c : Dev nD) (t : Fin cfg0.N) : FVec Ideal S512x2048 .f32 :=
  logitBlk (grid0.coords t) (xB m c t) (lutC m c t) (tB m c t) (scrBefore m c t)
def statsAt (c : Dev nD) (t : Fin cfg0.N) : FVec Ideal S512x2 .f32 := statsBlk (scrAt m c t.val t.isLt)

/-! ## The proof data -/

/-- The four scratch buffers, whole. -/
abbrev scM0 : Memref sig .tc .vmem S512x1 .f32 := Memref.whole cc0_scratch0
abbrev scM1 : Memref sig .tc .vmem S512x1 .f32 := Memref.whole cc0_scratch1
abbrev scM2 : Memref sig .tc .vmem S512x1 .f32 := Memref.whole cc0_scratch2
abbrev scM3 : Memref sig .tc .vmem S512x128 .bf16 := Memref.whole cc0_scratch3

/-- The scratch buffers holding given carried values. -/
def ownsScr (c : Dev nD) (s : Scr Ideal) : sProp 𝕄 :=
  iprop(owns (c : Thread nD τ) scM0 fullShare s.mx ∗ owns (c : Thread nD τ) scM1 fullShare s.se
    ∗ owns (c : Thread nD τ) scM2 fullShare s.tl ∗ owns (c : Thread nD τ) scM3 fullShare s.xn)

/-- The region's invariant before position `n`: before the first point what the launch hands over (every scratch
    buffer at some contents, the generator register at some state); afterwards the scratch buffers at the carried values
    the point before left, and the generator register at some state. -/
def PhiS (c : Dev nD) : (n : ℕ) → n ≤ cfg0.N → sProp 𝕄
  | 0, _ => Pipeline.ΦA spec0 c
  | n + 1, hn => iprop(ownsScr c (scrAt m c n hn) ∗ (∃ r, prngReg c r))

/-- The proof data of the pipeline on core `c`: the arrays as the region finds them; after the body at point `t` the
    inputs' buffers at their blocks (the class-vector tile's past the bank's end at zeros: that window is stated on the
    part inside the bank only), the logits' buffer at the tile of logits, the statistics' buffer at the statistics. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => lutC m c t
    | ⟨2, _⟩ => iblk m c 2 t
    | ⟨3, _⟩ => logitAt m c t
    | ⟨4, _⟩ => statsAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = lutC m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = logitAt m c t := by dsimp only [dats]
theorem after0_4 (c : Dev nD) (t : Fin cfg0.N) : (dats m 0 c).after 4 t = statsAt m c t := by dsimp only [dats]

end Cert.KernelIdeal.Hand

end
-- ==== Proof.KPay.lean ====
/-
  The values the kernel's body computes at one grid point, read entry by entry over the extended reals.

  A tile of logits at row `r` and tile column `j` is, for a class inside the bank, the inner product of the
  normalized row with that class's vector (times one), less the margin where the class is the row's own; for a
  column past the bank's last class it is the fill value, minus infinity.  So the rows of a class-vector tile that
  lie past the bank's end feed only entries that are overwritten, and nothing the body stores or carries depends on
  them.
-/
import proofs.«425513_j31069793419670_2_alg».proof.Proof.KData
import proofs.«425513_j31069793419670_2_alg».proof.Proof.Spec
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws
import Idealize.ShloMosaic.PureOps.IdealRules

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-! ## Layout operations on a column, read at an index -/

section Layout
variable {α : Type}

/-- A vector of length `n` cast to a column `[n, 1]` reads, at `(r, 0)`, the vector at `r`. -/
theorem shapeCast_col_apply {n : ℕ} (v : (⟨1, ![n]⟩ : Shape).Idx → α)
    (h : (⟨1, ![n]⟩ : Shape).ShapeCasts ⟨2, ![n, 1]⟩) (r : Fin n) (u : Fin 1) :
    shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column `[n, 1]` broadcast to `[n, m]` reads, at `(r, j)`, the column at `r`. -/
theorem broadcastTo_col_apply {n m : ℕ} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r (0 : Fin 1)) := by
  refine broadcastTo_apply v h (ix2 r j) (ix2 r (0 : Fin 1)) fun ax => ?_
  match ax with
  | ⟨0, _⟩ =>
    show r.val = if n = 1 then 0 else r.val
    split
    · have := r.isLt; omega
    · rfl
  | ⟨1, _⟩ => rfl

end Layout

/-! ## Sums and maxima along a row -/

/-- The sum over the second axis of a matrix, at row `r`, is the sum of that row's entries. -/
theorem laneSum_apply {n m : ℕ} (src : FVec Ideal ⟨2, ![n, m]⟩ .f32) (acc : BitVec 32)
    (h : (⟨2, ![n, m]⟩ : Shape).Reduces [1] ⟨1, ![n]⟩) (hφ : FKind.Formats .f32)
    (hacc : acc = FKind.add.neutral .f32 hφ) (r : Fin n) :
    multiReduction (F := Ideal) .add [1] ⟨1, ![n]⟩ src acc h hφ hacc (ix1 r) = ∑ j : Fin m, src (ix2 r j) := by
  refine (Ideal.multiReduction_add_single src acc h hφ hacc (ix1 r)).trans ?_
  refine Finset.sum_congr rfl fun j _ => congrArg src ?_
  funext a
  match a with
  | ⟨0, _⟩ => exact Fin.ext rfl
  | ⟨1, _⟩ => exact Fin.ext rfl

/-- The maximum over the second axis of a matrix, at row `r`, is the fold of `max` over that row's entries from the
    accumulator's value. -/
theorem laneMax_apply {n m : ℕ} (src : FVec Ideal ⟨2, ![n, m]⟩ .f32) (acc : BitVec 32)
    (h : (⟨2, ![n, m]⟩ : Shape).Reduces [1] ⟨1, ![n]⟩) (hφ : FKind.Formats .f32)
    (hacc : acc = FKind.maximumf.neutral .f32 hφ) (r : Fin n) :
    multiReduction (F := Ideal) .maximumf [1] ⟨1, ![n]⟩ src acc h hφ hacc (ix1 r)
      = (Finset.univ : Finset (Fin m)).fold max (Ideal.ofBits .f32 acc) (fun j => src (ix2 r j)) := by
  refine (Ideal.multiReduction_maximumf_single src acc h hφ hacc (ix1 r)).trans ?_
  refine congrArg (Finset.fold max (Ideal.ofBits .f32 acc) · Finset.univ) ?_
  funext j
  refine congrArg src ?_
  funext a
  match a with
  | ⟨0, _⟩ => exact Fin.ext rfl
  | ⟨1, _⟩ => exact Fin.ext rfl

/-! ## The class a tile column stands for, and the two masks -/

/-- The class that tile column `j` stands for at grid coordinates `i`: the tile's number times the tile's width,
    plus the column. -/
def col (i : grid0.Coords) (j : Fin 2048) : ℕ := (i 1).val * 2048 + j.val

theorem col_lt (i : grid0.Coords) (j : Fin 2048) : col i j < 102400 := by
  have h49 : (i 1).val < 49 := (i 1).isLt
  have := j.isLt
  unfold col; omega

/-- The body's column numbers, as 32-bit words: no wrap, a tile's number being below 49. -/
theorem pay9_apply (i : grid0.Coords) (r : Fin 512) (j : Fin 2048) :
    k0_pay9 i (ix2 r j) = BitVec.ofNat 32 (col i j) := by
  unfold k0_pay9
  show IntOp.addi (IntOp.muli (BitVec.ofNat 32 (i 1).val) 2048#32) (iota .tc S512x2048 32 [1] iota_S512x2048_d1_w32 (ix2 r j)) = _
  rw [iota_single_apply]
  show BitVec.ofNat 32 (i 1).val * BitVec.ofNat 32 2048 + BitVec.ofNat 32 j.val = BitVec.ofNat 32 ((i 1).val * 2048 + j.val)
  rw [BitVec.ofNat_add, BitVec.ofNat_mul]

/-- A column number below 2³¹ read signed is itself. -/
theorem toInt_ofNat_col (i : grid0.Coords) (j : Fin 2048) : (BitVec.ofNat 32 (col i j)).toInt = (col i j : ℤ) := by
  have h := col_lt i j
  rw [BitVec.toInt_eq_toNat_cond, BitVec.toNat_ofNat]
  have e : col i j % 2 ^ 32 = col i j := Nat.mod_eq_of_lt (by omega)
  rw [e, if_pos (by omega)]

/-- The mask "this column is a class of the bank". -/
theorem pay10_apply (i : grid0.Coords) (r : Fin 512) (j : Fin 2048) :
    k0_pay10 i (ix2 r j) = 1#1 ↔ col i j < 100000 := by
  unfold k0_pay10
  show IntOp.cmpi .slt (k0_pay9 i (ix2 r j)) 100000#32 = 1#1 ↔ _
  rw [IntOp.cmpi_slt, pay9_apply, toInt_ofNat_col]
  have e : (100000#32 : BitVec 32).toInt = 100000 := by decide
  rw [e]
  exact Int.ofNat_lt

/-- The mask "this column is the row's own class" (and a class of the bank). -/
theorem pay11_apply (i : grid0.Coords) (tb : Vec Ideal S512x1 .i32) (r : Fin 512) (j : Fin 2048) :
    k0_pay11 i tb (ix2 r j) = 1#1 ↔ (tb (ix2 r 0) = BitVec.ofNat 32 (col i j) ∧ col i j < 100000) := by
  unfold k0_pay11
  show IntOp.andi (IntOp.cmpi .eq (k0_pay9 i (ix2 r j))
      (broadcastTo S512x2048 (shapeCast S512x1 tb shapeCasts_S512x1_S512x1) broadcasts_S512x1_S512x2048 (ix2 r j)))
      (k0_pay10 i (ix2 r j)) = 1#1 ↔ _
  rw [IntOp.andi_eq_one, IntOp.cmpi_eq, pay10_apply, pay9_apply, shapeCast_self, broadcastTo_col_apply]
  exact and_congr_left fun _ => eq_comm

/-! ## The tile of logits -/

theorem lhs_dot_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_dot_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem rhs_dot_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_dot_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The body's matrix product into a zero accumulator, at row `r` and column `j`: the inner product of the left
    operand's row `r` with the right operand's column `j`. -/
theorem matmul_apply_rj (X : FVec Ideal S512x128 .bf16) (Y : FVec Ideal S128x2048 .bf16) (r : Fin 512) (j : Fin 2048) :
    matmul (F := Ideal) dot_S512x128_S128x2048_S512x2048_1_0_0_1_n_n none X Y (constant (F := Ideal) S512x2048 .f32 0x00000000#32) (ix2 r j)
      = ∑ k : Fin 128, X (ix2 r k) * Y (ix2 k j) := by
  show FloatOps.matmul dot_S512x128_S128x2048_S512x2048_1_0_0_1_n_n none X Y (constant (F := Ideal) S512x2048 .f32 0x00000000#32) (ix2 r j) = _
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 r j) ((ValueIdx.contrEquiv1 dot_S512x128_S128x2048_S512x2048_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S512x128_S128x2048_S512x2048_1_0_0_1_n_n.rhsIdx (ix2 r j) ((ValueIdx.contrEquiv1 dot_S512x128_S128x2048_S512x2048_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-- The fill value is minus infinity, by the certificate's table of named constants. -/
theorem neg_big : Named.named (F := Ideal) Cert.KernelIdeal.κ "neg_big" (φ := .f32) 0xFF333332#32 = (⊥ : EReal) :=
  IdealRules.named_const.ideal_named_scalar _ _ _ _ rfl

/-- The tile of logits at row `r` and tile column `j`: for a class of the bank the inner product of the normalized
    row with the class's vector, times one, less the margin where the class is the row's own; past the bank's last
    class, minus infinity. -/
theorem pay12_apply (i : grid0.Coords) (X : Vec Ideal S512x128 .bf16) (lb : Vec Ideal S2048x128 .f32)
    (tb : Vec Ideal S512x1 .i32) (r : Fin 512) (j : Fin 2048) :
    k0_pay12 i X lb tb (ix2 r j)
      = if col i j < 100000 then
          (∑ k : Fin 128, X (ix2 r k) * lb (ix2 j k)) * Cert.Oim.one
            - (if tb (ix2 r 0) = BitVec.ofNat 32 (col i j) then Cert.Oim.margin else 0)
        else ⊥ := by
  unfold k0_pay12
  show Scalar.select (k0_pay10 i (ix2 r j))
      (matmul (F := Ideal) dot_S512x128_S128x2048_S512x2048_1_0_0_1_n_n none X
          (transpose S128x2048 [1, 0] (truncf (F := Ideal) .bf16 lb bitsLt_bf16_f32) transposes_S2048x128_p1_0_S128x2048)
          (constant (F := Ideal) S512x2048 .f32 0x00000000#32) (ix2 r j) * Ideal.ofBits .f32 0x3F800000#32
        - Scalar.select (k0_pay11 i tb (ix2 r j)) (Ideal.ofBits .f32 0x3DCCCCCD#32) (Ideal.ofBits .f32 0x00000000#32))
      (Named.named (F := Ideal) Cert.KernelIdeal.κ "neg_big" (φ := .f32) 0xFF333332#32) = _
  rw [matmul_apply_rj, neg_big, Ideal.ofBits_zero_f32]
  by_cases hc : col i j < 100000
  · rw [if_pos hc, (pay10_apply i r j).mpr hc, select_one]
    congr 1
    · congr 1
      refine Finset.sum_congr rfl fun k _ => ?_
      congr 1
      exact transpose_ix2_apply (truncf (F := Ideal) .bf16 lb bitsLt_bf16_f32) transposes_S2048x128_p1_0_S128x2048 k j
    · by_cases ht : tb (ix2 r 0) = BitVec.ofNat 32 (col i j)
      · rw [if_pos ht, (pay11_apply i tb r j).mpr ⟨ht, hc⟩, select_one]; rfl
      · rw [if_neg ht, eq_zero_of_ne_one (fun h => ht ((pay11_apply i tb r j).mp h).1), select_zero]
  · rw [if_neg hc, eq_zero_of_ne_one (fun h => hc ((pay10_apply i r j).mp h)), select_zero]

/-! ## Rows of a class-vector tile past the bank's end feed nothing -/

/-- How many rows of the tile the class-vector window's transfer moves at coordinates `i`: all of them, but at the
    last tile only those that are classes of the bank. -/
theorem xsize0 (i : grid0.Coords) :
    win0_1.xsize i 0 = if ((i 1).val + 1) * 2048 ≤ 100000 then 2048 else 100000 - (i 1).val * 2048 := by
  have h49 : (i 1).val < 49 := (i 1).isLt
  show (Pipeline.Clip.of (cc0_transform_1 i 0) 2048 100000).extent 2048 = _
  have e : cc0_transform_1 i 0 = (i 1).val := by
    show (BitVec.ofNat 32 (i 1).val).toNat = _
    rw [BitVec.toNat_ofNat]; exact Nat.mod_eq_of_lt (by omega)
  rw [e]; unfold Pipeline.Clip.of; split <;> rfl

theorem xsize1 (i : grid0.Coords) : win0_1.xsize i 1 = 128 := by
  show (Pipeline.Clip.of 0 128 128).extent 128 = 128
  rfl

/-- The transfer moves entry `(j, k)` of the tile exactly when row `j` is a class of the bank. -/
theorem moved_iff_col (i : grid0.Coords) (j : Fin 2048) (k : Fin 128) :
    win0_1.moved i (ix2 j k) = true ↔ col i j < 100000 := by
  have h49 : (i 1).val < 49 := (i 1).isLt
  have hj := j.isLt
  rw [Pipeline.Window.moved_iff]
  constructor
  · intro h
    have h0 : j.val < win0_1.xsize i 0 := h 0
    rw [xsize0] at h0
    unfold col; split at h0 <;> omega
  · intro h a
    unfold col at h
    match a with
    | ⟨0, _⟩ =>
      show j.val < win0_1.xsize i 0
      rw [xsize0]; split <;> omega
    | ⟨1, _⟩ =>
      show k.val < win0_1.xsize i 1
      rw [xsize1]; exact k.isLt

/-- A tile filled over two different backgrounds reads alike on the rows that are classes of the bank. -/
theorem fill_row (i : grid0.Coords) (d d' : S2048x128.Idx → EReal) (g : (win0_1.xblock i).Idx → EReal)
    (j : Fin 2048) (k : Fin 128) (hc : col i j < 100000) :
    win0_1.fill i d g (ix2 j k) = win0_1.fill i d' g (ix2 j k) := by
  have hm := (moved_iff_col i j k).mpr hc
  simp only [Pipeline.Window.fill, dif_pos hm]

/-- The tile of logits does not depend on what the class-vector tile holds past the bank's end: those rows feed only
    the columns that are overwritten with minus infinity. -/
theorem pay12_fill (i : grid0.Coords) (X : Vec Ideal S512x128 .bf16) (d d' : S2048x128.Idx → EReal)
    (g : (win0_1.xblock i).Idx → EReal) (tb : Vec Ideal S512x1 .i32) :
    k0_pay12 i X (win0_1.fill i d g) tb = k0_pay12 i X (win0_1.fill i d' g) tb := by
  funext idx
  obtain ⟨r, j, rfl⟩ : ∃ (r : Fin 512) (j : Fin 2048), idx = ix2 r j := ⟨idx 0, idx 1, eq_ix2 idx⟩
  rw [pay12_apply, pay12_apply]
  by_cases hc : col i j < 100000
  · rw [if_pos hc, if_pos hc]
    congr 2
    refine Finset.sum_congr rfl fun k _ => ?_
    rw [fill_row i d d' g j k hc]
  · rw [if_neg hc, if_neg hc]

theorem pay13_congr {i : grid0.Coords} {X : Vec Ideal S512x128 .bf16} {lb lb' : Vec Ideal S2048x128 .f32}
    {tb : Vec Ideal S512x1 .i32} (h : k0_pay12 i X lb tb = k0_pay12 i X lb' tb) (M : Vec Ideal S512x1 .f32) :
    k0_pay13 i X lb tb M = k0_pay13 i X lb' tb M := by
  unfold k0_pay13; rw [h]

theorem pay14_congr {i : grid0.Coords} {X : Vec Ideal S512x128 .bf16} {lb lb' : Vec Ideal S2048x128 .f32}
    {tb : Vec Ideal S512x1 .i32} (h : k0_pay12 i X lb tb = k0_pay12 i X lb' tb) (M M' : Vec Ideal S512x1 .f32) :
    k0_pay14 i X lb tb M M' = k0_pay14 i X lb' tb M M' := by
  unfold k0_pay14; rw [pay13_congr h]

theorem logitBlk_fill (i : grid0.Coords) (xb : Vec Ideal S512x128 .f32) (d d' : S2048x128.Idx → EReal)
    (g : (win0_1.xblock i).Idx → EReal) (tb : Vec Ideal S512x1 .i32) (p : Scr Ideal) :
    logitBlk i xb (win0_1.fill i d g) tb p = logitBlk i xb (win0_1.fill i d' g) tb p :=
  pay12_fill i (enter i xb p).xn d d' g tb

theorem stepScr_fill (i : grid0.Coords) (xb : Vec Ideal S512x128 .f32) (d d' : S2048x128.Idx → EReal)
    (g : (win0_1.xblock i).Idx → EReal) (tb : Vec Ideal S512x1 .i32) (p : Scr Ideal) :
    stepScr i xb (win0_1.fill i d g) tb p = stepScr i xb (win0_1.fill i d' g) tb p := by
  have h := pay12_fill i (enter i xb p).xn d d' g tb
  unfold stepScr
  simp only [h, pay13_congr h, pay14_congr h]

end Cert.KernelIdeal.Hand

end
-- ==== Proof.KBody.lean ====
/-
  The body of the kernel's one pipelined region, point by point, and the run of the whole program around it.

  At every grid point the body loads its three input blocks and the four carried buffers, stores the tile of logits,
  and stores the carried buffers back updated; at the first class tile of a row block it first resets the carried
  buffers, at the last it also stores the per-row statistics.  Every access is of a whole buffer at offsets zero, so
  a load reads what the buffer holds and a store leaves its payload.  The rows of the class-vector tile past the
  bank's last class hold words nothing names; the tile of logits and the carried values do not depend on them.
-/
import proofs.«425513_j31069793419670_2_alg».proof.Proof.KDat
import proofs.«425513_j31069793419670_2_alg».proof.Proof.KPay
import Idealize.ShloMosaic.Lib.Tactic
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Whole-buffer accesses

A load at offsets zero of the buffer's own extents reads the view's contents, and after an unmasked store there of
a payload the view reads the payload, whatever was stored before. -/

theorem readAt_zero2 {sig : RefSig} {κ : Kind} {sp : Space} {e : EltTy} {Val : EltTy → Type} {d : Fin 2 → ℕ}
    (v : View sig κ sp ⟨2, d⟩ e)
    (inb : ∀ a, (![0, 0] : Fin 2 → ℕ) a + d a ≤ d a) (f : v.ty.Contents Val) :
    v.readAt Val (Rect.unit (s := ⟨2, d⟩) ![0, 0] d inb).toLoadRect f = v.read Val f := by
  funext x
  rw [View.readAt_apply]
  refine congrArg _ (funext fun a => Fin.ext ?_)
  show (![0, 0] : Fin 2 → ℕ) a + 1 * (x a : ℕ) = x a
  fin_cases a <;> simp

theorem read_writes_zero2 {sig : RefSig} {κ : Kind} {sp : Space} {e : EltTy} {Val : EltTy → Type} {d : Fin 2 → ℕ}
    (v : View sig κ sp ⟨2, d⟩ e)
    (inb : ∀ a, (![0, 0] : Fin 2 → ℕ) a + d a ≤ d a) (f : v.ty.Contents Val)
    (w : (⟨2, d⟩ : Shape).Idx → Val e) (L : List (View.Piece Val ⟨2, d⟩ e)) :
    v.read Val (v.writes Val f (⟨Rect.unit (s := ⟨2, d⟩) ![0, 0] d inb, w⟩ :: L)) = w := by
  funext x
  have h := View.read_writes_cons_emb v f (Rect.unit (s := ⟨2, d⟩) ![0, 0] d inb) w L x
  have hx : (Rect.unit (s := ⟨2, d⟩) ![0, 0] d inb).emb x = x := by
    funext a; apply Fin.ext
    show (![0, 0] : Fin 2 → ℕ) a + 1 * (x a : ℕ) = x a
    fin_cases a <;> simp
  rw [hx] at h
  exact h

theorem run_first (c : Dev nD) (i : grid0.Coords)
    (a2 : Memref sig .tc .vmem S512x128 .f32) (h2 : a2.IsWhole) (a3 : Memref sig .tc .vmem S2048x128 .f32) (h3 : a3.IsWhole)
    (a4 : Memref sig .tc .vmem S512x1 .i32) (h4 : a4.IsWhole) (a5 : Memref sig .tc .vmem S512x2048 .f32) (h5 : a5.IsWhole)
    (a6 : Memref sig .tc .vmem S512x2 .f32) (h6 : a6.IsWhole)
    (hc0 : first i) (hc1 : ¬ k0_cond2 i = 1#1)
    (xb : Vec Ideal S512x128 .f32) (lb : Vec Ideal S2048x128 .f32) (tb : Vec Ideal S512x1 .i32)
    (o3 : Vec Ideal S512x2048 .f32) (o4 : Vec Ideal S512x2 .f32) (p : Scr Ideal)
    (E : Set ℕ) (K : PUnit → sProp 𝕄) :
    iprop(owns (c : Thread nD τ) a2 fullShare xb ∗ owns (c : Thread nD τ) a3 fullShare lb ∗ owns (c : Thread nD τ) a4 fullShare tb
        ∗ owns (c : Thread nD τ) a5 fullShare o3 ∗ owns (c : Thread nD τ) a6 fullShare o4 ∗ ownsScr c p
        ∗ (iprop(owns (c : Thread nD τ) a2 fullShare xb ∗ owns (c : Thread nD τ) a3 fullShare lb ∗ owns (c : Thread nD τ) a4 fullShare tb
            ∗ owns (c : Thread nD τ) a5 fullShare (logitBlk i xb lb tb p) ∗ owns (c : Thread nD τ) a6 fullShare o4
            ∗ ownsScr c (stepScr i xb lb tb p)) -∗ K ⟨⟩))
      ⊢ wp frame (wpE (defs₀ (F := Ideal)) Variants.none c none) E
          (cc0__oim_kernel i a2 h2 a3 h3 a4 h4 a5 h5 a6 h6 scM0 (Memref.isWhole_whole _) scM1 (Memref.isWhole_whole _)
            scM2 (Memref.isWhole_whole _) scM3 (Memref.isWhole_whole _)) K := by
  obtain ⟨pm, ps, pt, px⟩ := p
  simp only [cc0__oim_kernel_eq_skeleton]; unfold cc0__oim_kernel_skel
  simp only [k0_part1_eq_skeleton]; unfold k0_part1_skel
  unfold ownsScr owns
  iintro ⟨⟨%f2, %hf2, H2⟩, ⟨%f3, %hf3, H3⟩, ⟨%f4, %hf4, H4⟩, ⟨%f5, %hf5, H5⟩, ⟨%f6, %hf6, H6⟩, ⟨⟨%g0, %hg0, G0⟩, ⟨%g1, %hg1, G1⟩, ⟨%g2, %hg2, G2⟩, ⟨%g3, %hg3, G3⟩⟩, Hk⟩
  dsimp only at hg0 hg1 hg2 hg3
  subst hf2 hf3 hf4 hf5 hf6 hg0 hg1 hg2 hg3
  sl_exec (disch := first | exact hc0 | exact hc1)
  sl_step
  iapply Hk

  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [View.readCov, readAt_zero2, read_writes_zero2, logitBlk, stepScr, statsBlk, enter, if_pos hc0]
  isplitl [H6]
  · iexists _; isplitr; swap; iexact H6; ipureintro
    rfl
  isplitl [G0]
  · iexists _; isplitr; swap; iexact G0; ipureintro
    sl_unfold_run_names
    simp only [View.readCov, readAt_zero2, read_writes_zero2, logitBlk, stepScr, statsBlk, enter, if_pos hc0]
  isplitl [G1]
  · iexists _; isplitr; swap; iexact G1; ipureintro
    sl_unfold_run_names
    simp only [View.readCov, readAt_zero2, read_writes_zero2, logitBlk, stepScr, statsBlk, enter, if_pos hc0]
  isplitl [G2]
  · iexists _; isplitr; swap; iexact G2; ipureintro
    sl_unfold_run_names
    simp only [View.readCov, readAt_zero2, read_writes_zero2, logitBlk, stepScr, statsBlk, enter, if_pos hc0]
  · iexists _; isplitr; swap; iexact G3; ipureintro
    sl_unfold_run_names
    simp only [View.readCov, readAt_zero2, read_writes_zero2, logitBlk, stepScr, statsBlk, enter, if_pos hc0]

theorem run_mid (c : Dev nD) (i : grid0.Coords)
    (a2 : Memref sig .tc .vmem S512x128 .f32) (h2 : a2.IsWhole) (a3 : Memref sig .tc .vmem S2048x128 .f32) (h3 : a3.IsWhole)
    (a4 : Memref sig .tc .vmem S512x1 .i32) (h4 : a4.IsWhole) (a5 : Memref sig .tc .vmem S512x2048 .f32) (h5 : a5.IsWhole)
    (a6 : Memref sig .tc .vmem S512x2 .f32) (h6 : a6.IsWhole)
    (hc0 : ¬ first i) (hc1 : ¬ k0_cond2 i = 1#1)
    (xb : Vec Ideal S512x128 .f32) (lb : Vec Ideal S2048x128 .f32) (tb : Vec Ideal S512x1 .i32)
    (o3 : Vec Ideal S512x2048 .f32) (o4 : Vec Ideal S512x2 .f32) (p : Scr Ideal)
    (E : Set ℕ) (K : PUnit → sProp 𝕄) :
    iprop(owns (c : Thread nD τ) a2 fullShare xb ∗ owns (c : Thread nD τ) a3 fullShare lb ∗ owns (c : Thread nD τ) a4 fullShare tb
        ∗ owns (c : Thread nD τ) a5 fullShare o3 ∗ owns (c : Thread nD τ) a6 fullShare o4 ∗ ownsScr c p
        ∗ (iprop(owns (c : Thread nD τ) a2 fullShare xb ∗ owns (c : Thread nD τ) a3 fullShare lb ∗ owns (c : Thread nD τ) a4 fullShare tb
            ∗ owns (c : Thread nD τ) a5 fullShare (logitBlk i xb lb tb p) ∗ owns (c : Thread nD τ) a6 fullShare o4
            ∗ ownsScr c (stepScr i xb lb tb p)) -∗ K ⟨⟩))
      ⊢ wp frame (wpE (defs₀ (F := Ideal)) Variants.none c none) E
          (cc0__oim_kernel i a2 h2 a3 h3 a4 h4 a5 h5 a6 h6 scM0 (Memref.isWhole_whole _) scM1 (Memref.isWhole_whole _)
            scM2 (Memref.isWhole_whole _) scM3 (Memref.isWhole_whole _)) K := by
  obtain ⟨pm, ps, pt, px⟩ := p
  simp only [cc0__oim_kernel_eq_skeleton]; unfold cc0__oim_kernel_skel
  simp only [k0_part1_eq_skeleton]; unfold k0_part1_skel
  unfold ownsScr owns
  iintro ⟨⟨%f2, %hf2, H2⟩, ⟨%f3, %hf3, H3⟩, ⟨%f4, %hf4, H4⟩, ⟨%f5, %hf5, H5⟩, ⟨%f6, %hf6, H6⟩, ⟨⟨%g0, %hg0, G0⟩, ⟨%g1, %hg1, G1⟩, ⟨%g2, %hg2, G2⟩, ⟨%g3, %hg3, G3⟩⟩, Hk⟩
  dsimp only at hg0 hg1 hg2 hg3
  subst hf2 hf3 hf4 hf5 hf6 hg0 hg1 hg2 hg3
  sl_exec (disch := first | exact hc0 | exact hc1)
  sl_step
  iapply Hk

  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [View.readCov, readAt_zero2, read_writes_zero2, logitBlk, stepScr, statsBlk, enter, if_neg hc0]
  isplitl [H6]
  · iexists _; isplitr; swap; iexact H6; ipureintro
    rfl
  isplitl [G0]
  · iexists _; isplitr; swap; iexact G0; ipureintro
    sl_unfold_run_names
    simp only [View.readCov, readAt_zero2, read_writes_zero2, logitBlk, stepScr, statsBlk, enter, if_neg hc0]
  isplitl [G1]
  · iexists _; isplitr; swap; iexact G1; ipureintro
    sl_unfold_run_names
    simp only [View.readCov, readAt_zero2, read_writes_zero2, logitBlk, stepScr, statsBlk, enter, if_neg hc0]
  isplitl [G2]
  · iexists _; isplitr; swap; iexact G2; ipureintro
    sl_unfold_run_names
    simp only [View.readCov, readAt_zero2, read_writes_zero2, logitBlk, stepScr, statsBlk, enter, if_neg hc0]
  · iexists _; isplitr; swap; iexact G3; ipureintro
    sl_unfold_run_names
    simp only [View.readCov, readAt_zero2, read_writes_zero2, logitBlk, stepScr, statsBlk, enter, if_neg hc0]

theorem run_last (c : Dev nD) (i : grid0.Coords)
    (a2 : Memref sig .tc .vmem S512x128 .f32) (h2 : a2.IsWhole) (a3 : Memref sig .tc .vmem S2048x128 .f32) (h3 : a3.IsWhole)
    (a4 : Memref sig .tc .vmem S512x1 .i32) (h4 : a4.IsWhole) (a5 : Memref sig .tc .vmem S512x2048 .f32) (h5 : a5.IsWhole)
    (a6 : Memref sig .tc .vmem S512x2 .f32) (h6 : a6.IsWhole)
    (hc0 : ¬ first i) (hc1 : k0_cond2 i = 1#1)
    (xb : Vec Ideal S512x128 .f32) (lb : Vec Ideal S2048x128 .f32) (tb : Vec Ideal S512x1 .i32)
    (o3 : Vec Ideal S512x2048 .f32) (o4 : Vec Ideal S512x2 .f32) (p : Scr Ideal)
    (E : Set ℕ) (K : PUnit → sProp 𝕄) :
    iprop(owns (c : Thread nD τ) a2 fullShare xb ∗ owns (c : Thread nD τ) a3 fullShare lb ∗ owns (c : Thread nD τ) a4 fullShare tb
        ∗ owns (c : Thread nD τ) a5 fullShare o3 ∗ owns (c : Thread nD τ) a6 fullShare o4 ∗ ownsScr c p
        ∗ (iprop(owns (c : Thread nD τ) a2 fullShare xb ∗ owns (c : Thread nD τ) a3 fullShare lb ∗ owns (c : Thread nD τ) a4 fullShare tb
            ∗ owns (c : Thread nD τ) a5 fullShare (logitBlk i xb lb tb p) ∗ owns (c : Thread nD τ) a6 fullShare (statsBlk (stepScr i xb lb tb p))
            ∗ ownsScr c (stepScr i xb lb tb p)) -∗ K ⟨⟩))
      ⊢ wp frame (wpE (defs₀ (F := Ideal)) Variants.none c none) E
          (cc0__oim_kernel i a2 h2 a3 h3 a4 h4 a5 h5 a6 h6 scM0 (Memref.isWhole_whole _) scM1 (Memref.isWhole_whole _)
            scM2 (Memref.isWhole_whole _) scM3 (Memref.isWhole_whole _)) K := by
  obtain ⟨pm, ps, pt, px⟩ := p
  simp only [cc0__oim_kernel_eq_skeleton]; unfold cc0__oim_kernel_skel
  simp only [k0_part1_eq_skeleton]; unfold k0_part1_skel
  unfold ownsScr owns
  iintro ⟨⟨%f2, %hf2, H2⟩, ⟨%f3, %hf3, H3⟩, ⟨%f4, %hf4, H4⟩, ⟨%f5, %hf5, H5⟩, ⟨%f6, %hf6, H6⟩, ⟨⟨%g0, %hg0, G0⟩, ⟨%g1, %hg1, G1⟩, ⟨%g2, %hg2, G2⟩, ⟨%g3, %hg3, G3⟩⟩, Hk⟩
  dsimp only at hg0 hg1 hg2 hg3
  subst hf2 hf3 hf4 hf5 hf6 hg0 hg1 hg2 hg3
  sl_exec (disch := first | exact hc0 | exact hc1)
  sl_step
  iapply Hk

  isplitl [H2]
  · iexists _; isplitr; swap; iexact H2; ipureintro; rfl
  isplitl [H3]
  · iexists _; isplitr; swap; iexact H3; ipureintro; rfl
  isplitl [H4]
  · iexists _; isplitr; swap; iexact H4; ipureintro; rfl
  isplitl [H5]
  · iexists _; isplitr; swap; iexact H5; ipureintro
    sl_unfold_run_names
    simp only [View.readCov, readAt_zero2, read_writes_zero2, logitBlk, stepScr, statsBlk, enter, if_neg hc0]
  isplitl [H6]
  · iexists _; isplitr; swap; iexact H6; ipureintro
    sl_unfold_run_names
    simp only [View.readCov, readAt_zero2, read_writes_zero2, logitBlk, stepScr, statsBlk, enter, if_neg hc0]
  isplitl [G0]
  · iexists _; isplitr; swap; iexact G0; ipureintro
    sl_unfold_run_names
    simp only [View.readCov, readAt_zero2, read_writes_zero2, logitBlk, stepScr, statsBlk, enter, if_neg hc0]
  isplitl [G1]
  · iexists _; isplitr; swap; iexact G1; ipureintro
    sl_unfold_run_names
    simp only [View.readCov, readAt_zero2, read_writes_zero2, logitBlk, stepScr, statsBlk, enter, if_neg hc0]
  isplitl [G2]
  · iexists _; isplitr; swap; iexact G2; ipureintro
    sl_unfold_run_names
    simp only [View.readCov, readAt_zero2, read_writes_zero2, logitBlk, stepScr, statsBlk, enter, if_neg hc0]
  · iexists _; isplitr; swap; iexact G3; ipureintro
    sl_unfold_run_names
    simp only [View.readCov, readAt_zero2, read_writes_zero2, logitBlk, stepScr, statsBlk, enter, if_neg hc0]

/-- The body at any point, in one statement: the tile of logits and the carried values as `logitBlk` and `stepScr`
    give them, the statistics' buffer rewritten at the last class tile only. (No point is both first and last.) -/
theorem run_body (c : Dev nD) (i : grid0.Coords)
    (a2 : Memref sig .tc .vmem S512x128 .f32) (h2 : a2.IsWhole) (a3 : Memref sig .tc .vmem S2048x128 .f32) (h3 : a3.IsWhole)
    (a4 : Memref sig .tc .vmem S512x1 .i32) (h4 : a4.IsWhole) (a5 : Memref sig .tc .vmem S512x2048 .f32) (h5 : a5.IsWhole)
    (a6 : Memref sig .tc .vmem S512x2 .f32) (h6 : a6.IsWhole)
    (hcase : ¬ (first i ∧ k0_cond2 i = 1#1))
    (xb : Vec Ideal S512x128 .f32) (lb : Vec Ideal S2048x128 .f32) (tb : Vec Ideal S512x1 .i32)
    (o3 : Vec Ideal S512x2048 .f32) (o4 : Vec Ideal S512x2 .f32) (p : Scr Ideal)
    (L : Vec Ideal S512x2048 .f32) (hL : L = logitBlk i xb lb tb p) (S : Scr Ideal) (hS : S = stepScr i xb lb tb p)
    (E : Set ℕ) (K : PUnit → sProp 𝕄) :
    iprop(owns (c : Thread nD τ) a2 fullShare xb ∗ owns (c : Thread nD τ) a3 fullShare lb ∗ owns (c : Thread nD τ) a4 fullShare tb
        ∗ owns (c : Thread nD τ) a5 fullShare o3 ∗ owns (c : Thread nD τ) a6 fullShare o4 ∗ ownsScr c p
        ∗ (iprop(owns (c : Thread nD τ) a2 fullShare xb ∗ owns (c : Thread nD τ) a3 fullShare lb ∗ owns (c : Thread nD τ) a4 fullShare tb
            ∗ owns (c : Thread nD τ) a5 fullShare L
            ∗ owns (c : Thread nD τ) a6 fullShare (if k0_cond2 i = 1#1 then statsBlk S else o4)
            ∗ ownsScr c S) -∗ K ⟨⟩))
      ⊢ wp frame (wpE (defs₀ (F := Ideal)) Variants.none c none) E
          (cc0__oim_kernel i a2 h2 a3 h3 a4 h4 a5 h5 a6 h6 scM0 (Memref.isWhole_whole _) scM1 (Memref.isWhole_whole _)
            scM2 (Memref.isWhole_whole _) scM3 (Memref.isWhole_whole _)) K := by
  subst hL hS
  by_cases hc0 : first i
  · have hc1 : ¬ k0_cond2 i = 1#1 := fun h => hcase ⟨hc0, h⟩
    rw [if_neg hc1]; exact run_first c i a2 h2 a3 h3 a4 h4 a5 h5 a6 h6 hc0 hc1 xb lb tb o3 o4 p E K
  · by_cases hc1 : k0_cond2 i = 1#1
    · rw [if_pos hc1]; exact run_last c i a2 h2 a3 h3 a4 h4 a5 h5 a6 h6 hc0 hc1 xb lb tb o3 o4 p E K
    · rw [if_neg hc1]; exact run_mid c i a2 h2 a3 h3 a4 h4 a5 h5 a6 h6 hc0 hc1 xb lb tb o3 o4 p E K

/-! ## The body's two conditions over the grid, and what the schedule does with the two outputs -/

/-- The reset branch is taken at the first class tile of each row block, -/
theorem hfirst : ∀ t : Fin cfg0.N, first (grid0.coords t) ↔ t.val % 49 = 0 :=
  (by decide +kernel : ∀ t : Fin grid0.N, first (grid0.coords t) ↔ t.val % 49 = 0)
/-- the statistics are stored at the last. -/
theorem hlast : ∀ t : Fin cfg0.N, k0_cond2 (grid0.coords t) = 1#1 ↔ t.val % 49 = 48 :=
  (by decide +kernel : ∀ t : Fin grid0.N, k0_cond2 (grid0.coords t) = 1#1 ↔ t.val % 49 = 48)
/-- The statistics' window is idle off the last class tile, and not written back there; live at the last. -/
theorem idle4 : ∀ t : Fin cfg0.N, ¬ k0_cond2 (grid0.coords t) = 1#1 → cfg0.idle 4 (grid0.coords t) = true := by decide +kernel
theorem noFlush4 : ∀ t : Fin cfg0.N, ¬ k0_cond2 (grid0.coords t) = 1#1 → (cfg0.win 4).flush t = false := by decide +kernel
theorem live4 : ∀ t : Fin cfg0.N, k0_cond2 (grid0.coords t) = 1#1 → cfg0.idle 4 (grid0.coords t) = false := by decide +kernel
/-- The logits' window is an output: never fetched. -/
theorem fetch0_3 : ∀ t : Fin cfg0.N, (cfg0.win 3).fetch t = false := by decide +kernel

/-! ## At the first class tile the carried values found do not matter -/

theorem stepScr_first {i : grid0.Coords} (h : first i) (xb : Vec Ideal S512x128 .f32) (lb : Vec Ideal S2048x128 .f32)
    (tb : Vec Ideal S512x1 .i32) (p p' : Scr Ideal) : stepScr i xb lb tb p = stepScr i xb lb tb p' := by
  simp only [stepScr, enter, if_pos h]
theorem logitBlk_first {i : grid0.Coords} (h : first i) (xb : Vec Ideal S512x128 .f32) (lb : Vec Ideal S2048x128 .f32)
    (tb : Vec Ideal S512x1 .i32) (p p' : Scr Ideal) : logitBlk i xb lb tb p = logitBlk i xb lb tb p' := by
  simp only [logitBlk, enter, if_pos h]

/-! ## What the staging buffers hold when the body runs -/

/-- The rows' and the labels' buffers hold their blocks at every point, fetched there or not. -/
theorem before0_0 (c : Dev nD) (t : Fin cfg0.N) (d) : (dats m 0 c).before 0 t d = xB m c t :=
  before0_0_of m (dats m 0 c) (A_eq m c 0) (after0_0 m c) t d
theorem before0_2 (c : Dev nD) (t : Fin cfg0.N) (d) : (dats m 0 c).before 2 t d = tB m c t :=
  before0_2_of m (dats m 0 c) (A_eq m c 2) (after0_2 m c) t d
/-- The class-vector tile's buffer was fetched at this point: the tile inside the bank, words nothing names past it. -/
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl
/-- The logits' buffer was written back at the point before: it holds words nothing names. -/
theorem before0_3 (c : Dev nD) (t : Fin cfg0.N) (d) : (dats m 0 c).before 3 t d = d := by
  unfold Dat.before
  rw [if_neg (by rw [fetch0_3 t]; exact Bool.false_ne_true)]
  by_cases hz : t.val = 0
  · rw [if_pos hz]
  · rw [if_neg hz]; exact if_pos (flush0_3 _)

/-! ## The invariant -/

theorem PhiA_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(ownsScr c (scrAt m c n hn) ∗ (∃ r, prngReg c r)) := rfl
theorem PhiS_pos (c : Dev nD) (n : ℕ) (h : n ≤ cfg0.N) (hz : n ≠ 0) :
    PhiS m c n h = iprop(ownsScr c (scrAt m c (n - 1) (by omega)) ∗ (∃ r, prngReg c r)) := by
  cases n with
  | zero => exact absurd rfl hz
  | succ n => rfl
theorem PhiS_castSucc (c : Dev nD) (t : Fin cfg0.N) :
    (dats m 0 c).Φ t.castSucc = PhiS m c t.val (Nat.le_of_lt t.isLt) := by
  dsimp only [dats]; simp only [Fin.coe_castSucc]

/-- What the invariant hands the body at a point: the four carried buffers at some contents, which after the first point
    are what the point before left; and the generator register. -/
theorem Phi_open (c : Dev nD) (t : Fin cfg0.N) :
    (dats m 0 c).Φ t.castSucc ⊢ iprop((∃ p, ⌜t.val ≠ 0 → p = scrBefore m c t⌝ ∗ ownsScr c p) ∗ (∃ r, prngReg c r)) := by
  rw [PhiS_castSucc]
  by_cases hz : t.val = 0
  · rw [PhiS_zero m c _ _ hz, PhiA_eq]
    iintro ⟨⟨⟨%d0, H0⟩, ⟨%d1, H1⟩, ⟨%d2, H2⟩, ⟨%d3, H3⟩⟩, Hg⟩
    isplitr [Hg]
    · iexists (⟨d0, d1, d2, d3⟩ : Scr Ideal)
      isplitr
      · ipureintro; exact fun h => absurd hz h
      unfold ownsScr
      isplitl [H0]; · iexact H0
      isplitl [H1]; · iexact H1
      isplitl [H2]; · iexact H2
      iexact H3
    iexact Hg
  · rw [PhiS_pos m c _ _ hz]
    iintro ⟨HS, Hg⟩
    isplitr [Hg]
    · iexists _
      isplitr
      · ipureintro; intro _; unfold scrBefore; rw [dif_neg hz]
      iexact HS
    iexact Hg

/-! ## The body obligation, at a generic point -/

/-- Each window's current staging memref at point `t`, spelled as the pipeline passes it. -/
abbrev ms0 (t : Fin cfg0.N) : Memref sig .tc .vmem S512x128 .f32 := win0_0.stage (cfg0.slots t 0)
abbrev ms1 (t : Fin cfg0.N) : Memref sig .tc .vmem S2048x128 .f32 := win0_1.stage (cfg0.slots t 1)
abbrev ms2 (t : Fin cfg0.N) : Memref sig .tc .vmem S512x1 .i32 := win0_2.stage (cfg0.slots t 2)
abbrev ms3 (t : Fin cfg0.N) : Memref sig .tc .vmem S512x2048 .f32 := win0_3.stage (cfg0.slots t 3)
abbrev ms4 (t : Fin cfg0.N) : Memref sig .tc .vmem S512x2 .f32 := win0_4.stage (cfg0.slots t 4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t)

/-- The inputs' buffers are handed back at their blocks; the class-vector tile's and the logits', whose blocks may run
    past their arrays, stated on the part inside only. -/
theorem leaves0 (c : Dev nD) (t : Fin cfg0.N) :
    (dats m 0 c).leaves 0 t = owns (c : Thread nD τ) (ms0 t) fullShare (xB m c t) := rfl
theorem leaves2 (c : Dev nD) (t : Fin cfg0.N) :
    (dats m 0 c).leaves 2 t = owns (c : Thread nD τ) (ms2 t) fullShare (tB m c t) := rfl
theorem leaves1 (c : Dev nD) (t : Fin cfg0.N) :
    (dats m 0 c).leaves 1 t = iprop(∃ d, owns (c : Thread nD τ) (ms1 t) fullShare
      (win0_1.fill (grid0.coords t) d (win0_1.cut (grid0.coords t) (lutC m c t)))) := rfl
theorem leaves3 (c : Dev nD) (t : Fin cfg0.N) :
    (dats m 0 c).leaves 3 t = iprop(∃ d, owns (c : Thread nD τ) (ms3 t) fullShare
      (win0_3.fill (grid0.coords t) d (win0_3.cut (grid0.coords t) (logitAt m c t)))) := by
  rw [← after0_3 m c t]; rfl
theorem leaves4_live (c : Dev nD) (t : Fin cfg0.N) (h : k0_cond2 (grid0.coords t) = 1#1) :
    (dats m 0 c).leaves 4 t = owns (c : Thread nD τ) (ms4 t) fullShare (statsAt m c t) := by
  unfold Dat.leaves; rw [live4 t h]; rfl
theorem leaves4_idle (c : Dev nD) (t : Fin cfg0.N) (h : ¬ k0_cond2 (grid0.coords t) = 1#1) :
    (dats m 0 c).leaves 4 t = iprop(∃ d, owns (c : Thread nD τ) (ms4 t) fullShare ((dats m 0 c).before 4 t d)) :=
  Dat.leaves_idle (dats m 0 c) 4 t (idle4 t h) (noFlush4 t h)

/-- The statistics' buffer as the body leaves it is what the obligation asks of it: the statistics at the last class
    tile, elsewhere what it held. -/
theorem leaves4_of (c : Dev nD) (t : Fin cfg0.N) (d4) :
    owns (c : Thread nD τ) (ms4 t) fullShare
        (if k0_cond2 (grid0.coords t) = 1#1 then statsBlk (scrAt m c t.val t.isLt) else (dats m 0 c).before 4 t d4)
      ⊢ (dats m 0 c).leaves 4 t := by
  by_cases hc1 : k0_cond2 (grid0.coords t) = 1#1
  · rw [if_pos hc1, leaves4_live m c t hc1]; exact .rfl
  · rw [if_neg hc1, leaves4_idle m c t hc1]
    iintro H; iexists d4; iexact H

set_option maxHeartbeats 4800000 in
/-- The body at any point: the inputs' buffers hold their blocks, the class-vector tile's its tile inside the bank and
    words nothing names past it; the invariant hands over the carried buffers at what the point before left (at anything
    before the first point, where the body resets them); the body leaves the carried buffers, the tile of logits and,
    at the last class tile, the statistics at the values the proof data names. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hcut : win0_1.cut (grid0.coords t) (lutC m c t) = iblk m c 1 t := by unfold lutC; exact win0_1.cut_fill _ _ _
  rw [hcut]
  have h3 : win0_3.fill (grid0.coords t) (logitAt m c t) (win0_3.cut (grid0.coords t) (logitAt m c t)) = logitAt m c t :=
    win0_3.fill_cut _ _
  have hcase : ¬ (first (grid0.coords t) ∧ k0_cond2 (grid0.coords t) = 1#1) := fun ⟨h0, h1⟩ => by
    have := (hfirst t).mp h0; have := (hlast t).mp h1; omega
  iintro ⟨HΦ, Ho, ⟨%d0, H0⟩, ⟨%d1, H1⟩, ⟨%d2, H2⟩, ⟨%d3, H3⟩, ⟨%d4, H4⟩⟩
  ihave HΦ' := (Phi_open m c t) $$ HΦ
  icases HΦ' with ⟨⟨%p, %hp, HS⟩, Hg⟩
  have e : scrAt m c t.val t.isLt
      = stepScr (grid0.coords t) (xB m c t) (win0_1.fill (grid0.coords t) d1 (iblk m c 1 t)) (tB m c t) p := by
    rw [scrAt_eq]; unfold lutC
    refine (stepScr_fill _ _ (fun _ => (0 : EReal)) d1 _ _ _).trans ?_
    by_cases hz : t.val = 0
    · exact stepScr_first ((hfirst t).mpr (by rw [hz])) _ _ _ _ _
    · rw [hp hz]
  have el : logitAt m c t
      = logitBlk (grid0.coords t) (xB m c t) (win0_1.fill (grid0.coords t) d1 (iblk m c 1 t)) (tB m c t) p := by
    unfold logitAt lutC
    refine (logitBlk_fill _ _ (fun _ => (0 : EReal)) d1 _ _ _).trans ?_
    by_cases hz : t.val = 0
    · exact logitBlk_first ((hfirst t).mpr (by rw [hz])) _ _ _ _ _
    · rw [hp hz]
  iapply (run_body c (grid0.coords t) _ _ _ _ _ _ _ _ _ _ hcase (xB m c t)
    (win0_1.fill (grid0.coords t) d1 (iblk m c 1 t)) (tB m c t) d3 ((dats m 0 c).before 4 t d4) p
    (logitAt m c t) el (scrAt m c t.val t.isLt) e Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]; · iexact HS
    iexact Hg
  isplitl [Ho]; · iexact Ho
  isplitl [H0]; · iexact H0
  isplitl [H1]; · iexists d1; iexact H1
  isplitl [H2]; · iexact H2
  isplitl [H3]
  · iexists (logitAt m c t); rw [h3]; iexact H3
  · iapply (leaves4_of m c t d4); iexact H4

/-- The library's body obligation, at every point. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the carried buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  unfold ownsScr
  iintro ⟨⟨H0, H1, H2, H3⟩, Hg⟩
  isplitr [Hg]
  · isplitl [H0]; · iexists _; iexact H0
    isplitl [H1]; · iexists _; iexact H1
    isplitl [H2]; · iexists _; iexact H2
    iexists _; iexact H3
  iexact Hg

theorem hout (c : Dev nD) : (dats m 0 c).Φ (Fin.last cfg0.N) ⊢ Pipeline.ΦA spec0 c :=
  Phi_out m c _ (by rw [Fin.val_last]; have : cfg0.N = 98 := N_0; omega)

/-! ## The run and the frame -/

set_option backward.isDefEq.respectTransparency.types false in
/-- At the compiled mesh, for any values, from any memory with zero counters: every weakly fair execution of the
    program terminates, and every final state has every array of the pipeline at what the library computes from the
    proof data and every other unscoped buffer as the lines after the region leave it. -/
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the three argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand
end
-- ==== Proof.KBlocks.lean ====
/-
  The blocks the kernel reads at a grid point, index by index, in terms of the three input arrays.

  Point t of the 2 × 49 grid is row block t / 49 and class tile t % 49.  Row r of the row block is row
  512 * (t / 49) + r of the features and of the labels; row j of the class-vector tile is class (t % 49) * 2048 + j of
  the bank when that is below 100000, and is read as zero past the bank's end.
-/
import proofs.«425513_j31069793419670_2_alg».proof.Proof.KDat
import proofs.«425513_j31069793419670_2_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-! ## Rows and columns of a point -/

/-- The row of the arrays that row r of the row block at point t is. -/
def rowOf (t : Fin cfg0.N) (r : Fin 512) : Fin 1024 :=
  ⟨512 * (t.val / 49) + r.val, by have := t.isLt; have h98 : cfg0.N = 98 := N_0; have := r.isLt; omega⟩

/-- The class that column j of the class tile at point t is (past the bank's end when 100000 or more). -/
def colOf (t : Fin cfg0.N) (j : Fin 2048) : ℕ := (t.val % 49) * 2048 + j.val

theorem rowOf_val (t : Fin cfg0.N) (r : Fin 512) : (rowOf t r).val = 512 * (t.val / 49) + r.val := rfl

/-- A point's coordinates: its row block and its class tile. -/
theorem coords_facts : ∀ t : Fin cfg0.N, ((grid0.coords t) 0).val = t.val / 49 ∧ ((grid0.coords t) 1).val = t.val % 49 :=
  (by decide +kernel : ∀ t : Fin grid0.N, ((grid0.coords t) 0).val = t.val / 49 ∧ ((grid0.coords t) 1).val = t.val % 49)

/-- The printed index maps over the grid: the features' and the labels' windows follow the row block, the class
    vectors' window the class tile. -/
theorem idx_facts : ∀ t : Fin cfg0.N, win0_0.index t (0 : Fin 2) = t.val / 49 ∧ win0_0.index t (1 : Fin 2) = 0
    ∧ win0_1.index t (0 : Fin 2) = t.val % 49 ∧ win0_1.index t (1 : Fin 2) = 0
    ∧ win0_2.index t (0 : Fin 2) = t.val / 49 ∧ win0_2.index t (1 : Fin 2) = 0 :=
  (by decide +kernel : ∀ t : Fin grid0.N, win0_0.index t (0 : Fin 2) = t.val / 49 ∧ win0_0.index t (1 : Fin 2) = 0
    ∧ win0_1.index t (0 : Fin 2) = t.val % 49 ∧ win0_1.index t (1 : Fin 2) = 0
    ∧ win0_2.index t (0 : Fin 2) = t.val / 49 ∧ win0_2.index t (1 : Fin 2) = 0)

/-- How much of a class-vector tile lies inside the bank: all 2048 rows, or at the last tile the rows up to the
    bank's end; always all 128 columns. -/
theorem xsize_facts : ∀ t : Fin cfg0.N, win0_1.xsize (grid0.coords t) (0 : Fin 2) = min 2048 (100000 - (t.val % 49) * 2048)
    ∧ win0_1.xsize (grid0.coords t) (1 : Fin 2) = 128 :=
  (by decide +kernel : ∀ t : Fin grid0.N, win0_1.xsize (grid0.coords t) (0 : Fin 2) = min 2048 (100000 - (t.val % 49) * 2048)
    ∧ win0_1.xsize (grid0.coords t) (1 : Fin 2) = 128)

/-! ## The blocks at an index -/

/-- The row block of the features. -/
theorem xB_apply (c : Dev nD) (t : Fin cfg0.N) (r : Fin 512) (k : Fin 128) :
    xB m c t (ix2 r k) = (m ((c.tc : Thread nD τ).loc main_arg0) : Cert.Oim.SX.Idx → EReal) (ix2 (rowOf t r) k) := by
  obtain ⟨e0, e1, -, -, -, -⟩ := idx_facts t
  show V m c main_arg0 (((cfg0.win 0).blk t).view.emb (ix2 r k)) = _
  rw [V_main_arg0]
  refine congrArg _ ?_
  funext a; apply Fin.ext
  match a with
  | ⟨0, _⟩ => show win0_0.index t (0 : Fin 2) * 512 + 1 * r.val = 512 * (t.val / 49) + r.val; omega
  | ⟨1, _⟩ => show win0_0.index t (1 : Fin 2) * 128 + 1 * k.val = k.val; omega

/-- The labels' block: the labels' array enters the region reshaped to one column, which changes no position. -/
theorem tB_apply (c : Dev nD) (t : Fin cfg0.N) (r : Fin 512) :
    tB m c t (ix2 r 0) = (m ((c.tc : Thread nD τ).loc main_arg1) : Cert.Oim.STg.Idx → BitVec 32) (ix1 (rowOf t r)) := by
  obtain ⟨-, -, -, -, e0, e1⟩ := idx_facts t
  have e : (V m c main_v0 : S1024x1.Idx → BitVec 32)
      = shapeCast S1024x1 (m ((c.tc : Thread nD τ).loc main_arg1) : S1024.Idx → BitVec 32) shapeCasts_S1024_S1024x1 := by
    dsimp only [Gen.V, Gen.V0]
    simp only [Gen.hostOps0, List.flatten_cons, List.flatten_nil, List.append_nil]
    after_results
    rfl
  show (V m c main_v0 : S1024x1.Idx → BitVec 32) (((cfg0.win 2).blk t).view.emb (ix2 r 0)) = _
  rw [e]
  refine shapeCast_apply _ _ _ (ix1 (rowOf t r)) ?_
  rw [Shape.rowMajor_val_one, Shape.rowMajor_val_two]
  show 512 * (t.val / 49) + r.val = (win0_2.index t (0 : Fin 2) * 512 + 1 * r.val) * 1 + (win0_2.index t (1 : Fin 2) * 1 + 1 * 0)
  omega

/-- The class-vector tile: the bank's rows inside the bank, zeros past its end. -/
theorem lutC_apply (c : Dev nD) (t : Fin cfg0.N) (j : Fin 2048) (k : Fin 128) :
    lutC m c t (ix2 j k) = if h : colOf t j < 100000
      then (m ((c.tc : Thread nD τ).loc main_arg2) : Cert.Oim.SLut.Idx → EReal) (ix2 ⟨colOf t j, h⟩ k) else (0 : EReal) := by
  obtain ⟨-, -, e0, e1, -, -⟩ := idx_facts t
  obtain ⟨x0, x1⟩ := xsize_facts t
  have hjlt := j.isLt
  have hklt := k.isLt
  unfold lutC Window.fill
  by_cases hmv : win0_1.moved (grid0.coords t) (ix2 j k) = true
  · have h0 : j.val < win0_1.xsize (grid0.coords t) (0 : Fin 2) := (win0_1.moved_iff _ _).mp hmv 0
    have hc : colOf t j < 100000 := by unfold colOf; omega
    rw [dif_pos hmv, dif_pos hc]
    show V m c main_arg2 (((cfg0.win 1).blk t).view.emb _) = _
    rw [V_main_arg2]
    refine congrArg _ ?_
    funext a; apply Fin.ext
    match a with
    | ⟨0, _⟩ => show win0_1.index t (0 : Fin 2) * 2048 + 1 * j.val = colOf t j; unfold colOf; omega
    | ⟨1, _⟩ => show win0_1.index t (1 : Fin 2) * 128 + 1 * k.val = k.val; omega
  · have hc : ¬ colOf t j < 100000 := by
      intro hc
      refine hmv ((win0_1.moved_iff _ _).mpr fun a => ?_)
      match a with
      | ⟨0, _⟩ => show j.val < win0_1.xsize (grid0.coords t) (0 : Fin 2); unfold colOf at hc; omega
      | ⟨1, _⟩ => show k.val < win0_1.xsize (grid0.coords t) (1 : Fin 2); omega
    rw [dif_neg hmv, dif_neg hc]

end Cert.KernelIdeal.Hand

end
-- ==== Proof.KPay2.lean ====
/-
  The rest of the kernel body's values read entry by entry over the extended reals: the reset values, the
  normalized rows, the updates of the running maximum, the running sum and the own-class logit, and the per-row
  statistics.
-/
import proofs.«425513_j31069793419670_2_alg».proof.Proof.KPay

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The bit pattern of minus infinity denotes minus infinity. -/
theorem ofBits_neg_inf : Ideal.ofBits .f32 0xFF800000#32 = (⊥ : EReal) := by simp [Ideal.ofBits, Ideal.ieee]

/-- The running maximum after a tile: the larger of the one found and the tile's row maximum (the fold of `max` over
    the row's entries of the tile of logits, from minus infinity). -/
theorem pay13_apply (i : grid0.Coords) (X : Vec Ideal S512x128 .bf16) (lb : Vec Ideal S2048x128 .f32)
    (tb : Vec Ideal S512x1 .i32) (M : Vec Ideal S512x1 .f32) (r : Fin 512) :
    k0_pay13 i X lb tb M (ix2 r 0)
      = max (M (ix2 r 0)) (Finset.univ.fold max ⊥ (fun j : Fin 2048 => k0_pay12 i X lb tb (ix2 r j))) := by
  unfold k0_pay13
  generalize k0_pay12 i X lb tb = L
  refine (maximumf_apply (s := S512x1) (φ := .f32) M _ (ix2 r 0)).trans ?_
  refine congrArg (max (M (ix2 r 0))) ?_
  refine (shapeCast_col_apply _ _ r 0).trans ?_
  refine (laneMax_apply L 0xFF800000#32 reduces_S512x2048_S512 (.inl rfl) rfl r).trans ?_
  rw [ofBits_neg_inf]

/-- What the running sum is scaled by: the maximum found less the new maximum. -/
theorem pay14_apply (i : grid0.Coords) (X : Vec Ideal S512x128 .bf16) (lb : Vec Ideal S2048x128 .f32)
    (tb : Vec Ideal S512x1 .i32) (M M' : Vec Ideal S512x1 .f32) (r : Fin 512) :
    k0_pay14 i X lb tb M M' (ix2 r 0) = M' (ix2 r 0) - k0_pay13 i X lb tb M (ix2 r 0) := by
  unfold k0_pay14
  rfl

/-- The running sum after a tile: the sum found, rescaled to the new maximum, plus the tile's exponentials. -/
theorem pay1_apply (L : FVec Ideal S512x2048 .f32) (nm v33 : FVec Ideal S512x1 .f32) (S : Vec Ideal S512x1 .f32) (r : Fin 512) :
    k0_pay1 L nm v33 S (ix2 r 0)
      = Ideal.exp (v33 (ix2 r 0)) * S (ix2 r 0) + ∑ j : Fin 2048, Ideal.exp (L (ix2 r j) - nm (ix2 r 0)) := by
  unfold k0_pay1
  refine (congrFun (shapeCast_self _ _) _).trans ?_
  refine (addf_apply (s := S512x1) (φ := .f32) _ _ (ix2 r 0)).trans ?_
  refine congrArg₂ (· + ·) rfl ?_
  refine (shapeCast_col_apply _ _ r 0).trans ?_
  refine (laneSum_apply (exp (subf L (broadcastTo S512x2048 nm broadcasts_S512x1_S512x2048))) 0x00000000#32
    reduces_S512x2048_S512 (.inl rfl) rfl r).trans ?_
  refine Finset.sum_congr rfl fun j _ => ?_
  show Ideal.exp (L (ix2 r j) - broadcastTo S512x2048 nm broadcasts_S512x1_S512x2048 (ix2 r j)) = _
  rw [broadcastTo_col_apply]

end Cert.KernelIdeal.Hand

end
-- ==== Proof.KPay3.lean ====
/-
  The rest of the values the kernel's body computes at one grid point, read entry by entry over the extended reals:
  the reset values of the carried quantities (minus infinity for the running maximum, zero for the two sums), the
  normalized rows (each entry divided by the square root of its row's sum of squares plus the guard; storing them
  at the narrower float type changes nothing over the extended reals), the own-class logit accumulated over a tile
  (the tile's logits summed where the mask marks the row's own class), the running maximum stored as computed, and
  the two per-row statistics (the own-class logit; the maximum plus the logarithm of the sum of exponentials) laid
  side by side.
-/
import proofs.«425513_j31069793419670_2_alg».proof.Proof.KPay

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The reset value of the running maximum is minus infinity, of the two sums zero. -/
theorem pay5_eq : (k0_pay5 (F := Ideal)) = fun _ => (⊥ : EReal) := by
  unfold k0_pay5
  refine (shapeCast_self _ _).trans ?_
  funext idx
  exact neg_big

theorem pay6_eq : (k0_pay6 (F := Ideal)) = fun _ => (0 : EReal) := by
  unfold k0_pay6
  refine (shapeCast_self _ _).trans ?_
  funext idx
  exact Ideal.ofBits_zero_f32

theorem pay7_eq : (k0_pay7 (F := Ideal)) = fun _ => (0 : EReal) := by
  unfold k0_pay7
  refine (shapeCast_self _ _).trans ?_
  funext idx
  exact Ideal.ofBits_zero_f32

/-- The running maximum is stored as computed. -/
theorem pay3_eq (nm : FVec Ideal S512x1 .f32) : k0_pay3 nm = nm := by
  unfold k0_pay3
  exact shapeCast_self _ _

/-- The normalized rows: each entry divided by the square root of its row's sum of squares, plus the guard. -/
theorem pay8_apply (xb : Vec Ideal S512x128 .f32) (r : Fin 512) (k : Fin 128) :
    k0_pay8 xb (ix2 r k)
      = Ideal.div (xb (ix2 r k)) (Ideal.sqrt (∑ k' : Fin 128, xb (ix2 r k') * xb (ix2 r k')) + Cert.Oim.eps) := by
  unfold k0_pay8
  refine (congrFun (shapeCast_self _ _) _).trans ?_
  show Ideal.div (xb (ix2 r k))
      (broadcastTo S512x128 (addf (sqrt (shapeCast S512x1 (multiReduction (F := Ideal) .add [1] S512 (mulf xb xb) 0x00000000#32
          reduces_S512x128_S512 (.inl rfl) rfl) shapeCasts_S512_S512x1)) (broadcast S512x1 (Ideal.ofBits .f32 0x2B8CBCCC#32)))
        broadcasts_S512x1_S512x128 (ix2 r k)) = _
  rw [broadcastTo_col_apply]
  show Ideal.div (xb (ix2 r k))
      (Ideal.sqrt (shapeCast S512x1 (multiReduction (F := Ideal) .add [1] S512 (mulf xb xb) 0x00000000#32
          reduces_S512x128_S512 (.inl rfl) rfl) shapeCasts_S512_S512x1 (ix2 r 0)) + Ideal.ofBits .f32 0x2B8CBCCC#32) = _
  rw [shapeCast_col_apply]
  refine congrArg (fun z => Ideal.div (xb (ix2 r k)) (Ideal.sqrt z + Cert.Oim.eps)) ?_
  exact laneSum_apply (mulf xb xb) 0x00000000#32 reduces_S512x128_S512 (.inl rfl) rfl r

/-- The own-class logit after a tile: the one found plus the tile's logit at the row's own class, if it is there. -/
theorem pay2_apply (msk : IVec S512x2048 1) (L : FVec Ideal S512x2048 .f32) (T : Vec Ideal S512x1 .f32) (r : Fin 512) :
    k0_pay2 msk L T (ix2 r 0)
      = T (ix2 r 0) + ∑ j : Fin 2048, (if msk (ix2 r j) = 1#1 then L (ix2 r j) else 0) := by
  unfold k0_pay2
  refine (congrFun (shapeCast_self _ _) _).trans ?_
  show T (ix2 r 0)
      + shapeCast S512x1 (multiReduction (F := Ideal) .add [1] S512
          (select msk L (broadcast S512x2048 (Ideal.ofBits .f32 0x00000000#32))) 0x00000000#32
          reduces_S512x2048_S512 (.inl rfl) rfl) shapeCasts_S512_S512x1 (ix2 r 0) = _
  rw [shapeCast_col_apply]
  refine congrArg (T (ix2 r 0) + ·) ?_
  refine (laneSum_apply (select msk L (broadcast S512x2048 (Ideal.ofBits .f32 0x00000000#32))) 0x00000000#32
    reduces_S512x2048_S512 (.inl rfl) rfl r).trans ?_
  refine Finset.sum_congr rfl fun j _ => ?_
  show (if msk (ix2 r j) = 1 then L (ix2 r j) else Ideal.ofBits .f32 0x00000000#32) = _
  rw [Ideal.ofBits_zero_f32]
  rfl

/-- The per-row statistics: the own-class logit, and the maximum plus the logarithm of the sum. -/
theorem pay4_apply_0 (M S T : Vec Ideal S512x1 .f32) (r : Fin 512) :
    k0_pay4 M S T (ix2 r (0 : Fin 2)) = T (ix2 r (0 : Fin 1)) := by
  unfold k0_pay4
  show concatenate S512x2 1 [⟨S512x1, T⟩, ⟨S512x1, addf (F := Ideal) M (log (F := Ideal) S)⟩] concatenates_S512x1_S512x1_S512x2_d1 (ix2 r (0 : Fin 2)) = _
  refine concatenate_pair_apply_left (t := S512x2) (s₁ := S512x1) (s₂ := S512x1) (1 : Fin 2) T (addf (F := Ideal) M (log (F := Ideal) S))
    concatenates_S512x1_S512x1_S512x2_d1 (ix2 r (0 : Fin 2)) rfl (ix2 r (0 : Fin 1)) fun b => ?_
  match b with
  | ⟨0, _⟩ => rfl
  | ⟨1, _⟩ => rfl

theorem pay4_apply_1 (M S T : Vec Ideal S512x1 .f32) (r : Fin 512) :
    k0_pay4 M S T (ix2 r (1 : Fin 2)) = M (ix2 r (0 : Fin 1)) + Ideal.log (S (ix2 r (0 : Fin 1))) := by
  unfold k0_pay4
  show concatenate S512x2 1 [⟨S512x1, T⟩, ⟨S512x1, addf (F := Ideal) M (log (F := Ideal) S)⟩] concatenates_S512x1_S512x1_S512x2_d1 (ix2 r (1 : Fin 2)) = _
  refine (concatenate_pair_apply_right (t := S512x2) (s₁ := S512x1) (s₂ := S512x1) (1 : Fin 2) T (addf (F := Ideal) M (log (F := Ideal) S))
    concatenates_S512x1_S512x1_S512x2_d1 (ix2 r (1 : Fin 2)) rfl rfl (ix2 r (0 : Fin 1)) (fun b => ?_) ?_).trans rfl
  · match b with
    | ⟨0, _⟩ => exact fun _ => rfl
    | ⟨1, _⟩ => exact fun h => absurd rfl h
  · rfl

theorem pay4_apply (M S T : Vec Ideal S512x1 .f32) (r : Fin 512) :
    k0_pay4 M S T (ix2 r 0) = T (ix2 r 0) ∧ k0_pay4 M S T (ix2 r 1) = M (ix2 r 0) + Ideal.log (S (ix2 r 0)) :=
  ⟨pay4_apply_0 M S T r, pay4_apply_1 M S T r⟩

end Cert.KernelIdeal.Hand

end
-- ==== Proof.KInv.lean ====
/-
  The kernel's carried values and stored tiles, point by point over the grid, in terms of the mathematics.

  Within a row block the kernel goes through the 49 class tiles in order.  At every point the normalized rows it
  keeps are the mathematics' normalized rows (computed at the first tile, untouched afterwards); so the tile of
  logits it stores is the mathematics' logits at the tile's classes, and minus infinity past the last class.  The
  three per-row values it carries — the largest logit so far, the sum of exponentials so far with that largest logit
  taken out, the own class's logit if met — follow the tile-by-tile recursion over the row's logits continued by
  minus infinity; after the last tile they are the row's largest logit, the sum over all classes of the
  exponentials, and the own class's logit, which is what the statistics written at the last tile hold.
-/
import proofs.«425513_j31069793419670_2_alg».proof.Proof.KDat
import proofs.«425513_j31069793419670_2_alg».proof.Proof.Spec
import proofs.«425513_j31069793419670_2_alg».proof.Proof.SpecFacts
import proofs.«425513_j31069793419670_2_alg».proof.Proof.Online
import proofs.«425513_j31069793419670_2_alg».proof.Proof.KBlocks
import proofs.«425513_j31069793419670_2_alg».proof.Proof.KPay
import proofs.«425513_j31069793419670_2_alg».proof.Proof.KPay2
import proofs.«425513_j31069793419670_2_alg».proof.Proof.KPay3

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-! ## Words -/

/-- A 32-bit word is the word of a number below 2³² exactly when it reads, unsigned, as that number. -/
theorem word_eq_ofNat_iff (w : BitVec 32) (n : ℕ) (hn : n < 2 ^ 32) : w = BitVec.ofNat 32 n ↔ w.toNat = n := by
  constructor
  · intro h; rw [h, BitVec.toNat_ofNat]; exact Nat.mod_eq_of_lt hn
  · intro h; apply BitVec.eq_of_toNat_eq; rw [BitVec.toNat_ofNat, Nat.mod_eq_of_lt hn]; exact h

/-! ## One point, over what it reads -/

/-- The normalized rows computed at the first class tile are the mathematics' normalized rows. -/
theorem pay8_xn (X : Cert.Oim.SX.Idx → EReal) (xb : Vec Ideal S512x128 .f32) (R : Fin 1024) (r : Fin 512)
    (hx : ∀ k, xb (ix2 r k) = X (ix2 R k)) (k : Fin 128) : k0_pay8 xb (ix2 r k) = Cert.Oim.xn X R k := by
  rw [pay8_apply]
  simp only [hx]
  rfl

/-- The tile of logits at a row and a tile column: the mathematics' logit of the column's class, minus infinity past
    the last class. -/
theorem pay12_ext (X : Cert.Oim.SX.Idx → EReal) (TG : Cert.Oim.STg.Idx → BitVec 32) (LUT : Cert.Oim.SLut.Idx → EReal)
    (i : grid0.Coords) (XN : Vec Ideal S512x128 .bf16) (lb : Vec Ideal S2048x128 .f32) (tb : Vec Ideal S512x1 .i32)
    (R : Fin 1024) (r : Fin 512) (j : Fin 2048) (cl : ℕ) (hcl : col i j = cl)
    (hxn : ∀ k, XN (ix2 r k) = Cert.Oim.xn X R k)
    (hlb : ∀ k, lb (ix2 j k) = if h : cl < 100000 then LUT (ix2 ⟨cl, h⟩ k) else (0 : EReal))
    (htb : tb (ix2 r 0) = TG (ix1 R)) :
    k0_pay12 i XN lb tb (ix2 r j) = Cert.Oim.extCols (Cert.Oim.logit X TG LUT R) cl := by
  have hlt : cl < 2 ^ 32 := by have := col_lt i j; omega
  rw [pay12_apply, hcl]
  by_cases hc : cl < 100000
  · rw [if_pos hc, Cert.Oim.extCols_lt _ hc]
    unfold Cert.Oim.logit Cert.Oim.raw
    simp only [hxn, hlb, dif_pos hc, htb]
    congr 1
    exact if_congr (word_eq_ofNat_iff _ _ hlt) rfl rfl
  · rw [if_neg hc, Cert.Oim.extCols_ge _ (not_lt.1 hc)]

/-- The own-class mask at a row and a tile column: set exactly at the column of the row's label, the label being a
    class. -/
theorem pay11_iff (TG : Cert.Oim.STg.Idx → BitVec 32) (i : grid0.Coords) (tb : Vec Ideal S512x1 .i32)
    (R : Fin 1024) (r : Fin 512) (j : Fin 2048) (cl : ℕ) (hcl : col i j = cl) (htb : tb (ix2 r 0) = TG (ix1 R))
    (hrange : (TG (ix1 R)).toNat < 100000) :
    k0_pay11 i tb (ix2 r j) = 1#1 ↔ cl = (TG (ix1 R)).toNat := by
  have hlt : cl < 2 ^ 32 := by have := col_lt i j; omega
  rw [pay11_apply, hcl, htb, word_eq_ofNat_iff _ _ hlt]
  constructor
  · rintro ⟨h1, -⟩; exact h1.symm
  · intro h; exact ⟨h.symm, h ▸ hrange⟩

/-- One point's update of a row's three carried values is one step of the tile-by-tile recursion, when the tile of
    logits is the row's (continued) logits at the tile's columns and the mask marks the chosen column. -/
theorem step_triple (i : grid0.Coords) (XN : Vec Ideal S512x128 .bf16) (lb : Vec Ideal S2048x128 .f32)
    (tb : Vec Ideal S512x1 .i32) (M S T : Vec Ideal S512x1 .f32) (r : Fin 512) (lx : ℕ → EReal) (tt n : ℕ)
    (hL : ∀ j : Fin 2048, k0_pay12 i XN lb tb (ix2 r j) = lx (n * 2048 + j.val))
    (hmsk : ∀ j : Fin 2048, k0_pay11 i tb (ix2 r j) = 1#1 ↔ n * 2048 + j.val = tt) :
    (k0_pay3 (k0_pay13 i XN lb tb M) (ix2 r 0),
     k0_pay1 (k0_pay12 i XN lb tb) (k0_pay13 i XN lb tb M) (k0_pay14 i XN lb tb M M) S (ix2 r 0),
     k0_pay2 (k0_pay11 i tb) (k0_pay12 i XN lb tb) T (ix2 r 0))
    = Cert.Oim.tileStep 2048 lx tt n (M (ix2 r 0), S (ix2 r 0), T (ix2 r 0)) := by
  have hnm : k0_pay13 i XN lb tb M (ix2 r 0) = max (M (ix2 r 0)) (Cert.Oim.tileMax 2048 lx n) := by
    rw [pay13_apply]
    simp only [hL]
    rfl
  unfold Cert.Oim.tileStep
  refine Prod.ext ?_ (Prod.ext ?_ ?_)
  · show k0_pay3 (k0_pay13 i XN lb tb M) (ix2 r 0) = _
    rw [pay3_eq, hnm]
  · show k0_pay1 (k0_pay12 i XN lb tb) (k0_pay13 i XN lb tb M) (k0_pay14 i XN lb tb M M) S (ix2 r 0) = _
    rw [pay1_apply, pay14_apply, hnm]
    simp only [hL]
  · show k0_pay2 (k0_pay11 i tb) (k0_pay12 i XN lb tb) T (ix2 r 0) = _
    rw [pay2_apply]
    congr 1
    refine Finset.sum_congr rfl fun j _ => ?_
    rw [hL]
    exact if_congr (hmsk j) rfl rfl

/-! ## Over the grid -/

/-- The body's test "this is the first class tile", over the grid. -/
theorem first_iff : ∀ t : Fin cfg0.N, first (grid0.coords t) ↔ t.val % 49 = 0 :=
  (by decide +kernel : ∀ t : Fin grid0.N, first (grid0.coords t) ↔ t.val % 49 = 0)

/-- A property of every point follows from: it holds at the first class tile of each row block, and it passes from
    a point to the next one within a row block. -/
theorem grid_ind (P : Fin cfg0.N → Prop) (h0 : ∀ t : Fin cfg0.N, t.val % 49 = 0 → P t)
    (hs : ∀ (t : Fin cfg0.N) (h : t.val % 49 ≠ 0), P ⟨t.val - 1, Nat.lt_of_le_of_lt (Nat.sub_le _ _) t.isLt⟩ → P t) :
    ∀ t, P t := by
  rintro ⟨n, hn⟩
  induction n with
  | zero => exact h0 _ rfl
  | succ n ih =>
    by_cases h : (n + 1) % 49 = 0
    · exact h0 _ h
    · exact hs ⟨n + 1, hn⟩ h (ih (Nat.lt_of_succ_lt hn))

/-- The point before, within a row block, is in the same row block. -/
theorem rowOf_pred (t : Fin cfg0.N) (h : t.val % 49 ≠ 0) (r : Fin 512) :
    rowOf ⟨t.val - 1, Nat.lt_of_le_of_lt (Nat.sub_le _ _) t.isLt⟩ r = rowOf t r := by
  apply Fin.ext
  rw [rowOf_val, rowOf_val]
  show 512 * ((t.val - 1) / 49) + r.val = 512 * (t.val / 49) + r.val
  omega

variable (m : (ℓ : Loc nD τ sig) → Buf (Elt Ideal) ℓ)

/-- The three input arrays as the mathematics takes them. -/
abbrev Xof (c : Dev nD) : Cert.Oim.SX.Idx → EReal := m ((c.tc : Thread nD τ).loc main_arg0)
abbrev TGof (c : Dev nD) : Cert.Oim.STg.Idx → BitVec 32 := m ((c.tc : Thread nD τ).loc main_arg1)
abbrev LUTof (c : Dev nD) : Cert.Oim.SLut.Idx → EReal := m ((c.tc : Thread nD τ).loc main_arg2)

/-- The carried values as the body uses them at point t. -/
def entered (c : Dev nD) (t : Fin cfg0.N) : Scr Ideal := enter (grid0.coords t) (xB m c t) (scrBefore m c t)

theorem entered_first (c : Dev nD) (t : Fin cfg0.N) (h : t.val % 49 = 0) :
    entered m c t = ⟨k0_pay5, k0_pay6, k0_pay7, k0_pay8 (xB m c t)⟩ :=
  if_pos ((first_iff t).mpr h)

theorem entered_later (c : Dev nD) (t : Fin cfg0.N) (h : t.val % 49 ≠ 0) :
    entered m c t = scrAt m c (t.val - 1) (Nat.lt_of_le_of_lt (Nat.sub_le _ _) t.isLt) := by
  have h0 : t.val ≠ 0 := fun e => h (by rw [e])
  unfold entered enter
  rw [if_neg (fun hf => h ((first_iff t).mp hf))]
  unfold scrBefore
  rw [dif_neg h0]

/-- The carried values after point t, field by field, from the carried values as the body uses them there. -/
theorem scrAt_xn (c : Dev nD) (t : Fin cfg0.N) : (scrAt m c t.val t.isLt).xn = (entered m c t).xn := by
  rw [scrAt_eq]; rfl

theorem scrAt_triple (c : Dev nD) (t : Fin cfg0.N) (r : Fin 512) :
    ((scrAt m c t.val t.isLt).mx (ix2 r 0), (scrAt m c t.val t.isLt).se (ix2 r 0), (scrAt m c t.val t.isLt).tl (ix2 r 0))
    = (k0_pay3 (k0_pay13 (grid0.coords t) (entered m c t).xn (lutC m c t) (tB m c t) (entered m c t).mx) (ix2 r 0),
       k0_pay1 (k0_pay12 (grid0.coords t) (entered m c t).xn (lutC m c t) (tB m c t))
         (k0_pay13 (grid0.coords t) (entered m c t).xn (lutC m c t) (tB m c t) (entered m c t).mx)
         (k0_pay14 (grid0.coords t) (entered m c t).xn (lutC m c t) (tB m c t) (entered m c t).mx (entered m c t).mx)
         (entered m c t).se (ix2 r 0),
       k0_pay2 (k0_pay11 (grid0.coords t) (tB m c t)) (k0_pay12 (grid0.coords t) (entered m c t).xn (lutC m c t) (tB m c t))
         (entered m c t).tl (ix2 r 0)) := by
  rw [scrAt_eq]; rfl

/-- At every point the normalized rows the body uses are the mathematics' normalized rows of the point's row block. -/
theorem xn_inv (c : Dev nD) : ∀ t : Fin cfg0.N, ∀ (r : Fin 512) (k : Fin 128),
    (entered m c t).xn (ix2 r k) = Cert.Oim.xn (Xof m c) (rowOf t r) k := by
  refine grid_ind _ (fun t h r k => ?_) (fun t h ih r k => ?_)
  · rw [entered_first m c t h]
    exact pay8_xn (Xof m c) (xB m c t) (rowOf t r) r (fun k => xB_apply m c t r k) k
  · rw [entered_later m c t h]
    have e := scrAt_xn m c ⟨t.val - 1, Nat.lt_of_le_of_lt (Nat.sub_le _ _) t.isLt⟩
    rw [show (scrAt m c (t.val - 1) (Nat.lt_of_le_of_lt (Nat.sub_le _ _) t.isLt)).xn = _ from e, ih r k, rowOf_pred t h r]

/-- THE TILE OF LOGITS stored at point t: the mathematics' logits of the point's rows at the tile's classes, minus
    infinity past the last class. -/
theorem logitAt_ext (c : Dev nD) (t : Fin cfg0.N) (r : Fin 512) (j : Fin 2048) :
    logitAt m c t (ix2 r j)
      = Cert.Oim.extCols (Cert.Oim.logit (Xof m c) (TGof m c) (LUTof m c) (rowOf t r)) (colOf t j) := by
  show k0_pay12 (grid0.coords t) (entered m c t).xn (lutC m c t) (tB m c t) (ix2 r j) = _
  exact pay12_ext (Xof m c) (TGof m c) (LUTof m c) (grid0.coords t) _ _ _ (rowOf t r) r j (colOf t j)
    (by unfold col colOf; rw [(coords_facts t).2]) (xn_inv m c t r) (fun k => lutC_apply m c t j k) (tB_apply m c t r)

theorem logitAt_apply (c : Dev nD) (h : Cert.Oim.Admissible (Xof m c) (TGof m c) (LUTof m c)) (t : Fin cfg0.N)
    (r : Fin 512) (j : Fin 2048) (hj : colOf t j < 100000) :
    logitAt m c t (ix2 r j) = Cert.Oim.logit (Xof m c) (TGof m c) (LUTof m c) (rowOf t r) ⟨colOf t j, hj⟩ := by
  rw [logitAt_ext, Cert.Oim.extCols_lt _ hj]

/-- THE CARRIED VALUES after class tile t % 49 of a row block: the tile-by-tile recursion over the row's logits
    (continued by minus infinity), the chosen column the row's label, run for t % 49 + 1 tiles. -/
theorem stats_inv (c : Dev nD) (h : Cert.Oim.Admissible (Xof m c) (TGof m c) (LUTof m c)) :
    ∀ t : Fin cfg0.N, ∀ r : Fin 512,
    ((scrAt m c t.val t.isLt).mx (ix2 r 0), (scrAt m c t.val t.isLt).se (ix2 r 0), (scrAt m c t.val t.isLt).tl (ix2 r 0))
    = Cert.Oim.tileRun 2048 (Cert.Oim.extCols (Cert.Oim.logit (Xof m c) (TGof m c) (LUTof m c) (rowOf t r)))
        ((TGof m c) (ix1 (rowOf t r))).toNat (t.val % 49 + 1) := by
  have step : ∀ (t : Fin cfg0.N) (r : Fin 512),
      ((scrAt m c t.val t.isLt).mx (ix2 r 0), (scrAt m c t.val t.isLt).se (ix2 r 0), (scrAt m c t.val t.isLt).tl (ix2 r 0))
      = Cert.Oim.tileStep 2048 (Cert.Oim.extCols (Cert.Oim.logit (Xof m c) (TGof m c) (LUTof m c) (rowOf t r)))
          ((TGof m c) (ix1 (rowOf t r))).toNat (t.val % 49)
          ((entered m c t).mx (ix2 r 0), (entered m c t).se (ix2 r 0), (entered m c t).tl (ix2 r 0)) := by
    intro t r
    have hcol : ∀ j : Fin 2048, col (grid0.coords t) j = t.val % 49 * 2048 + j.val := fun j => by
      unfold col; rw [(coords_facts t).2]
    rw [scrAt_triple]
    refine step_triple (grid0.coords t) _ _ _ _ _ _ r _ _ (t.val % 49) (fun j => ?_) (fun j => ?_)
    · exact pay12_ext (Xof m c) (TGof m c) (LUTof m c) (grid0.coords t) _ _ _ (rowOf t r) r j _ (hcol j)
        (xn_inv m c t r) (fun k => lutC_apply m c t j k) (tB_apply m c t r)
    · exact pay11_iff (TGof m c) (grid0.coords t) _ (rowOf t r) r j _ (hcol j) (tB_apply m c t r) (h.tg_range (rowOf t r))
  refine grid_ind _ (fun t ht r => ?_) (fun t ht ih r => ?_)
  · rw [step t r, entered_first m c t ht, ht]
    show Cert.Oim.tileStep 2048 _ _ 0 (k0_pay5 (F := Ideal) (ix2 r 0), k0_pay6 (F := Ideal) (ix2 r 0), k0_pay7 (F := Ideal) (ix2 r 0)) = _
    rw [pay5_eq, pay6_eq, pay7_eq]
    rfl
  · rw [step t r, entered_later m c t ht]
    have e := ih r
    rw [rowOf_pred t ht r] at e
    rw [show ((scrAt m c (t.val - 1) (Nat.lt_of_le_of_lt (Nat.sub_le _ _) t.isLt)).mx (ix2 r 0),
        (scrAt m c (t.val - 1) (Nat.lt_of_le_of_lt (Nat.sub_le _ _) t.isLt)).se (ix2 r 0),
        (scrAt m c (t.val - 1) (Nat.lt_of_le_of_lt (Nat.sub_le _ _) t.isLt)).tl (ix2 r 0)) = _ from e]
    have hn : (t.val - 1) % 49 + 1 = t.val % 49 := by omega
    rw [show ((⟨t.val - 1, Nat.lt_of_le_of_lt (Nat.sub_le _ _) t.isLt⟩ : Fin cfg0.N).val % 49 + 1) = t.val % 49 from hn]
    rfl

/-- The mathematics' largest logit and sum of exponentials of a row, written over the row's logits as a function of
    the class. -/
theorem rowMax_eq_sup (X : Cert.Oim.SX.Idx → EReal) (TG : Cert.Oim.STg.Idx → BitVec 32) (LUT : Cert.Oim.SLut.Idx → EReal)
    (R : Fin 1024) : Finset.univ.sup (Cert.Oim.logit X TG LUT R) = Cert.Oim.rowMax X TG LUT R := by
  unfold Cert.Oim.rowMax; rfl

theorem sumExp_eq_sum (X : Cert.Oim.SX.Idx → EReal) (TG : Cert.Oim.STg.Idx → BitVec 32) (LUT : Cert.Oim.SLut.Idx → EReal)
    (R : Fin 1024) :
    (∑ j, Ideal.exp (Cert.Oim.logit X TG LUT R j - Finset.univ.sup (Cert.Oim.logit X TG LUT R)))
      = Cert.Oim.sumExp X TG LUT R := by
  unfold Cert.Oim.sumExp Cert.Oim.rowMax; rfl

/-- Three values that are the recursion's after all 49 tiles are the row's largest logit, its sum of exponentials and
    the chosen class's logit. -/
theorem last_stats (L : Fin 100000 → EReal) (hL : ∀ j, ∃ a : ℝ, L j = (a : EReal)) (tc : Fin 100000) (a b d : EReal)
    (e : (a, b, d) = Cert.Oim.tileRun 2048 (Cert.Oim.extCols L) tc.val 49) :
    a = Finset.univ.sup L ∧ b = ∑ j, Ideal.exp (L j - Finset.univ.sup L) ∧ d = L tc := by
  rw [Cert.Oim.online_oim L hL tc, Prod.mk.injEq, Prod.mk.injEq] at e
  exact e

/-- THE STATISTICS as the carried values after the last class tile of a row block give them: the own class's logit,
    and the row's largest logit plus the logarithm of the sum of exponentials. -/
theorem statsAt_last (c : Dev nD) (h : Cert.Oim.Admissible (Xof m c) (TGof m c) (LUTof m c)) (t : Fin cfg0.N)
    (hl : t.val % 49 = 48) (r : Fin 512) :
    statsAt m c t (ix2 r 0)
        = Cert.Oim.logit (Xof m c) (TGof m c) (LUTof m c) (rowOf t r) (Cert.Oim.tcol (TGof m c) (rowOf t r))
    ∧ statsAt m c t (ix2 r 1)
        = Cert.Oim.rowMax (Xof m c) (TGof m c) (LUTof m c) (rowOf t r)
          + Ideal.log (Cert.Oim.sumExp (Xof m c) (TGof m c) (LUTof m c) (rowOf t r)) := by
  have hrange := h.tg_range (rowOf t r)
  have htc : Cert.Oim.tcol (TGof m c) (rowOf t r) = ⟨((TGof m c) (ix1 (rowOf t r))).toNat, hrange⟩ :=
    Fin.ext (Nat.mod_eq_of_lt hrange)
  have e := stats_inv m c h t r
  rw [hl] at e
  obtain ⟨e1, e2, e3⟩ := last_stats (Cert.Oim.logit (Xof m c) (TGof m c) (LUTof m c) (rowOf t r))
    (fun j => Cert.Oim.logit_real h (rowOf t r) j) ⟨_, hrange⟩ _ _ _ e
  obtain ⟨p0, p1⟩ := pay4_apply (scrAt m c t.val t.isLt).mx (scrAt m c t.val t.isLt).se (scrAt m c t.val t.isLt).tl r
  constructor
  · rw [show statsAt m c t (ix2 r 0) = _ from p0, e3, htc]
  · rw [show statsAt m c t (ix2 r 1) = _ from p1, e1, e2, sumExp_eq_sum, rowMax_eq_sup]

end Cert.KernelIdeal.Hand

end
-- ==== Proof.KFinal.lean ====
/-
  From the blocks the kernel writes back to the two arrays it leaves, and the host lines after the region.

  The logits array [1024, 100000] is written back at every grid point: point (bi, ci) writes rows 512·bi … 512·bi + 511
  and classes 2048·ci … 2048·ci + 2047, except that at the last class tile only the 1696 classes below 100000 are
  written.  Every entry of the array lies in exactly such a part, and what is written there is the logit of its row
  and class, so the array ends holding the logits.  The statistics array [1024, 2] is written back at the last class
  tile of each row block, all 512 rows of it; its two columns are each row's own-class logit and the row's largest
  logit plus the logarithm of its sum of exponentials.  The host lines then subtract the second column from the
  first, add the 1024 differences from zero, divide by 1024 and negate.
-/
import proofs.«425513_j31069793419670_2_alg».proof.Proof.KDat
import proofs.«425513_j31069793419670_2_alg».proof.Proof.Spec
import proofs.«425513_j31069793419670_2_alg».proof.Proof.KBlocks
import proofs.«425513_j31069793419670_2_alg».proof.Proof.KInv
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

private theorem gridN : cfg0.N = 98 := N_0

/-! ## The logits array -/

/-- Where the logits' window sits at each grid point, decided over the grid: its block index is (row block, class
    tile); the part written back is all 512 rows and, except at the last class tile, all 2048 classes — there 1696. -/
theorem idx_logits : ∀ t : Fin cfg0.N, win0_3.index t (0 : Fin 2) = t.val / 49 ∧ win0_3.index t (1 : Fin 2) = t.val % 49
    ∧ win0_3.xsize (grid0.coords t) (0 : Fin 2) = 512
    ∧ win0_3.xsize (grid0.coords t) (1 : Fin 2) = (if t.val % 49 = 48 then 1696 else 2048) :=
  (by decide +kernel : ∀ t : Fin grid0.N, _)

/-- What point `t` writes back into the logits array is its part of the array of logits. -/
theorem flushed_logits (c : Dev nD) (h : Cert.Oim.Admissible (Xof m c) (TGof m c) (LUTof m c)) (t : Fin cfg0.N) :
    (dats m 0 c).flushed 3 t
      = ((cfg0.win 3).blk t).view.read (Elt Ideal) (Cert.Oim.logitsG (Xof m c) (TGof m c) (LUTof m c)) := by
  show (cfg0.win 3).cut (grid0.coords t) ((dats m 0 c).after 3 t) = _
  rw [after0_3]
  obtain ⟨e0, e1, s0, s1⟩ := idx_logits t
  funext y
  have hy0 : (y 0).val < win0_3.xsize (grid0.coords t) (0 : Fin 2) := (y 0).isLt
  have hy1 : (y 1).val < win0_3.xsize (grid0.coords t) (1 : Fin 2) := (y 1).isLt
  rw [s0] at hy0
  rw [s1] at hy1
  have hy1' : (y 1).val < 2048 := by split at hy1 <;> omega
  have hj : colOf t ⟨(y 1).val, hy1'⟩ < 100000 := by
    show (t.val % 49) * 2048 + (y 1).val < 100000
    split at hy1 <;> omega
  have hx : (cfg0.win 3).xinj (grid0.coords t) y = ix2 (⟨(y 0).val, hy0⟩ : Fin 512) (⟨(y 1).val, hy1'⟩ : Fin 2048) := by
    funext a
    match a with
    | ⟨0, _⟩ => rfl
    | ⟨1, _⟩ => rfl
  show logitAt m c t ((cfg0.win 3).xinj (grid0.coords t) y)
    = Cert.Oim.logitsG (Xof m c) (TGof m c) (LUTof m c) (((cfg0.win 3).blk t).view.emb y)
  rw [hx, logitAt_apply m c h t ⟨(y 0).val, hy0⟩ ⟨(y 1).val, hy1'⟩ hj]
  show Cert.Oim.logit (Xof m c) (TGof m c) (LUTof m c) _ _
    = Cert.Oim.logit (Xof m c) (TGof m c) (LUTof m c) ((((cfg0.win 3).blk t).view.emb y) 0) ((((cfg0.win 3).blk t).view.emb y) 1)
  refine congrArg₂ (Cert.Oim.logit (Xof m c) (TGof m c) (LUTof m c)) (Fin.ext ?_) (Fin.ext ?_)
  · show 512 * (t.val / 49) + (y 0).val = win0_3.index t (0 : Fin 2) * 512 + 1 * (y 0).val
    rw [e0]; omega
  · show (t.val % 49) * 2048 + (y 1).val = win0_3.index t (1 : Fin 2) * 2048 + 1 * (y 1).val
    rw [e1]; omega

/-- An entry of the logits array is in point `t`'s part iff its row and its class are in the part's ranges. -/
theorem mem_blk_logits (t : Fin cfg0.N) (i : S1024x100000.Idx) :
    i ∈ ((cfg0.win 3).blk t).view.set ↔ ∀ a : Fin 2, win0_3.index t a * S512x2048.size a ≤ (i a).val
      ∧ (i a).val < win0_3.index t a * S512x2048.size a + win0_3.xsize (grid0.coords t) a := by
  show i ∈ ((View.whole main_v1_0).slice (win0_3.rect t)).set ↔ _
  rw [View.set_slice_whole, Rect.mem_set_unit]
  exact Iff.rfl

/-- Every entry of the logits array is in some point's part: row `r`, class `j` in that of point (r / 512, j / 2048). -/
theorem cover_logits (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  have hN := gridN
  let t : Fin cfg0.N := ⟨49 * ((i 0).val / 512) + (i 1).val / 2048, by omega⟩
  have ht : t.val = 49 * ((i 0).val / 512) + (i 1).val / 2048 := rfl
  obtain ⟨e0, e1, s0, s1⟩ := idx_logits t
  refine ⟨t, flush0_3 t, ?_⟩
  rw [mem_blk_logits]
  intro a
  match a with
  | ⟨0, _⟩ =>
    show win0_3.index t (0 : Fin 2) * 512 ≤ (i 0).val ∧ (i 0).val < win0_3.index t (0 : Fin 2) * 512 + win0_3.xsize (grid0.coords t) (0 : Fin 2)
    rw [e0, s0, ht]; omega
  | ⟨1, _⟩ =>
    show win0_3.index t (1 : Fin 2) * 2048 ≤ (i 1).val ∧ (i 1).val < win0_3.index t (1 : Fin 2) * 2048 + win0_3.xsize (grid0.coords t) (1 : Fin 2)
    rw [e1, s1, ht]; split <;> omega

/-- THE LOGITS ARRAY after the run is the array of logits. -/
theorem final_logits (c : Dev nD) (h : Cert.Oim.Admissible (Xof m c) (TGof m c) (LUTof m c)) :
    (dats m 0 c).arrAt 3 cfg0.N = Cert.Oim.logitsG (Xof m c) (TGof m c) (LUTof m c) :=
  (dats m 0 c).arrAt_eq_of_cover 3 (Cert.Oim.logitsG (Xof m c) (TGof m c) (LUTof m c))
    (fun t _ => flushed_logits m c h t) cover_logits

/-! ## The statistics array -/

/-- The per-row statistics as an array: column 0 is the row's own-class logit, column 1 the row's largest logit plus
    the logarithm of its sum of exponentials. -/
def statsG (x : Cert.Oim.SX.Idx → EReal) (tg : Cert.Oim.STg.Idx → BitVec 32) (lut : Cert.Oim.SLut.Idx → EReal) :
    S1024x2.Idx → EReal := fun i =>
  if (i 1).val = 0 then Cert.Oim.logit x tg lut (i 0) (Cert.Oim.tcol tg (i 0))
  else Cert.Oim.rowMax x tg lut (i 0) + Ideal.log (Cert.Oim.sumExp x tg lut (i 0))

theorem statsG_col0 (x : Cert.Oim.SX.Idx → EReal) (tg : Cert.Oim.STg.Idx → BitVec 32) (lut : Cert.Oim.SLut.Idx → EReal)
    (R : Fin 1024) : statsG x tg lut (ix2 R (0 : Fin 2)) = Cert.Oim.logit x tg lut R (Cert.Oim.tcol tg R) := by
  unfold statsG; exact if_pos rfl

theorem statsG_col1 (x : Cert.Oim.SX.Idx → EReal) (tg : Cert.Oim.STg.Idx → BitVec 32) (lut : Cert.Oim.SLut.Idx → EReal)
    (R : Fin 1024) : statsG x tg lut (ix2 R (1 : Fin 2))
      = Cert.Oim.rowMax x tg lut R + Ideal.log (Cert.Oim.sumExp x tg lut R) := by
  unfold statsG; exact if_neg (show ¬((1 : Fin 2).val = 0) by decide)

/-- Where the statistics' window sits at each grid point, decided over the grid: its block index is (row block, 0). -/
theorem idx_stats : ∀ t : Fin cfg0.N, win0_4.index t (0 : Fin 2) = t.val / 49 ∧ win0_4.index t (1 : Fin 2) = 0 :=
  (by decide +kernel : ∀ t : Fin grid0.N, _)

/-- What a point at the last class tile writes back into the statistics array is its 512 rows of the statistics. -/
theorem flushed_stats (c : Dev nD) (h : Cert.Oim.Admissible (Xof m c) (TGof m c) (LUTof m c)) (t : Fin cfg0.N)
    (hf : (cfg0.win 4).flush t = true) :
    (dats m 0 c).flushed 4 t
      = ((cfg0.win 4).blk t).view.read (Elt Ideal) (statsG (Xof m c) (TGof m c) (LUTof m c)) := by
  have hl : t.val % 49 = 48 := (flush0_4 t).mp hf
  show (cfg0.win 4).cut (grid0.coords t) ((dats m 0 c).after 4 t) = _
  rw [after0_4]
  obtain ⟨e0, e1⟩ := idx_stats t
  funext y
  have hy0 : (y 0).val < 512 := (y 0).isLt
  have hy1 : (y 1).val < 2 := (y 1).isLt
  obtain ⟨h0, h1⟩ := statsAt_last m c h t hl ⟨(y 0).val, hy0⟩
  have hE : ((cfg0.win 4).blk t).view.emb y = ix2 (rowOf t ⟨(y 0).val, hy0⟩) (⟨(y 1).val, hy1⟩ : Fin 2) := by
    funext a
    match a with
    | ⟨0, _⟩ =>
      apply Fin.ext
      show win0_4.index t (0 : Fin 2) * 512 + 1 * (y 0).val = 512 * (t.val / 49) + (y 0).val
      rw [e0]; omega
    | ⟨1, _⟩ =>
      apply Fin.ext
      show win0_4.index t (1 : Fin 2) * 2 + 1 * (y 1).val = (y 1).val
      rw [e1]; omega
  have hx : (cfg0.win 4).xinj (grid0.coords t) y = ix2 (⟨(y 0).val, hy0⟩ : Fin 512) (⟨(y 1).val, hy1⟩ : Fin 2) := by
    funext a
    match a with
    | ⟨0, _⟩ => rfl
    | ⟨1, _⟩ => rfl
  show statsAt m c t ((cfg0.win 4).xinj (grid0.coords t) y)
    = statsG (Xof m c) (TGof m c) (LUTof m c) (((cfg0.win 4).blk t).view.emb y)
  rw [hx, hE]
  rcases (by omega : (y 1).val = 0 ∨ (y 1).val = 1) with hc | hc
  · rw [show (⟨(y 1).val, hy1⟩ : Fin 2) = 0 from Fin.ext hc, statsG_col0]; exact h0
  · rw [show (⟨(y 1).val, hy1⟩ : Fin 2) = 1 from Fin.ext hc, statsG_col1]; exact h1

/-- An entry of the statistics array is in point `t`'s block iff its row is among the block's 512 rows. -/
theorem mem_blk_stats (t : Fin cfg0.N) (i : S1024x2.Idx) :
    i ∈ ((cfg0.win 4).blk t).view.set ↔ ∀ a : Fin 2, win0_4.index t a * S512x2.size a ≤ (i a).val
      ∧ (i a).val < win0_4.index t a * S512x2.size a + S512x2.size a := by
  show i ∈ ((View.whole main_v1_1).slice (win0_4.rect t)).set ↔ _
  rw [View.set_slice_whole, Rect.mem_set_unit]
  exact Iff.rfl

/-- Every entry of the statistics array is in the block of the last class tile's point of its row block. -/
theorem cover_stats (i : S1024x2.Idx) :
    ∃ t : Fin cfg0.N, (cfg0.win 4).flush t = true ∧ i ∈ ((cfg0.win 4).blk t).view.set := by
  have hi0 : (i 0).val < 1024 := (i 0).isLt
  have hi1 : (i 1).val < 2 := (i 1).isLt
  have hN := gridN
  let t : Fin cfg0.N := ⟨49 * ((i 0).val / 512) + 48, by omega⟩
  have ht : t.val = 49 * ((i 0).val / 512) + 48 := rfl
  obtain ⟨e0, e1⟩ := idx_stats t
  refine ⟨t, (flush0_4 t).mpr (by rw [ht]; omega), ?_⟩
  rw [mem_blk_stats]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 2 ≤ (i 1).val ∧ (i 1).val < win0_4.index t (1 : Fin 2) * 2 + 2
    rw [e1]; omega

/-- THE STATISTICS ARRAY after the run is the array of per-row statistics. -/
theorem final_stats (c : Dev nD) (h : Cert.Oim.Admissible (Xof m c) (TGof m c) (LUTof m c)) :
    (dats m 0 c).arrAt 4 cfg0.N = statsG (Xof m c) (TGof m c) (LUTof m c) :=
  (dats m 0 c).arrAt_eq_of_cover 4 (statsG (Xof m c) (TGof m c) (LUTof m c))
    (fun t hf => flushed_stats m c h t hf) cover_stats

/-! ## The host lines after the region -/

/-- A sum over the indices of a rank-1 array of 1024 entries is the sum over its 1024 positions. -/
theorem sum_rows {M : Type*} [AddCommMonoid M] (f : S1024.Idx → M) : ∑ i, f i = ∑ r : Fin 1024, f (ix1 r) :=
  Fintype.sum_equiv ⟨fun i => i 0, ix1, fun i => (eq_ix1 i).symm, fun _ => rfl⟩ _ _ fun i => congrArg f (eq_ix1 i)

/-- Column 0 of a [1024, 2] array, sliced out and reshaped to a vector, read at row `r`. -/
theorem column0_apply {α : Type} (G : S1024x2.Idx → α) (r : Fin 1024) :
    shapeCast S1024 (extractStridedSlice S1024x1 ![0, 0] G slices_S1024x2_S1024x1_0_0) shapeCasts_S1024x1_S1024 (ix1 r)
      = G (ix2 r (0 : Fin 2)) := by
  refine (shapeCast_apply _ _ (ix1 r) (ix2 r (0 : Fin 1)) ?_).trans ?_
  · rw [Shape.rowMajor_val_two, Shape.rowMajor_val_one]
    show r.val * 1 + 0 = r.val
    omega
  · refine extractStridedSlice_apply _ _ _ _ (ix2 r (0 : Fin 2)) fun a => ?_
    match a with
    | ⟨0, _⟩ => show r.val = 0 + r.val; omega
    | ⟨1, _⟩ => rfl

/-- Column 1 likewise. -/
theorem column1_apply {α : Type} (G : S1024x2.Idx → α) (r : Fin 1024) :
    shapeCast S1024 (extractStridedSlice S1024x1 ![0, 1] G slices_S1024x2_S1024x1_0_1) shapeCasts_S1024x1_S1024 (ix1 r)
      = G (ix2 r (1 : Fin 2)) := by
  refine (shapeCast_apply _ _ (ix1 r) (ix2 r (0 : Fin 1)) ?_).trans ?_
  · rw [Shape.rowMajor_val_two, Shape.rowMajor_val_one]
    show r.val * 1 + 0 = r.val
    omega
  · refine extractStridedSlice_apply _ _ _ _ (ix2 r (1 : Fin 2)) fun a => ?_
    match a with
    | ⟨0, _⟩ => show r.val = 0 + r.val; omega
    | ⟨1, _⟩ => rfl

theorem tail_loss (c : Dev nD) (h : Cert.Oim.Admissible (Xof m c) (TGof m c) (LUTof m c)) :
    Pipeline.afterTail₀ cfgs (dats m) 0 (V0 m) [hostOps1] c main_v9
      = Cert.Oim.lossArr (Xof m c) (TGof m c) (LUTof m c) := by
  unfold Pipeline.afterTail₀
  show StableHlo.after hostOps1 _ (Proc.devRef .tc main_v9) = _
  after_results
  have hS : Pipeline.withArrays (cfgs 0).spec c (V0 m c) (fun w => (dats m 0 c).arrAt w (cfgs 0).N) (Proc.devRef .tc main_v1_1)
      = statsG (Xof m c) (TGof m c) (LUTof m c) :=
    (Pipeline.withArrays_arr spec0 launch0.win.arr_inj c _ _ 4).trans (final_stats m c h)
  rw [hS]
  funext j
  show -(Ideal.div (Host.reduceAdd (F := Ideal) _ _ reducesTo_S1024_S_d0 h_S_ j) _) = _
  unfold Cert.Oim.lossArr Cert.Oim.lossG
  refine congrArg Neg.neg (congrArg₂ Ideal.div ?_ rfl)
  simp only [Host.reduceAdd, Ideal.hostReduceAdd_def]
  rw [Ideal.hostReduceAdd_total reducesTo_S1024_S_d0 (fun b => b.elim0)]
  refine congrArg₂ (· + ·) Ideal.ofBits_zero_f32 ?_
  rw [sum_rows]
  refine Finset.sum_congr rfl fun r _ => ?_
  show shapeCast S1024 (extractStridedSlice S1024x1 ![0, 0] (statsG (Xof m c) (TGof m c) (LUTof m c)) slices_S1024x2_S1024x1_0_0)
        shapeCasts_S1024x1_S1024 (ix1 r)
      - shapeCast S1024 (extractStridedSlice S1024x1 ![0, 1] (statsG (Xof m c) (TGof m c) (LUTof m c)) slices_S1024x2_S1024x1_0_1)
        shapeCasts_S1024x1_S1024 (ix1 r) = _
  rw [column0_apply, column1_apply, statsG_col0, statsG_col1]
  rfl

/-! ## Both results, read off the frame run's post -/

/-- From the frame run's post: the loss buffer ends holding the loss and the logits array the logits. The tail
    writes no array of the region, so the logits array is as the region left it. -/
theorem results_of_framePost (r : PUnit × MemSt nD τ sig (Elt Ideal))
    (hr : Pipeline.FramePost cfgs (dats m) 0 (Pipeline.afterTail₀ cfgs (dats m) 0 (V0 m) [hostOps1]) r)
    (c : Dev nD) (h : Cert.Oim.Admissible (Xof m c) (TGof m c) (LUTof m c)) :
    r.2.mem ((c.tc : Thread nD τ).loc main_v9) = Cert.Oim.lossArr (Xof m c) (TGof m c) (LUTof m c)
    ∧ r.2.mem ((c.tc : Thread nD τ).loc main_v1_0) = Cert.Oim.logitsG (Xof m c) (TGof m c) (LUTof m c) :=
  ⟨((hr c).2 main_v9 (Pipeline.mem_restRefs_of main_v9 (by decide) (by decide))).trans (tail_loss m c h),
   ((hr c).1 3).trans (final_logits m c h)⟩

end Cert.KernelIdeal.Hand

end
-- ==== Proof.lean ====
/-
  The certificate: the word-level kernel and its idealization run to the end, fault nowhere and leave their inputs as
  they found them; the idealization differs from the kernel only in reading the fill value of the masked class columns
  as minus infinity; and over the extended reals the idealized kernel and the reference return the same loss and the
  same logits.

  Both programs normalize each feature row by its Euclidean norm plus a guard, take the inner products with the class
  vectors, and lower the own-class logit by the margin.  The reference then takes, per row, the logarithm of the
  softmax of the own class in one pass.  The kernel walks the classes tile by tile, keeping a running maximum and a
  running sum of exponentials rescaled whenever the maximum grows; columns past the last class are filled with minus
  infinity, whose exponential is zero, so after the last tile the two agree: exp(a) · exp(b) = exp(a + b) on the reals
  is the law that joins them, and it needs every logit to be a real number, which the precondition's finiteness gives.
  The labels must be classes (the precondition's range conjunct): the reference wraps a negative label to a class
  and lowers that class's logit, which the kernel's equality test never does.
-/
import proofs.«425513_j31069793419670_2_alg».proof.Defs
import proofs.«425513_j31069793419670_2_alg».proof.Proof.Gen.Kernel
import proofs.«425513_j31069793419670_2_alg».proof.Proof.Gen.KernelIdeal
import proofs.«425513_j31069793419670_2_alg».proof.Proof.Gen.ReferenceIdeal
import proofs.«425513_j31069793419670_2_alg».proof.Proof.Gen.Pre_finite_inputs
import proofs.«425513_j31069793419670_2_alg».proof.Proof.PreFacts
import proofs.«425513_j31069793419670_2_alg».proof.Proof.RefValue
import proofs.«425513_j31069793419670_2_alg».proof.Proof.KBits
import proofs.«425513_j31069793419670_2_alg».proof.Proof.KBody
import proofs.«425513_j31069793419670_2_alg».proof.Proof.KFinal
import Idealize.ShloMosaic.Lib.Pipeline.FrameBody
import Idealize.ShloMosaic.Lib.Pipeline.FrameSuffix
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- The two places where the fill value stands are read as minus infinity by the certificate's table. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

theorem algebraic : Cert.algebraic_KernelIdeal_ReferenceIdeal := by
  intro m ρ m' ρ' hpre hagree
  have hadm : ∀ c : Dev Cert.KernelIdeal.nD, Cert.Oim.Admissible
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    fun c => Cert.Oim.admissible_of_pre _ _ _ (hpre c)
  refine ⟨fun c => Cert.Oim.lossArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Oim.logitsG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · -- the idealized kernel: the loss is read off the host lines after the region, the logits off the region's first result
    refine (θ_run Cert.KernelIdeal.defs _ _).mono (fun r h c => ?_) (Cert.KernelIdeal.Hand.run_main m ρ)
    obtain ⟨h9, h10⟩ := Cert.KernelIdeal.Hand.results_of_framePost m r h c (hadm c)
    exact ⟨h9, h10,
      ((h c).1 0).trans (((Cert.KernelIdeal.Hand.dats m 0 c).arrAt_in 0 rfl _).trans
        ((Cert.KernelIdeal.Hand.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Hand.dats m) c),
      ((h c).1 1).trans (((Cert.KernelIdeal.Hand.dats m 0 c).arrAt_in 1 rfl _).trans
        ((Cert.KernelIdeal.Hand.A_eq m c 1).trans (Cert.KernelIdeal.Gen.V_main_arg2 m c)))⟩
  · -- the reference: its run's two result terms are the same two functions of the arguments
    refine (θ_run Cert.ReferenceIdeal.defs _ _).mono (fun r h c => ⟨?_, ?_, (h c).2.2⟩)
      (Cert.ReferenceIdeal.ValueP.run (F := Ideal) m' ρ')
    · rw [(h c).1, Cert.ReferenceIdeal.ReadP.val_main_v42_eq, (hagree c).1, (hagree c).2.1, (hagree c).2.2]
      exact Cert.ReferenceIdeal.RefValue.loss_eq _ _ _ (hadm c)
    · rw [(h c).2.1, Cert.ReferenceIdeal.ReadP.val_main_v24_eq, (hagree c).1, (hagree c).2.1, (hagree c).2.2]
      exact Cert.ReferenceIdeal.RefValue.logits_eq _ _ _ (hadm c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
